-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S144x64 .f32) (main_arg7 : FVec F S64 .f32) (main_arg8 : FVec F S64x10 .f32) (main_arg9 : FVec F S10 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S144x64 .f32 := Host.absf main_arg6
  let main_cst_6 : FVec F S_ .f32 := constant S_ .f32 0x7F800000#32
  let main_v20 : FVec F S144x64 .f32 := broadcastInDim S144x64 ![] bcast_S_S144x64 main_cst_6
  let main_v21 : IVec S144x64 1 := cmpf .olt main_v19 main_v20
  let main_c_7 : IVec S_ 1 := constantI S_ 1 1#1
  let main_v22 : IVec S_ 1 := (fun x v => Host.reduce IntOp.andi x v reducesTo_S144x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x10 .f32 := Host.absf main_arg8
  let main_cst_10 : FVec F S_ .f32 := constant S_ .f32 0x7F800000#32
  let main_v30 : FVec F S64x10 .f32 := broadcastInDim S64x10 ![] bcast_S_S64x10 main_cst_10
  let main_v31 : IVec S64x10 1 := cmpf .olt main_v29 main_v30
  let main_c_11 : IVec S_ 1 := constantI S_ 1 1#1
  let main_v32 : IVec S_ 1 := (fun x v => Host.reduce IntOp.andi x v reducesTo_S64x10_S_d0_1 h_S_) main_v31 main_c_11
  let main_v33 : IVec S_ 1 := andi main_v28 main_v32
  fn_part2 (F := F) main_arg9 main_v33

def fn {F : FTy → Type} [FloatOps F] (main_arg0 : FVec F S100000x64 .f32) (main_arg1 : IVec S2x1600000 32) (main_arg2 : FVec F S1600000x16 .f32) (main_arg3 : IVec S100000 32) (main_arg4 : FVec F S144x64 .f32) (main_arg5 : FVec F S64 .f32) (main_arg6 : FVec F S144x64 .f32) (main_arg7 : FVec F S64 .f32) (main_arg8 : FVec F S64x10 .f32) (main_arg9 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S144x64 .f32 := Host.absf main_arg4
  let main_cst_2 : FVec F S_ .f32 := constant S_ .f32 0x7F800000#32
  let main_v10 : FVec F S144x64 .f32 := broadcastInDim S144x64 ![] bcast_S_S144x64 main_cst_2
  let main_v11 : IVec S144x64 1 := cmpf .olt main_v9 main_v10
  let main_c_3 : IVec S_ 1 := constantI S_ 1 1#1
  let main_v12 : IVec S_ 1 := (fun x v => Host.reduce IntOp.andi x v reducesTo_S144x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S100000x1 : Shape := ⟨2, ![100000, 1]⟩
abbrev S_ : Shape := ⟨0, ![]⟩
abbrev S1600000x1 : Shape := ⟨2, ![1600000, 1]⟩
abbrev S1600000x64 : Shape := ⟨2, ![1600000, 64]⟩
abbrev S64x64 : Shape := ⟨2, ![64, 64]⟩
abbrev S16x64 : Shape := ⟨2, ![16, 64]⟩
abbrev S1x64 : Shape := ⟨2, ![1, 64]⟩
abbrev S6400x64 : Shape := ⟨2, ![6400, 64]⟩
abbrev S6400x16 : Shape := ⟨2, ![6400, 16]⟩
abbrev S1x10 : Shape := ⟨2, ![1, 10]⟩
abbrev S10000x64 : Shape := ⟨2, ![10000, 64]⟩
abbrev S10000x1 : Shape := ⟨2, ![10000, 1]⟩
abbrev S64x1 : Shape := ⟨2, ![64, 1]⟩

abbrev nBuf : Space → Nat
  | .hbm => 48
  | .vmem => 27
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S144x64, .f32⟩
  | .hbm, ⟨5, _⟩ => ⟨S64, .f32⟩
  | .hbm, ⟨6, _⟩ => ⟨S144x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S100000x1, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S64x64, .f32⟩
  | .hbm, ⟨34, _⟩ => ⟨S64x64, .f32⟩
  | .hbm, ⟨35, _⟩ => ⟨S16x64, .f32⟩
  | .hbm, ⟨36, _⟩ => ⟨S64x64, .f32⟩
  | .hbm, ⟨37, _⟩ => ⟨S64x64, .f32⟩
  | .hbm, ⟨38, _⟩ => ⟨S16x64, .f32⟩
  | .hbm, ⟨39, _⟩ => ⟨S1x64, .f32⟩
  | .hbm, ⟨40, _⟩ => ⟨S1x64, .f32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S1x10, .f32⟩
  | .hbm, ⟨47, _⟩ => ⟨S64x10, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x16, .f32⟩
  | .local _ .vmem, ⟨5, _⟩ => ⟨S6400x16, .f32⟩
  | .local _ .vmem, ⟨6, _⟩ => ⟨S64x64, .f32⟩
  | .local _ .vmem, ⟨7, _⟩ => ⟨S64x64, .f32⟩
  | .local _ .vmem, ⟨8, _⟩ => ⟨S16x64, .f32⟩
  | .local _ .vmem, ⟨9, _⟩ => ⟨S64x64, .f32⟩
  | .local _ .vmem, ⟨10, _⟩ => ⟨S64x64, .f32⟩
  | .local _ .vmem, ⟨11, _⟩ => ⟨S16x64, .f32⟩
  | .local _ .vmem, ⟨12, _⟩ => ⟨S1x64, .f32⟩
  | .local _ .vmem, ⟨13, _⟩ => ⟨S1x64, .f32⟩
  | .local _ .vmem, ⟨14, _⟩ => ⟨S6400x64, .f32⟩
  | .local _ .vmem, ⟨15, _⟩ => ⟨S6400x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x1, .i32⟩
  | .local _ .vmem, ⟨21, _⟩ => ⟨S10000x1, .i32⟩
  | .local _ .vmem, ⟨22, _⟩ => ⟨S64x10, .f32⟩
  | .local _ .vmem, ⟨23, _⟩ => ⟨S1x10, .f32⟩
  | .local _ .vmem, ⟨24, _⟩ => ⟨S64x10, .f32⟩
  | .local _ .vmem, ⟨25, _⟩ => ⟨S64x64, .f32⟩
  | .local _ .vmem, ⟨26, _⟩ => ⟨S64x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg4_0 : Ref sig .tc := ⟨.vmem, 23, rfl⟩
abbrev cc1_stg5_0 : Ref sig .tc := ⟨.vmem, 24, rfl⟩
abbrev cc1_scratch0 : Ref sig .tc := ⟨.vmem, 25, rfl⟩
abbrev cc1_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem4_0 : DmaSem sig := 23
abbrev cc1_sem5_0 : DmaSem sig := 24

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S6400x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v31 : BitVec 1 := Scalar.cmpi .eq arg0 c9_i32
  let v32 : BitVec 32 := Scalar.extui v31
  let c0_i32_17 : BitVec 32 := 0#32
  let v33 : BitVec 1 := Scalar.cmpi .ne v32 c0_i32_17
  v33

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x10 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S100000_S100000x1 : S100000.ShapeCasts S100000x1
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S144x64_S64x64_0_0 : S144x64.Slices ![0, 0] S64x64
  slices_S144x64_S64x64_64_0 : S144x64.Slices ![64, 0] S64x64
  slices_S144x64_S16x64_128_0 : S144x64.Slices ![128, 0] S16x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x16_S6400x16_0_0 : ∀ a, (![0, 0] : Fin 2 → Nat) a + S6400x16.size a ≤ S6400x16.size a
  h_S6400x16 : 0 < S6400x16.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  shapeCasts_S10_S1x10 : S10.ShapeCasts S1x10
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  iota_S10000x64_d1_w32 : S10000x64.Iotas .tc 32 [1]
  broadcasts_S10000x1_S10000x64 : S10000x1.Broadcasts S10000x64
  natLt_1_32 : 1 < 32
  broadcasts_S64x1_S64x64 : S64x1.Broadcasts S64x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  dot_S6400x16_S16x64_S6400x64_1_0_0_1_n_n_wf : DotDims.WF S6400x16 S16x64 S6400x64 [1] [0] [0] [1] [] []
  scatter_S100000x64_S1600000x1_S1600000x64_1_0_0_1_wf : ScatterDims.WF S100000x64 S1600000x1 S1600000x64 [1] [0] [0] 1
  dot_S10000x64_S10000x64_S64x64_0_0_1_1_n_n_wf : DotDims.WF S10000x64 S10000x64 S64x64 [0] [0] [1] [1] [] []
  dot_S10000x64_S10000x1_S64x1_0_0_1_1_n_n_wf : DotDims.WF S10000x64 S10000x1 S64x1 [0] [0] [1] [1] [] []
  dot_S64x64_S64x10_S64x10_1_0_0_1_n_n_wf : DotDims.WF S64x64 S64x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x16.size a ≤ S1600000x16.size a
  hwx0_2 : ∀ i : grid0.Coords, EltTy.bits .f32 = 32 ∨ (Rect.block (s := S1600000x16) S6400x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x64.size a ≤ S16x64.size a
  hwx0_5 : ∀ i : grid0.Coords, EltTy.bits .f32 = 32 ∨ (Rect.block (s := S16x64) S16x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16x64.size a ≤ S16x64.size a
  hwx0_8 : ∀ i : grid0.Coords, EltTy.bits .f32 = 32 ∨ (Rect.block (s := S16x64) S16x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S6400x64.size a ≤ S1600000x64.size a
  hwx0_11 : ∀ i : grid0.Coords, EltTy.bits .f32 = 32 ∨ (Rect.block (s := S1600000x64) S6400x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .i32 = 32 ∨ (Rect.block (s := S100000x1) S10000x1.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x10.size a ≤ S64x10.size a
  hwx1_3 : ∀ i : grid1.Coords, EltTy.bits .f32 = 32 ∨ (Rect.block (s := S64x10) S64x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x10.size a ≤ S64x10.size a
  hwx1_5 : ∀ i : grid1.Coords, EltTy.bits .f32 = 32 ∨ (Rect.block (s := S64x10) S64x10.size (cc1_transform_5 i) (hinb1_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def dot_S6400x16_S16x64_S6400x64_1_0_0_1_n_n : DotDims S6400x16 S16x64 S6400x64 where
  lhsContracting := [1]
  rhsContracting := [0]
  lhsNonContracting := [0]
  rhsNonContracting := [1]
  lhsBatch := []
  rhsBatch := []
  wf := dot_S6400x16_S16x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def dot_S10000x64_S10000x1_S64x1_0_0_1_1_n_n : DotDims S10000x64 S10000x1 S64x1 where
  lhsContracting := [0]
  rhsContracting := [0]
  lhsNonContracting := [1]
  rhsNonContracting := [1]
  lhsBatch := []
  rhsBatch := []
  wf := dot_S10000x64_S10000x1_S64x1_0_0_1_1_n_n_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

abbrev win0_0 : Pipeline.Window sig grid0 :=
  Pipeline.Window.ofSpec (Memref.whole main_v11) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S16x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S16x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v26) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v27) S6400x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S64x10.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S100000 : Shape := ⟨1, ![100000]⟩
abbrev S144x64 : Shape := ⟨2, ![144, 64]⟩
abbrev S64 : Shape := ⟨1, ![64]⟩
abbrev S64x10 : Shape := ⟨2, ![64, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x144 : Shape := ⟨2, ![1600000, 144]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩
abbrev S1x10 : Shape := ⟨2, ![1, 10]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S100000, .i32⟩
  | .hbm, ⟨4, _⟩ => ⟨S144x64, .f32⟩
  | .hbm, ⟨5, _⟩ => ⟨S64, .f32⟩
  | .hbm, ⟨6, _⟩ => ⟨S144x64, .f32⟩
  | .hbm, ⟨7, _⟩ => ⟨S64, .f32⟩
  | .hbm, ⟨8, _⟩ => ⟨S64x10, .f32⟩
  | .hbm, ⟨9, _⟩ => ⟨S10, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S1600000x144, .f32⟩
  | .hbm, ⟨33, _⟩ => ⟨S1600000x64, .f32⟩
  | .hbm, ⟨34, _⟩ => ⟨S1x64, .f32⟩
  | .hbm, ⟨35, _⟩ => ⟨S1600000x64, .f32⟩
  | .hbm, ⟨36, _⟩ => ⟨S1600000x64, .f32⟩
  | .hbm, ⟨37, _⟩ => ⟨S1600000x64, .f32⟩
  | .hbm, ⟨38, _⟩ => ⟨S1600000x64, .f32⟩
  | .hbm, ⟨39, _⟩ => ⟨S_, .f32⟩
  | .hbm, ⟨40, _⟩ => ⟨S1600000x64, .f32⟩
  | .hbm, ⟨41, _⟩ => ⟨S1600000x64, .f32⟩
  | .hbm, ⟨42, _⟩ => ⟨S_, .f32⟩
  | .hbm, ⟨43, _⟩ => ⟨S1600000x64, .f32⟩
  | .hbm, ⟨44, _⟩ => ⟨S1600000x64, .f32⟩
  | .hbm, ⟨45, _⟩ => ⟨S1600000x64, .f32⟩
  | .hbm, ⟨46, _⟩ => ⟨S1x64, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S1600000x64, .f32⟩
  | .hbm, ⟨51, _⟩ => ⟨S1600000x64, .f32⟩
  | .hbm, ⟨52, _⟩ => ⟨S1600000x64, .f32⟩
  | .hbm, ⟨53, _⟩ => ⟨S1600000x64, .f32⟩
  | .hbm, ⟨54, _⟩ => ⟨S1600000x64, .i1⟩
  | .hbm, ⟨55, _⟩ => ⟨S1600000x64, .f32⟩
  | .hbm, ⟨56, _⟩ => ⟨S1600000x64, .f32⟩
  | .hbm, ⟨57, _⟩ => ⟨S1600000x64, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x64, .f32⟩
  | .hbm, ⟨62, _⟩ => ⟨S1600000x64, .f32⟩
  | .hbm, ⟨63, _⟩ => ⟨S1600000x64, .f32⟩
  | .hbm, ⟨64, _⟩ => ⟨S_, .f32⟩
  | .hbm, ⟨65, _⟩ => ⟨S100000x64, .f32⟩
  | .hbm, ⟨66, _⟩ => ⟨S1600000x1, .i32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S64x64, .f32⟩
  | .hbm, ⟨74, _⟩ => ⟨S100000x1, .i32⟩
  | .hbm, ⟨75, _⟩ => ⟨S64x64, .f32⟩
  | .hbm, ⟨76, _⟩ => ⟨S_, .f32⟩
  | .hbm, ⟨77, _⟩ => ⟨S100000, .f32⟩
  | .hbm, ⟨78, _⟩ => ⟨S_, .f32⟩
  | .hbm, ⟨79, _⟩ => ⟨S64, .f32⟩
  | .hbm, ⟨80, _⟩ => ⟨S100000x1, .i32⟩
  | .hbm, ⟨81, _⟩ => ⟨S64, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x64, .f32⟩
  | .hbm, ⟨87, _⟩ => ⟨S64x64, .f32⟩
  | .hbm, ⟨88, _⟩ => ⟨S64x10, .f32⟩
  | .hbm, ⟨89, _⟩ => ⟨S1x10, .f32⟩
  | .hbm, ⟨90, _⟩ => ⟨S64x10, .f32⟩
  | .hbm, ⟨91, _⟩ => ⟨S64x10, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_call0_v3 : Ref sig .tc := ⟨.hbm, 53, rfl⟩
abbrev main_call0_v4 : Ref sig .tc := ⟨.hbm, 54, rfl⟩
abbrev main_call0_v5 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_v33 : Ref sig .tc := ⟨.hbm, 62, rfl⟩
abbrev main_v34 : Ref sig .tc := ⟨.hbm, 63, rfl⟩
abbrev main_cst_4 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_call1_cst : Ref sig .tc := ⟨.hbm, 69, rfl⟩
abbrev main_call1_v0 : Ref sig .tc := ⟨.hbm, 70, rfl⟩
abbrev main_v39 : Ref sig .tc := ⟨.hbm, 71, rfl⟩
abbrev main_cst_5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_6 : Ref sig .tc := ⟨.hbm, 76, rfl⟩
abbrev main_v43 : Ref sig .tc := ⟨.hbm, 77, rfl⟩
abbrev main_cst_7 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_cst_8 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x16_S1600000x144_d1 : Shape.Concatenates [S1600000x64, S1600000x64, S1600000x16] S1600000x144 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  gather_S100000x64_S1600000x1_S1600000x64_1_0_n_n_0_1_164_wf : GatherDims.WF S100000x64 S1600000x1 S1600000x64 [1] [0] [] [0] [] 1 ![1, 64]
  dot_S1600000x144_S144x64_S1600000x64_1_0_0_1_n_n_wf : DotDims.WF S1600000x144 S144x64 S1600000x64 [1] [0] [0] [1] [] []
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x10_S64x10_1_0_0_1_n_n_wf : DotDims.WF S64x64 S64x10 S64x10 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x144_S144x64_S1600000x64_1_0_0_1_n_n : DotDims S1600000x144 S144x64 S1600000x64 where
  lhsContracting := [1]
  rhsContracting := [0]
  lhsNonContracting := [0]
  rhsNonContracting := [1]
  lhsBatch := []
  rhsBatch := []
  wf := dot_S1600000x144_S144x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x10_S64x10_1_0_0_1_n_n : DotDims S64x64 S64x10 S64x10 where
  lhsContracting := [1]
  rhsContracting := [0]
  lhsNonContracting := [0]
  rhsNonContracting := [1]
  lhsBatch := []
  rhsBatch := []
  wf := dot_S64x64_S64x10_S64x10_1_0_0_1_n_n_wf

class Facts : Prop extends Facts₀ where

variable [Facts]
-- ==== Proof.K.Body0.lean ====
/-
  Region 0 (the per-edge message kernel) on one grid point: what its body leaves in the output block,
  and that the body, run on the blocks the pipeline hands it, leaves exactly that.

  The kernel reads, at point t, rows [6400 t, 6400 (t+1)) of the two gathered node arrays and of the edge
  attributes, the six weight slices and the two bias rows whole, and stores one 6400 x 64 block of messages.
  Nothing is carried from point to point, so the proof data states each input buffer at its block and the
  output buffer at the one payload of the blocks.
-/
import proofs.«411481_j80324478369805_2_alg».proof.Proof.Gen.Kernel.Launch
import proofs.«411481_j80324478369805_2_alg».proof.Proof.Gen.Kernel.Skeleton
import proofs.«411481_j80324478369805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect_S6400x64 : Rect S6400x64 := Rect.unit (s := S6400x64) ![0, 0] S6400x64.size inb_S6400x64_S6400x64_0_0
abbrev rect_S6400x16 : Rect S6400x16 := Rect.unit (s := S6400x16) ![0, 0] S6400x16.size inb_S6400x16_S6400x16_0_0
abbrev rect_S64x64 : Rect S64x64 := Rect.unit (s := S64x64) ![0, 0] S64x64.size inb_S64x64_S64x64_0_0
abbrev rect_S16x64 : Rect S16x64 := Rect.unit (s := S16x64) ![0, 0] S16x64.size inb_S16x64_S16x64_0_0
abbrev rect_S1x64 : Rect S1x64 := Rect.unit (s := S1x64) ![0, 0] S1x64.size inb_S1x64_S1x64_0_0

/-- The output block after the body, from the eleven input blocks: the one store, of the product of the logistic of
    the first pre-activation and the softplus of the second. -/
def out0_11 (x0 x1 : Vec F S6400x64 .f32) (x2 : Vec F S6400x16 .f32) (x3 x4 : Vec F S64x64 .f32) (x5 : Vec F S16x64 .f32)
    (x6 x7 : Vec F S64x64 .f32) (x8 : Vec F S16x64 .f32) (x9 x10 : Vec F S1x64 .f32) : Vec F S6400x64 .f32 :=
  View.canon [⟨rect_S6400x64, k0_pay1 (k0_pay2 (View.ld x0 rect_S6400x64)) (k0_pay3 (View.ld x1 rect_S6400x64)) (k0_pay4 (View.ld x2 rect_S6400x16))
    (k0_pay5 (View.ld x6 rect_S64x64)) (k0_pay6 (View.ld x7 rect_S64x64)) (k0_pay7 (View.ld x8 rect_S16x64))
    (k0_pay8 (View.ld x0 rect_S6400x64) (View.ld x1 rect_S6400x64) (View.ld x2 rect_S6400x16) (View.ld x3 rect_S64x64) (View.ld x4 rect_S64x64) (View.ld x5 rect_S16x64) (View.ld x9 rect_S1x64))
    (constant S6400x64 .f32 0x00000000#32) (View.ld x10 rect_S1x64)⟩]

/-- The proof data of region 0 on core `c`: the arrays as the region finds them; after the body each input buffer
    at its block and the output buffer at `out0_11` of the blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! ## What the body finds in each input buffer

  The two node arrays and the edge attributes move a new block of rows into their buffers at every point; the
  weight slices and bias rows are brought in once, at the first point, and their block index never moves after.
  Either way the body leaves every input buffer as it found it, so the buffer holds the window's block wherever
  the body runs. -/

/-- Input 0 (6400x64, moves with the point): its buffer holds its block at point `t`. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input 1 (6400x64, moves with the point): its buffer holds its block at point `t`. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input 2 (6400x16, moves with the point): its buffer holds its block at point `t`. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input 3 (64x64, is brought in once and stays): its buffer holds its block at point `t`. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input 4 (64x64, is brought in once and stays): its buffer holds its block at point `t`. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input 5 (16x64, is brought in once and stays): its buffer holds its block at point `t`. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input 6 (64x64, is brought in once and stays): its buffer holds its block at point `t`. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Input 7 (64x64, is brought in once and stays): its buffer holds its block at point `t`. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- Input 8 (16x64, is brought in once and stays): its buffer holds its block at point `t`. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-- Input 9 (1x64, is brought in once and stays): its buffer holds its block at point `t`. -/
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)

/-- Input 10 (1x64, is brought in once and stays): its buffer holds its block at point `t`. -/
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

/-! ## The one store covers the output block -/

/-- The store's rectangle is the whole 6400 x 64 block, so every cell of the output buffer is written by it. -/
theorem store_covers_out (p : Vec F S6400x64 .f32) (y : S6400x64.Idx) :
    ∃ pc ∈ ([⟨rect_S6400x64, p⟩] : List (View.Piece (Elt F) S6400x64 .f32)), y ∈ pc.1.set :=
  View.cover_of_tiled [⟨rect_S6400x64, p⟩] S6400x64.size (by rfl) y

/-! ## The message kernel on whole buffers -/

set_option maxHeartbeats 4000000 in
/-- Run on twelve whole buffers, the eleven inputs holding `x0 … x10` and the output holding anything, the message
    kernel reads every input whole, leaves each input as it was, and leaves the output buffer at `out0_11` of the
    inputs: the gate (logistic of the first pre-activation) times the softplus of the second. -/
theorem message_kernel_run (c : Dev nD) (E : Set ℕ) (i : grid0.Coords)
    (a0 : Memref sig .tc .vmem S6400x64 .f32) (h0 : a0.IsWhole) (a1 : Memref sig .tc .vmem S6400x64 .f32) (h1 : a1.IsWhole) (a2 : Memref sig .tc .vmem S6400x16 .f32) (h2 : a2.IsWhole) (a3 : Memref sig .tc .vmem S64x64 .f32) (h3 : a3.IsWhole) (a4 : Memref sig .tc .vmem S64x64 .f32) (h4 : a4.IsWhole) (a5 : Memref sig .tc .vmem S16x64 .f32) (h5 : a5.IsWhole) (a6 : Memref sig .tc .vmem S64x64 .f32) (h6 : a6.IsWhole) (a7 : Memref sig .tc .vmem S64x64 .f32) (h7 : a7.IsWhole) (a8 : Memref sig .tc .vmem S16x64 .f32) (h8 : a8.IsWhole) (a9 : Memref sig .tc .vmem S1x64 .f32) (h9 : a9.IsWhole) (a10 : Memref sig .tc .vmem S1x64 .f32) (h10 : a10.IsWhole) (a11 : Memref sig .tc .vmem S6400x64 .f32) (h11 : a11.IsWhole)
    (x0 x1 : Vec F S6400x64 .f32) (x2 : Vec F S6400x16 .f32) (x3 x4 : Vec F S64x64 .f32) (x5 : Vec F S16x64 .f32)
    (x6 x7 : Vec F S64x64 .f32) (x8 : Vec F S16x64 .f32) (x9 x10 : Vec F S1x64 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ (∃ d, owns (c : Thread nD τ) a11 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare (out0_11 x0 x1 x2 x3 x4 x5 x6 x7 x8 x9 x10)) -∗ K ⟨⟩))
      ⊢ wp frame (wpE (defs₀ (F := F)) Variants.none c none) E
          (cc0__message_kernel i a0 h0 a1 h1 a2 h2 a3 h3 a4 h4 a5 h5 a6 h6 a7 h7 a8 h8 a9 h9 a10 h10 a11 h11) K := by
  simp only [cc0__message_kernel_eq_skeleton]; unfold cc0__message_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (store_covers_out _)

/-! ## The body where the pipeline calls it -/

/-- What the pipeline hands the body at point `t`: the region's invariant, the core's debts, and the twelve current
    buffers, each at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What the body hands back: the same invariant and debts, and the twelve buffers at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- At any point the eleven input buffers hold their blocks (`before0_W`), so the kernel's run on whole buffers
    applies with the blocks as the contents read; the invariant and the debts are not touched by it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (message_kernel_run c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1Runs.lean ====
/-
  Region 1 (node update, pooling and classifier): the kernel on whole buffers, one run per control case.

  The kernel tests its grid coordinate twice. At the first point it zeroes the two scratch buffers (the per-graph
  feature sums and the per-graph node counts) before anything else; at every point it adds onehotᵀ · relu(x + agg)
  and onehotᵀ · 1 of the point's rows into them; at the last point it then divides the sums by max(count, 1),
  multiplies by lin_w, adds lin_b and stores the 64 x 10 block. Each of the three runs below states what the eight
  buffers hold afterwards, over the payloads alone.
-/
import proofs.«411481_j80324478369805_2_alg».proof.Proof.Gen.Kernel.Launch
import proofs.«411481_j80324478369805_2_alg».proof.Proof.Gen.Kernel.Skeleton
import proofs.«411481_j80324478369805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (is this the first point?) and the second's (is it the last?), from the grid coordinate. -/
abbrev isFirst1 (i : grid1.Coords) : Prop := (Scalar.cmpi .ne (Scalar.extui (Scalar.cmpi .eq (BitVec.ofNat 32 (i 0).val) 0#32)) 0#32) = 1#1
abbrev isLast1 (i : grid1.Coords) : Prop := k1_cond2 i = 1#1

/-- The first test holds at point 0 of the ten and nowhere else — decided over the grid. -/
theorem isFirst1_iff : ∀ t : Fin cfg1.N, isFirst1 (grid1.coords t) ↔ t.val = 0 :=
  (by decide +kernel : ∀ t : Fin grid1.N, isFirst1 (grid1.coords t) ↔ t.val = 0)

/-- The second test holds at point 9 of the ten and nowhere else — decided over the grid. -/
theorem isLast1_iff : ∀ t : Fin cfg1.N, isLast1 (grid1.coords t) ↔ t.val = 9 :=
  (by decide +kernel : ∀ t : Fin grid1.N, isLast1 (grid1.coords t) ↔ t.val = 9)

/-- So the two tests are never both true. -/
theorem not_isLast1_of_isFirst1 (t : Fin cfg1.N) (h : isFirst1 (grid1.coords t)) : ¬isLast1 (grid1.coords t) := by
  rw [isFirst1_iff] at h; rw [isLast1_iff]; omega

/-- The origin of a rank-2 block, as the constant function. -/
theorem zero2 : (![0, 0] : Fin 2 → ℕ) = fun _ => 0 := by funext a; fin_cases a <;> rfl

/-- A load of a whole buffer through the full rectangle at the origin reads its contents. -/
theorem load_full {S : Shape} {e : EltTy} (m : Memref sig .tc .vmem S e) (h : m.IsWhole) {off : Fin S.rank → ℕ} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through the full rectangle at the origin, made last, decides what the buffer reads. -/
theorem store_full {S : Shape} {e : EltTy} (v : View sig .tc .vmem S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩), View.canon_cons_unit_zero hz]

set_option maxHeartbeats 1000000 in
/-- A point that is neither first nor last: both tests fail, the inputs and the output block are left as found, and
    the two scratch buffers go from `a`, `b` to `k1_pay5 x0 x1 x2 a` (sums plus this block's) and `k1_pay6 x2 b` (counts plus
    this block's). -/
theorem run_mid1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : ¬isFirst1 i) (hl : ¬isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xo
            ∗ owns (c : Thread nD τ) arg7 fullShare (k1_pay5 x0 x1 x2 a) ∗ owns (c : Thread nD τ) arg8 fullShare (k1_pay6 x2 b)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro
    rw [store_full _ _ zero2, load_full arg1 harg1 zero2, load_full arg2 harg2 zero2, load_full arg3 harg3 zero2, load_full arg7 harg7 zero2]
  iexists _; isplitr
  swap; · iexact H7
  ipureintro
  rw [store_full _ _ zero2, load_full arg3 harg3 zero2, load_full arg8 harg8 zero2]

set_option maxHeartbeats 1000000 in
/-- The first point: the scratch buffers are zeroed (`k1_pay2`, `k1_pay3`) whatever they held, then this block's
    contribution is added; the inputs and the output block are left as found. -/
theorem run_first1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : isFirst1 i) (hl : ¬isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xo
            ∗ owns (c : Thread nD τ) arg7 fullShare (k1_pay5 x0 x1 x2 (k1_pay2 (F := F))) ∗ owns (c : Thread nD τ) arg8 fullShare (k1_pay6 x2 (k1_pay3 (F := F)))) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro
    sl_unfold_words
    rw [store_full _ _ zero2, load_full arg1 harg1 zero2, load_full arg2 harg2 zero2, load_full arg3 harg3 zero2,
      View.readCov_unit_zero _ zero2]
  iexists _; isplitr
  swap; · iexact H7
  ipureintro
  sl_unfold_words
  rw [store_full _ _ zero2, load_full arg3 harg3 zero2, View.readCov_unit_zero _ zero2]

set_option maxHeartbeats 1000000 in
/-- The last point: the scratch buffers are updated as at a middle point, then the output block is stored at the
    classifier of the means, `k1_pay1` of the updated counts and sums, lin_w and lin_b, whatever it held. -/
theorem run_last1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : ¬isFirst1 i) (hl : isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k1_pay1 (k1_pay6 x2 b) (k1_pay5 x0 x1 x2 a) x3 x4)
            ∗ owns (c : Thread nD τ) arg7 fullShare (k1_pay5 x0 x1 x2 a) ∗ owns (c : Thread nD τ) arg8 fullShare (k1_pay6 x2 b)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_words
    rw [store_full _ _ zero2, load_full arg4 harg4 zero2, load_full arg5 harg5 zero2,
      View.readCov_unit_zero (S := S64x1) _ zero2, View.readCov_unit_zero (S := S64x64) _ zero2,
      load_full arg1 harg1 zero2, load_full arg2 harg2 zero2, load_full arg3 harg3 zero2,
      load_full arg7 harg7 zero2, load_full arg8 harg8 zero2]
  isplitl [H6]
  · iexists _; isplitr
    swap; · iexact H6
    ipureintro
    sl_unfold_words
    rw [store_full _ _ zero2, load_full arg1 harg1 zero2, load_full arg2 harg2 zero2, load_full arg3 harg3 zero2, load_full arg7 harg7 zero2]
  iexists _; isplitr
  swap; · iexact H7
  ipureintro
  sl_unfold_words
  rw [store_full _ _ zero2, load_full arg3 harg3 zero2, load_full arg8 harg8 zero2]

end Cert.Kernel.Hand

end
-- ==== Proof.K.Body1.lean ====
/-
  Region 1 (node update, pooling and classifier) point by point.

  At point t the kernel reads rows [10000 t, 10000 (t+1)) of x, of the aggregated messages and of the graph
  ids, forms h = relu(x + agg) and the one-hot matrix of the graph ids, and adds onehotᵀ · h and
  onehotᵀ · 1 into two scratch buffers, which it zeroes first at t = 0. At the last point, t = 9, it divides
  the sums by max(count, 1), multiplies by lin_w, adds lin_b and stores the 64 x 10 result, which is written
  back once. So the scratch buffers are carried from point to point: `accAt1` names their contents after
  each point, and the region's invariant holds them there.
-/
import proofs.«411481_j80324478369805_2_alg».proof.Proof.K.Body1Runs
import proofs.«411481_j80324478369805_2_alg».proof.Proof.Gen.Kernel.Launch
import proofs.«411481_j80324478369805_2_alg».proof.Proof.Gen.Kernel.Skeleton
import proofs.«411481_j80324478369805_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers (per-graph feature sums, per-graph node counts) after point `n`: zero plus the
    first block's contribution at `n = 0`, the previous contents plus block `n`'s afterwards. -/
def accAt1 (c : Dev nD) : (n : ℕ) → n < cfg1.N → Vec F S64x64 .f32 × Vec F S64x1 .f32
  | 0, hn => (k1_pay5 (iblk1 V c 0 ⟨0, hn⟩) (iblk1 V c 1 ⟨0, hn⟩) (iblk1 V c 2 ⟨0, hn⟩) (k1_pay2 (F := F)),
      k1_pay6 (iblk1 V c 2 ⟨0, hn⟩) (k1_pay3 (F := F)))
  | n + 1, hn => (k1_pay5 (iblk1 V c 0 ⟨n + 1, hn⟩) (iblk1 V c 1 ⟨n + 1, hn⟩) (iblk1 V c 2 ⟨n + 1, hn⟩) (accAt1 c n (Nat.lt_of_succ_lt hn)).1,
      k1_pay6 (iblk1 V c 2 ⟨n + 1, hn⟩) (accAt1 c n (Nat.lt_of_succ_lt hn)).2)

theorem accAt1_zero (c : Dev nD) (hn : 0 < cfg1.N) :
    accAt1 V c 0 hn = (k1_pay5 (iblk1 V c 0 ⟨0, hn⟩) (iblk1 V c 1 ⟨0, hn⟩) (iblk1 V c 2 ⟨0, hn⟩) (k1_pay2 (F := F)),
      k1_pay6 (iblk1 V c 2 ⟨0, hn⟩) (k1_pay3 (F := F))) := rfl

theorem accAt1_succ (c : Dev nD) (n : ℕ) (hn : n + 1 < cfg1.N) :
    accAt1 V c (n + 1) hn = (k1_pay5 (iblk1 V c 0 ⟨n + 1, hn⟩) (iblk1 V c 1 ⟨n + 1, hn⟩) (iblk1 V c 2 ⟨n + 1, hn⟩) (accAt1 V c n (Nat.lt_of_succ_lt hn)).1,
      k1_pay6 (iblk1 V c 2 ⟨n + 1, hn⟩) (accAt1 V c n (Nat.lt_of_succ_lt hn)).2) := rfl

/-- What the last point stores in the output block: the classifier of the means, from the scratch contents after
    that point's accumulation (consulted at the last point only: elsewhere the block is neither stored nor written back). -/
def out1_5 (c : Dev nD) (t : Fin cfg1.N) : Vec F S64x10 .f32 :=
  k1_pay1 (accAt1 V c t.val t.isLt).2 (accAt1 V c t.val t.isLt).1 (iblk1 V c 3 t) (iblk1 V c 4 t)

/-! ## The scratch buffers and the invariant -/

/-- The kernel's two scratch operands, the per-graph feature sums and the per-graph node counts: whole scoped
    buffers of its own, passed beside the windows. -/
abbrev sums1 : Memref sig .tc .vmem S64x64 .f32 := Memref.whole cc1_scratch0
abbrev counts1 : Memref sig .tc .vmem S64x1 .f32 := Memref.whole cc1_scratch1

/-- The core's scoped buffers that are neither a staging buffer of this region nor one of its two scratch buffers
    (the first region's staging buffers), each whole at anything: the body never touches them. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch buffers taken out of the scoped rest and owned as memrefs at
    some contents: what the first point is handed. -/
theorem PhiA1_eq (c : Dev nD) :
    (Pipeline.ΦA spec1 c : sProp 𝕄)
      = iprop((((∃ d, owns (c : Thread nD τ) sums1 fullShare d) ∗ (∃ d, owns (c : Thread nD τ) counts1 fullShare d)) ∗ others1 c) ∗ (∃ r, prngReg c r)) := by
  unfold Pipeline.ΦA
  rw [Pipeline.scopedRest_split_of_list spec1 c [cc1_scratch0, cc1_scratch1] (by decide) (by decide)]
  simp only [bigSepL_cons_cons, bigSepL_singleton, sums1, counts1, owns_whole]
  try rfl

/-- The region's invariant before position `n`: at `n = 0` the class's (every scoped buffer at anything); afterwards
    the sums and the counts at what point `n - 1` left in them (`accAt1`), the other scoped buffers at anything, the
    generator register at some state. -/
def PhiS1 (c : Dev nD) : (n : ℕ) → n ≤ cfg1.N → sProp 𝕄
  | 0, _ => Pipeline.ΦA spec1 c
  | n + 1, hn => iprop(((owns (c : Thread nD τ) sums1 fullShare (accAt1 V c n hn).1 ∗ owns (c : Thread nD τ) counts1 fullShare (accAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's running sums and counts. -/
theorem PhiS1_succ (c : Dev nD) (n : ℕ) (hn : n < cfg1.N) :
    PhiS1 V c (n + 1) hn = iprop(((owns (c : Thread nD τ) sums1 fullShare (accAt1 V c n hn).1 ∗ owns (c : Thread nD τ) counts1 fullShare (accAt1 V c n hn).2) ∗ others1 c) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(((owns (c : Thread nD τ) sums1 fullShare (accAt1 V c (n - 1) (by omega)).1 ∗ owns (c : Thread nD τ) counts1 fullShare (accAt1 V c (n - 1) (by omega)).2) ∗ others1 c) ∗ (∃ r, prngReg c r)) := by
  cases n with
  | zero => exact absurd rfl hz
  | succ n => rfl

/-- The running sums and counts after the first point: the first block's contribution added to zero. -/
theorem accAt1_first (c : Dev nD) (t : Fin cfg1.N) (h : t.val = 0) :
    accAt1 V c t.val t.isLt = (k1_pay5 (iblk1 V c 0 t) (iblk1 V c 1 t) (iblk1 V c 2 t) (k1_pay2 (F := F)), k1_pay6 (iblk1 V c 2 t) (k1_pay3 (F := F))) := by
  obtain ⟨n, hn⟩ := t
  cases n with
  | zero => rfl
  | succ n => exact absurd h (Nat.succ_ne_zero n)

/-- After a later point: this point's block added to what the point before left. -/
theorem accAt1_later (c : Dev nD) (t : Fin cfg1.N) (h : t.val ≠ 0) :
    accAt1 V c t.val t.isLt = (k1_pay5 (iblk1 V c 0 t) (iblk1 V c 1 t) (iblk1 V c 2 t) (accAt1 V c (t.val - 1) (Nat.lt_of_le_of_lt (Nat.sub_le _ _) t.isLt)).1,
      k1_pay6 (iblk1 V c 2 t) (accAt1 V c (t.val - 1) (Nat.lt_of_le_of_lt (Nat.sub_le _ _) t.isLt)).2) := by
  obtain ⟨n, hn⟩ := t
  cases n with
  | zero => exact absurd rfl h
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- The invariant at a point's start, restated at `t.val`. -/
theorem Phi1_castSucc (c : Dev nD) (t : Fin cfg1.N) :
    (dat1 V c).Φ t.castSucc = PhiS1 V c t.val (Nat.le_of_lt t.isLt) := by
  dsimp only [dat1]; simp only [Fin.coe_castSucc]

/-! ## Where the output window is idle -/

/-- Away from the last point the output window is idle: the body stores nothing into its block, -/
theorem idle1_5 (i : grid1.Coords) (h : ¬isLast1 i) : cfg1.idle 5 i = true := by
  show (!(k1_cond2 i == 1#1)) = true
  rw [Bool.not_eq_true', beq_eq_false_iff_ne]; exact h
/-- and the pipeline does not write the block back; -/
theorem noFlush1_5 (t : Fin cfg1.N) (h : t.val ≠ 9) : (cfg1.win 5).flush t = false := by
  have hN : t.val < 10 := lt_of_lt_of_eq t.isLt N_1
  refine Bool.eq_false_iff.mpr fun hh => h ?_
  have := (flush1_5 t).mp hh
  omega
/-- at the last point it is live. -/
theorem live1_5 (i : grid1.Coords) (h : isLast1 i) : cfg1.idle 5 i = false := by
  show (!(k1_cond2 i == 1#1)) = false
  rw [Bool.not_eq_false', beq_iff_eq]; exact h

/-! ## What the body finds in the input windows' buffers -/

/-- An input window's current staging buffer holds its block at every point, fetched there or not: the three row
    blocks are fetched at every point, the classifier's weight and bias at the first only, their index never moving. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- An input window is never idle, so the body hands its buffer back at its block. -/
theorem leaves1_in (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-! ## The body obligation, at a generic point -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The body at any point. The input windows' buffers hold their blocks (`before1_W`) and are handed back as found;
    the point's position decides the branches (`isFirst1_iff`, `isLast1_iff`). At the first point the invariant hands
    over the scratch buffers at anything and the body leaves them at zero plus the first block's contribution; at a later
    point it hands them over at what the point before left and the body adds this point's block. Away from the last point
    the output window is idle and its buffer goes back untouched; at the last point the body stores the classifier of
    the means there. The other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_in V c 0 t rfl, leaves1_in V c 1 t rfl, leaves1_in V c 2 t rfl, leaves1_in V c 3 t rfl, leaves1_in V c 4 t rfl,
    after1_0, after1_1, after1_2, after1_3, after1_4]
  rw [Phi1_castSucc V c t]
  have hN : t.val < 10 := lt_of_lt_of_eq t.isLt N_1
  by_cases h0 : t.val = 0
  · -- the first point
    have hf : isFirst1 (grid1.coords t) := (isFirst1_iff t).mpr h0
    have hl : ¬isLast1 (grid1.coords t) := fun h => by have := (isLast1_iff t).mp h; omega
    rw [Dat.leavesExact_idle (dat1 V c) 5 t (idle1_5 _ hl) (noFlush1_5 t (by omega))]
    rw [PhiS1_zero V c _ _ h0, PhiA1_eq, accAt1_first V c t h0]
    iintro ⟨⟨⟨⟨⟨%a0, HA⟩, ⟨%b0, HB⟩⟩, HR⟩, Hg⟩, Ho, ⟨%d0, H0⟩, ⟨%d1, H1⟩, ⟨%d2, H2⟩, ⟨%d3, H3⟩, ⟨%d4, H4⟩, ⟨%d5, H5⟩⟩
    iapply (run_first1 c (grid1.coords t) _ _ _ _ _ _ _ _ _ _ _ _ _ _ _ _ hf hl
      (iblk1 V c 0 t) (iblk1 V c 1 t) (iblk1 V c 2 t) (iblk1 V c 3 t) (iblk1 V c 4 t) ((dat1 V c).before 5 t d5) a0 b0 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    iintro ⟨H0, H1, H2, H3, H4, H5, HA, HB⟩
    isplitl [HA HB HR Hg]
    · isplitl [HA HB HR]
      · isplitl [HA HB]
        · isplitl [HA]
          · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hf : ¬isFirst1 (grid1.coords t) := fun h => h0 ((isFirst1_iff t).mp h)
    rw [PhiS1_pos V c _ _ h0, accAt1_later V c t h0]
    by_cases h9 : t.val = 9
    · -- the last point
      have hl : isLast1 (grid1.coords t) := (isLast1_iff t).mpr h9
      rw [leaves1_in V c 5 t (live1_5 _ hl), after1_5]
      unfold out1_5; rw [accAt1_later V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (run_last1 c (grid1.coords t) _ _ _ _ _ _ _ _ _ _ _ _ _ _ _ _ hf hl
        (iblk1 V c 0 t) (iblk1 V c 1 t) (iblk1 V c 2 t) (iblk1 V c 3 t) (iblk1 V c 4 t) ((dat1 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]
            · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in between
      have hl : ¬isLast1 (grid1.coords t) := fun h => h9 ((isLast1_iff t).mp h)
      rw [Dat.leavesExact_idle (dat1 V c) 5 t (idle1_5 _ hl) (noFlush1_5 t h9)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (run_mid1 c (grid1.coords t) _ _ _ _ _ _ _ _ _ _ _ _ _ _ _ _ hf hl
        (iblk1 V c 0 t) (iblk1 V c 1 t) (iblk1 V c 2 t) (iblk1 V c 3 t) (iblk1 V c 4 t) ((dat1 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]
            · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HA, HB⟩, HR⟩, Hg⟩
  isplitl [HA HB HR]
  · isplitl [HA HB]
    · isplitl [HA]
      · iexists _; iexact HA
      iexists _; iexact HB
    iexact HR
  iexact Hg

end Cert.Kernel.Hand

end
-- ==== Proof.K.Run.lean ====
/-
  The whole run of @main: two host stretches and the two kernel regions, in order.

  Between two items the core holds every unscoped buffer at named contents: the launch memory, then what the first
  host stretch computes from it (the two index vectors, the two gathers of x, the weight slices, the reshaped biases
  and graph ids), then region 0's output array at what its write-backs leave, then the aggregation of the messages
  into their destination nodes and the reshaped classifier bias, then region 1's output array at what its one
  write-back leaves. Every weakly fair execution terminates with every unscoped buffer at the last of these; no
  host operation and no region writes an argument array, so the arguments end as launched.
-/
import proofs.«411481_j80324478369805_2_alg».proof.Proof.K.Body0
import proofs.«411481_j80324478369805_2_alg».proof.Proof.K.Body1
import proofs.«411481_j80324478369805_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered with every unscoped buffer at `W1`, left with them at `W2`. Its arrays
    are split out of the unscoped buffers and put back at what the write-backs leave; the generator register and the scoped
    rest enter the region's invariant and come back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered with every unscoped buffer at `W3`, left with them at `W4`. Its arrays
    are split out of the unscoped buffers and put back at what the write-backs leave; the generator register and the scoped
    rest enter the region's invariant and come back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.Kernel.Hand

end
-- ==== Proof.KI.Body0.lean ====
/-
  Region 0 (the per-edge message kernel) on one grid point: what its body leaves in the output block,
  and that the body, run on the blocks the pipeline hands it, leaves exactly that.

  The kernel reads, at point t, rows [6400 t, 6400 (t+1)) of the two gathered node arrays and of the edge
  attributes, the six weight slices and the two bias rows whole, and stores one 6400 x 64 block of messages.
  Nothing is carried from point to point, so the proof data states each input buffer at its block and the
  output buffer at the one payload of the blocks.
-/
import proofs.«411481_j80324478369805_2_alg».proof.Proof.Gen.KernelIdeal.Launch
import proofs.«411481_j80324478369805_2_alg».proof.Proof.Gen.KernelIdeal.Skeleton
import proofs.«411481_j80324478369805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rect_S6400x64 : Rect S6400x64 := Rect.unit (s := S6400x64) ![0, 0] S6400x64.size inb_S6400x64_S6400x64_0_0
abbrev rect_S6400x16 : Rect S6400x16 := Rect.unit (s := S6400x16) ![0, 0] S6400x16.size inb_S6400x16_S6400x16_0_0
abbrev rect_S64x64 : Rect S64x64 := Rect.unit (s := S64x64) ![0, 0] S64x64.size inb_S64x64_S64x64_0_0
abbrev rect_S16x64 : Rect S16x64 := Rect.unit (s := S16x64) ![0, 0] S16x64.size inb_S16x64_S16x64_0_0
abbrev rect_S1x64 : Rect S1x64 := Rect.unit (s := S1x64) ![0, 0] S1x64.size inb_S1x64_S1x64_0_0

/-- The output block after the body, from the eleven input blocks: the one store, of the product of the logistic of
    the first pre-activation and the softplus of the second. -/
def out0_11 (x0 x1 : Vec F S6400x64 .f32) (x2 : Vec F S6400x16 .f32) (x3 x4 : Vec F S64x64 .f32) (x5 : Vec F S16x64 .f32)
    (x6 x7 : Vec F S64x64 .f32) (x8 : Vec F S16x64 .f32) (x9 x10 : Vec F S1x64 .f32) : Vec F S6400x64 .f32 :=
  View.canon [⟨rect_S6400x64, k0_pay1 (k0_pay2 (View.ld x0 rect_S6400x64)) (k0_pay3 (View.ld x1 rect_S6400x64)) (k0_pay4 (View.ld x2 rect_S6400x16))
    (k0_pay5 (View.ld x6 rect_S64x64)) (k0_pay6 (View.ld x7 rect_S64x64)) (k0_pay7 (View.ld x8 rect_S16x64))
    (k0_pay8 (View.ld x0 rect_S6400x64) (View.ld x1 rect_S6400x64) (View.ld x2 rect_S6400x16) (View.ld x3 rect_S64x64) (View.ld x4 rect_S64x64) (View.ld x5 rect_S16x64) (View.ld x9 rect_S1x64))
    (constant S6400x64 .f32 0x00000000#32) (View.ld x10 rect_S1x64)⟩]

/-- The proof data of region 0 on core `c`: the arrays as the region finds them; after the body each input buffer
    at its block and the output buffer at `out0_11` of the blocks; nothing carried, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) := by dsimp only [dat0]

/-! ## What the body finds in each input buffer

  The two node arrays and the edge attributes move a new block of rows into their buffers at every point; the
  weight slices and bias rows are brought in once, at the first point, and their block index never moves after.
  Either way the body leaves every input buffer as it found it, so the buffer holds the window's block wherever
  the body runs. -/

/-- Input 0 (6400x64, moves with the point): its buffer holds its block at point `t`. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input 1 (6400x64, moves with the point): its buffer holds its block at point `t`. -/
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input 2 (6400x16, moves with the point): its buffer holds its block at point `t`. -/
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input 3 (64x64, is brought in once and stays): its buffer holds its block at point `t`. -/
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input 4 (64x64, is brought in once and stays): its buffer holds its block at point `t`. -/
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- Input 5 (16x64, is brought in once and stays): its buffer holds its block at point `t`. -/
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)

/-- Input 6 (64x64, is brought in once and stays): its buffer holds its block at point `t`. -/
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-- Input 7 (64x64, is brought in once and stays): its buffer holds its block at point `t`. -/
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-- Input 8 (16x64, is brought in once and stays): its buffer holds its block at point `t`. -/
theorem before0_8 (c : Dev nD) (t : Fin cfg0.N) (d) : (dat0 V c).before 8 t d = iblk0 V c 8 t :=
  ((dat0 V c).before_in_eq_fetched 8 rfl (fun _ => rfl) (fun _ _ _ => rfl)
    (fun t => by rw [after0_8]; unfold Dat.blockOf iblk0; rw [A_eq0]; try rfl) t d).trans
    (by unfold Dat.fetched Dat.blockOf iblk0; rw [A_eq0]; try rfl)

/-- Input 9 (1x64, is brought in once and stays): its buffer holds its block at point `t`. -/
theorem before0_9 (c : Dev nD) (t : Fin cfg0.N) (d) : (dat0 V c).before 9 t d = iblk0 V c 9 t :=
  ((dat0 V c).before_in_eq_fetched 9 rfl (fun _ => rfl) (fun _ _ _ => rfl)
    (fun t => by rw [after0_9]; unfold Dat.blockOf iblk0; rw [A_eq0]; try rfl) t d).trans
    (by unfold Dat.fetched Dat.blockOf iblk0; rw [A_eq0]; try rfl)

/-- Input 10 (1x64, is brought in once and stays): its buffer holds its block at point `t`. -/
theorem before0_10 (c : Dev nD) (t : Fin cfg0.N) (d) : (dat0 V c).before 10 t d = iblk0 V c 10 t :=
  ((dat0 V c).before_in_eq_fetched 10 rfl (fun _ => rfl) (fun _ _ _ => rfl)
    (fun t => by rw [after0_10]; unfold Dat.blockOf iblk0; rw [A_eq0]; try rfl) t d).trans
    (by unfold Dat.fetched Dat.blockOf iblk0; rw [A_eq0]; try rfl)

/-! ## The one store covers the output block -/

/-- The store's rectangle is the whole 6400 x 64 block, so every cell of the output buffer is written by it. -/
theorem store_covers_out (p : Vec F S6400x64 .f32) (y : S6400x64.Idx) :
    ∃ pc ∈ ([⟨rect_S6400x64, p⟩] : List (View.Piece (Elt F) S6400x64 .f32)), y ∈ pc.1.set :=
  View.cover_of_tiled [⟨rect_S6400x64, p⟩] S6400x64.size (by rfl) y

/-! ## The message kernel on whole buffers -/

set_option maxHeartbeats 4000000 in
/-- Run on twelve whole buffers, the eleven inputs holding `x0 … x10` and the output holding anything, the message
    kernel reads every input whole, leaves each input as it was, and leaves the output buffer at `out0_11` of the
    inputs: the gate (logistic of the first pre-activation) times the softplus of the second. -/
theorem message_kernel_run (c : Dev nD) (E : Set ℕ) (i : grid0.Coords)
    (a0 : Memref sig .tc .vmem S6400x64 .f32) (h0 : a0.IsWhole) (a1 : Memref sig .tc .vmem S6400x64 .f32) (h1 : a1.IsWhole) (a2 : Memref sig .tc .vmem S6400x16 .f32) (h2 : a2.IsWhole) (a3 : Memref sig .tc .vmem S64x64 .f32) (h3 : a3.IsWhole) (a4 : Memref sig .tc .vmem S64x64 .f32) (h4 : a4.IsWhole) (a5 : Memref sig .tc .vmem S16x64 .f32) (h5 : a5.IsWhole) (a6 : Memref sig .tc .vmem S64x64 .f32) (h6 : a6.IsWhole) (a7 : Memref sig .tc .vmem S64x64 .f32) (h7 : a7.IsWhole) (a8 : Memref sig .tc .vmem S16x64 .f32) (h8 : a8.IsWhole) (a9 : Memref sig .tc .vmem S1x64 .f32) (h9 : a9.IsWhole) (a10 : Memref sig .tc .vmem S1x64 .f32) (h10 : a10.IsWhole) (a11 : Memref sig .tc .vmem S6400x64 .f32) (h11 : a11.IsWhole)
    (x0 x1 : Vec F S6400x64 .f32) (x2 : Vec F S6400x16 .f32) (x3 x4 : Vec F S64x64 .f32) (x5 : Vec F S16x64 .f32)
    (x6 x7 : Vec F S64x64 .f32) (x8 : Vec F S16x64 .f32) (x9 x10 : Vec F S1x64 .f32) (K : PUnit → sProp 𝕄) :
    iprop(owns (c : Thread nD τ) a0 fullShare x0
        ∗ owns (c : Thread nD τ) a1 fullShare x1
        ∗ owns (c : Thread nD τ) a2 fullShare x2
        ∗ owns (c : Thread nD τ) a3 fullShare x3
        ∗ owns (c : Thread nD τ) a4 fullShare x4
        ∗ owns (c : Thread nD τ) a5 fullShare x5
        ∗ owns (c : Thread nD τ) a6 fullShare x6
        ∗ owns (c : Thread nD τ) a7 fullShare x7
        ∗ owns (c : Thread nD τ) a8 fullShare x8
        ∗ owns (c : Thread nD τ) a9 fullShare x9
        ∗ owns (c : Thread nD τ) a10 fullShare x10
        ∗ (∃ d, owns (c : Thread nD τ) a11 fullShare d)
        ∗ (iprop(owns (c : Thread nD τ) a0 fullShare x0
            ∗ owns (c : Thread nD τ) a1 fullShare x1
            ∗ owns (c : Thread nD τ) a2 fullShare x2
            ∗ owns (c : Thread nD τ) a3 fullShare x3
            ∗ owns (c : Thread nD τ) a4 fullShare x4
            ∗ owns (c : Thread nD τ) a5 fullShare x5
            ∗ owns (c : Thread nD τ) a6 fullShare x6
            ∗ owns (c : Thread nD τ) a7 fullShare x7
            ∗ owns (c : Thread nD τ) a8 fullShare x8
            ∗ owns (c : Thread nD τ) a9 fullShare x9
            ∗ owns (c : Thread nD τ) a10 fullShare x10
            ∗ owns (c : Thread nD τ) a11 fullShare (out0_11 x0 x1 x2 x3 x4 x5 x6 x7 x8 x9 x10)) -∗ K ⟨⟩))
      ⊢ wp frame (wpE (defs₀ (F := F)) Variants.none c none) E
          (cc0__message_kernel i a0 h0 a1 h1 a2 h2 a3 h3 a4 h4 a5 h5 a6 h6 a7 h7 a8 h8 a9 h9 a10 h10 a11 h11) K := by
  simp only [cc0__message_kernel_eq_skeleton]; unfold cc0__message_kernel_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (store_covers_out _)

/-! ## The body where the pipeline calls it -/

/-- What the pipeline hands the body at point `t`: the region's invariant, the core's debts, and the twelve current
    buffers, each at what the schedule has left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What the body hands back: the same invariant and debts, and the twelve buffers at the proof data's `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- At any point the eleven input buffers hold their blocks (`before0_W`), so the kernel's run on whole buffers
    applies with the blocks as the contents read; the invariant and the debts are not touched by it. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (message_kernel_run c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body obligation of region 0 at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1Runs.lean ====
/-
  Region 1 (node update, pooling and classifier): the kernel on whole buffers, one run per control case.

  The kernel tests its grid coordinate twice. At the first point it zeroes the two scratch buffers (the per-graph
  feature sums and the per-graph node counts) before anything else; at every point it adds onehotᵀ · relu(x + agg)
  and onehotᵀ · 1 of the point's rows into them; at the last point it then divides the sums by max(count, 1),
  multiplies by lin_w, adds lin_b and stores the 64 x 10 block. Each of the three runs below states what the eight
  buffers hold afterwards, over the payloads alone.
-/
import proofs.«411481_j80324478369805_2_alg».proof.Proof.Gen.KernelIdeal.Launch
import proofs.«411481_j80324478369805_2_alg».proof.Proof.Gen.KernelIdeal.Skeleton
import proofs.«411481_j80324478369805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test (is this the first point?) and the second's (is it the last?), from the grid coordinate. -/
abbrev isFirst1 (i : grid1.Coords) : Prop := (Scalar.cmpi .ne (Scalar.extui (Scalar.cmpi .eq (BitVec.ofNat 32 (i 0).val) 0#32)) 0#32) = 1#1
abbrev isLast1 (i : grid1.Coords) : Prop := k1_cond2 i = 1#1

/-- The first test holds at point 0 of the ten and nowhere else — decided over the grid. -/
theorem isFirst1_iff : ∀ t : Fin cfg1.N, isFirst1 (grid1.coords t) ↔ t.val = 0 :=
  (by decide +kernel : ∀ t : Fin grid1.N, isFirst1 (grid1.coords t) ↔ t.val = 0)

/-- The second test holds at point 9 of the ten and nowhere else — decided over the grid. -/
theorem isLast1_iff : ∀ t : Fin cfg1.N, isLast1 (grid1.coords t) ↔ t.val = 9 :=
  (by decide +kernel : ∀ t : Fin grid1.N, isLast1 (grid1.coords t) ↔ t.val = 9)

/-- So the two tests are never both true. -/
theorem not_isLast1_of_isFirst1 (t : Fin cfg1.N) (h : isFirst1 (grid1.coords t)) : ¬isLast1 (grid1.coords t) := by
  rw [isFirst1_iff] at h; rw [isLast1_iff]; omega

/-- The origin of a rank-2 block, as the constant function. -/
theorem zero2 : (![0, 0] : Fin 2 → ℕ) = fun _ => 0 := by funext a; fin_cases a <;> rfl

/-- A load of a whole buffer through the full rectangle at the origin reads its contents. -/
theorem load_full {S : Shape} {e : EltTy} (m : Memref sig .tc .vmem S e) (h : m.IsWhole) {off : Fin S.rank → ℕ} (hz : off = fun _ => 0)
    (inb : ∀ a, off a + S.size a ≤ S.size a) (X : S.Idx → Elt F e) :
    m.view.readAt (Elt F) (Rect.unit off S.size inb).toLoadRect (h.unread X) = X := by
  rw [View.readAt_eq_ld, h.read_unread, View.ld_unit_zero hz]

/-- A store through the full rectangle at the origin, made last, decides what the buffer reads. -/
theorem store_full {S : Shape} {e : EltTy} (v : View sig .tc .vmem S e) (f : v.ty.Contents (Elt F)) {off : Fin S.rank → ℕ} (hz : off = fun _ => 0)
    (inb : ∀ a, off a + S.size a ≤ S.size a) (w : S.Idx → Elt F e) (L : List (View.Piece (Elt F) S e)) :
    v.read (Elt F) (v.writes (Elt F) f (⟨Rect.unit off S.size inb, w⟩ :: L)) = w := by
  rw [View.read_writes_eq_canon _ _ _ (fun y => ⟨_, List.mem_cons_self, View.mem_set_unit_zero hz inb y⟩), View.canon_cons_unit_zero hz]

set_option maxHeartbeats 1000000 in
/-- A point that is neither first nor last: both tests fail, the inputs and the output block are left as found, and
    the two scratch buffers go from `a`, `b` to `k1_pay5 x0 x1 x2 a` (sums plus this block's) and `k1_pay6 x2 b` (counts plus
    this block's). -/
theorem run_mid1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : ¬isFirst1 i) (hl : ¬isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xo
            ∗ owns (c : Thread nD τ) arg7 fullShare (k1_pay5 x0 x1 x2 a) ∗ owns (c : Thread nD τ) arg8 fullShare (k1_pay6 x2 b)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro
    rw [store_full _ _ zero2, load_full arg1 harg1 zero2, load_full arg2 harg2 zero2, load_full arg3 harg3 zero2, load_full arg7 harg7 zero2]
  iexists _; isplitr
  swap; · iexact H7
  ipureintro
  rw [store_full _ _ zero2, load_full arg3 harg3 zero2, load_full arg8 harg8 zero2]

set_option maxHeartbeats 1000000 in
/-- The first point: the scratch buffers are zeroed (`k1_pay2`, `k1_pay3`) whatever they held, then this block's
    contribution is added; the inputs and the output block are left as found. -/
theorem run_first1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : isFirst1 i) (hl : ¬isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare xo
            ∗ owns (c : Thread nD τ) arg7 fullShare (k1_pay5 x0 x1 x2 (k1_pay2 (F := F))) ∗ owns (c : Thread nD τ) arg8 fullShare (k1_pay6 x2 (k1_pay3 (F := F)))) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    · ipureintro; exact hf5
    iexact H5
  isplitl [H6]
  · iexists _; isplitr
    swap; · iexact H6
    ipureintro
    sl_unfold_words
    rw [store_full _ _ zero2, load_full arg1 harg1 zero2, load_full arg2 harg2 zero2, load_full arg3 harg3 zero2,
      View.readCov_unit_zero _ zero2]
  iexists _; isplitr
  swap; · iexact H7
  ipureintro
  sl_unfold_words
  rw [store_full _ _ zero2, load_full arg3 harg3 zero2, View.readCov_unit_zero _ zero2]

set_option maxHeartbeats 1000000 in
/-- The last point: the scratch buffers are updated as at a middle point, then the output block is stored at the
    classifier of the means, `k1_pay1` of the updated counts and sums, lin_w and lin_b, whatever it held. -/
theorem run_last1 (c : Dev nD) (i : grid1.Coords)
    (arg1 : Memref sig .tc .vmem S10000x64 .f32) (harg1 : arg1.IsWhole) (arg2 : Memref sig .tc .vmem S10000x64 .f32) (harg2 : arg2.IsWhole)
    (arg3 : Memref sig .tc .vmem S10000x1 .i32) (harg3 : arg3.IsWhole) (arg4 : Memref sig .tc .vmem S64x10 .f32) (harg4 : arg4.IsWhole)
    (arg5 : Memref sig .tc .vmem S1x10 .f32) (harg5 : arg5.IsWhole) (arg6 : Memref sig .tc .vmem S64x10 .f32) (harg6 : arg6.IsWhole)
    (arg7 : Memref sig .tc .vmem S64x64 .f32) (harg7 : arg7.IsWhole) (arg8 : Memref sig .tc .vmem S64x1 .f32) (harg8 : arg8.IsWhole)
    (hf : ¬isFirst1 i) (hl : isLast1 i)
    (x0 x1 : Vec F S10000x64 .f32) (x2 : Vec F S10000x1 .i32) (x3 : Vec F S64x10 .f32) (x4 : Vec F S1x10 .f32) (xo : Vec F S64x10 .f32)
    (a : Vec F S64x64 .f32) (b : Vec F S64x1 .f32) (E : Set ℕ) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare xo
        ∗ owns (c : Thread nD τ) arg7 fullShare a ∗ owns (c : Thread nD τ) arg8 fullShare b
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (k1_pay1 (k1_pay6 x2 b) (k1_pay5 x0 x1 x2 a) x3 x4)
            ∗ owns (c : Thread nD τ) arg7 fullShare (k1_pay5 x0 x1 x2 a) ∗ owns (c : Thread nD τ) arg8 fullShare (k1_pay6 x2 b)) -∗ K ⟨⟩))
      ⊢ wp frame (wpE (defs₀ (F := F)) Variants.none c none) E (cc1__pool_kernel i arg1 harg1 arg2 harg2 arg3 harg3 arg4 harg4 arg5 harg5 arg6 harg6 arg7 harg7 arg8 harg8) K := by
  simp only [cc1__pool_kernel_eq_skeleton]; unfold cc1__pool_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7
  sl_exec (disch := first | exact hf | exact hl)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  isplitl [H3]
  · iexists _; isplitr
    · ipureintro; exact hf3
    iexact H3
  isplitl [H4]
  · iexists _; isplitr
    · ipureintro; exact hf4
    iexact H4
  isplitl [H5]
  · iexists _; isplitr
    swap; · iexact H5
    ipureintro
    sl_unfold_words
    rw [store_full _ _ zero2, load_full arg4 harg4 zero2, load_full arg5 harg5 zero2,
      View.readCov_unit_zero (S := S64x1) _ zero2, View.readCov_unit_zero (S := S64x64) _ zero2,
      load_full arg1 harg1 zero2, load_full arg2 harg2 zero2, load_full arg3 harg3 zero2,
      load_full arg7 harg7 zero2, load_full arg8 harg8 zero2]
  isplitl [H6]
  · iexists _; isplitr
    swap; · iexact H6
    ipureintro
    sl_unfold_words
    rw [store_full _ _ zero2, load_full arg1 harg1 zero2, load_full arg2 harg2 zero2, load_full arg3 harg3 zero2, load_full arg7 harg7 zero2]
  iexists _; isplitr
  swap; · iexact H7
  ipureintro
  sl_unfold_words
  rw [store_full _ _ zero2, load_full arg3 harg3 zero2, load_full arg8 harg8 zero2]

end Cert.KernelIdeal.Hand

end
-- ==== Proof.KI.Body1.lean ====
/-
  Region 1 (node update, pooling and classifier) point by point.

  At point t the kernel reads rows [10000 t, 10000 (t+1)) of x, of the aggregated messages and of the graph
  ids, forms h = relu(x + agg) and the one-hot matrix of the graph ids, and adds onehotᵀ · h and
  onehotᵀ · 1 into two scratch buffers, which it zeroes first at t = 0. At the last point, t = 9, it divides
  the sums by max(count, 1), multiplies by lin_w, adds lin_b and stores the 64 x 10 result, which is written
  back once. So the scratch buffers are carried from point to point: `accAt1` names their contents after
  each point, and the region's invariant holds them there.
-/
import proofs.«411481_j80324478369805_2_alg».proof.Proof.KI.Body1Runs
import proofs.«411481_j80324478369805_2_alg».proof.Proof.Gen.KernelIdeal.Launch
import proofs.«411481_j80324478369805_2_alg».proof.Proof.Gen.KernelIdeal.Skeleton
import proofs.«411481_j80324478369805_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers (per-graph feature sums, per-graph node counts) after point `n`: zero plus the
    first block's contribution at `n = 0`, the previous contents plus block `n`'s afterwards. -/
def accAt1 (c : Dev nD) : (n : ℕ) → n < cfg1.N → Vec F S64x64 .f32 × Vec F S64x1 .f32
  | 0, hn => (k1_pay5 (iblk1 V c 0 ⟨0, hn⟩) (iblk1 V c 1 ⟨0, hn⟩) (iblk1 V c 2 ⟨0, hn⟩) (k1_pay2 (F := F)),
      k1_pay6 (iblk1 V c 2 ⟨0, hn⟩) (k1_pay3 (F := F)))
  | n + 1, hn => (k1_pay5 (iblk1 V c 0 ⟨n + 1, hn⟩) (iblk1 V c 1 ⟨n + 1, hn⟩) (iblk1 V c 2 ⟨n + 1, hn⟩) (accAt1 c n (Nat.lt_of_succ_lt hn)).1,
      k1_pay6 (iblk1 V c 2 ⟨n + 1, hn⟩) (accAt1 c n (Nat.lt_of_succ_lt hn)).2)

theorem accAt1_zero (c : Dev nD) (hn : 0 < cfg1.N) :
    accAt1 V c 0 hn = (k1_pay5 (iblk1 V c 0 ⟨0, hn⟩) (iblk1 V c 1 ⟨0, hn⟩) (iblk1 V c 2 ⟨0, hn⟩) (k1_pay2 (F := F)),
      k1_pay6 (iblk1 V c 2 ⟨0, hn⟩) (k1_pay3 (F := F))) := rfl

theorem accAt1_succ (c : Dev nD) (n : ℕ) (hn : n + 1 < cfg1.N) :
    accAt1 V c (n + 1) hn = (k1_pay5 (iblk1 V c 0 ⟨n + 1, hn⟩) (iblk1 V c 1 ⟨n + 1, hn⟩) (iblk1 V c 2 ⟨n + 1, hn⟩) (accAt1 V c n (Nat.lt_of_succ_lt hn)).1,
      k1_pay6 (iblk1 V c 2 ⟨n + 1, hn⟩) (accAt1 V c n (Nat.lt_of_succ_lt hn)).2) := rfl

/-- What the last point stores in the output block: the classifier of the means, from the scratch contents after
    that point's accumulation (consulted at the last point only: elsewhere the block is neither stored nor written back). -/
def out1_5 (c : Dev nD) (t : Fin cfg1.N) : Vec F S64x10 .f32 :=
  k1_pay1 (accAt1 V c t.val t.isLt).2 (accAt1 V c t.val t.isLt).1 (iblk1 V c 3 t) (iblk1 V c 4 t)

/-! ## The scratch buffers and the invariant -/

/-- The kernel's two scratch operands, the per-graph feature sums and the per-graph node counts: whole scoped
    buffers of its own, passed beside the windows. -/
abbrev sums1 : Memref sig .tc .vmem S64x64 .f32 := Memref.whole cc1_scratch0
abbrev counts1 : Memref sig .tc .vmem S64x1 .f32 := Memref.whole cc1_scratch1

/-- The core's scoped buffers that are neither a staging buffer of this region nor one of its two scratch buffers
    (the first region's staging buffers), each whole at anything: the body never touches them. -/
abbrev others1 (c : Dev nD) : sProp 𝕄 :=
  Pipeline.scopedRestBut (Ix := Unit) (Name := ℕ) (U := UR sig nD τ) (Lvl := ℕ) (Val := Elt F) spec1 c [cc1_scratch0, cc1_scratch1]

/-- The class's invariant with the two scratch buffers taken out of the scoped rest and owned as memrefs at
    some contents: what the first point is handed. -/
theorem PhiA1_eq (c : Dev nD) :
    (Pipeline.ΦA spec1 c : sProp 𝕄)
      = iprop((((∃ d, owns (c : Thread nD τ) sums1 fullShare d) ∗ (∃ d, owns (c : Thread nD τ) counts1 fullShare d)) ∗ others1 c) ∗ (∃ r, prngReg c r)) := by
  unfold Pipeline.ΦA
  rw [Pipeline.scopedRest_split_of_list spec1 c [cc1_scratch0, cc1_scratch1] (by decide) (by decide)]
  simp only [bigSepL_cons_cons, bigSepL_singleton, sums1, counts1, owns_whole]
  try rfl

/-- The region's invariant before position `n`: at `n = 0` the class's (every scoped buffer at anything); afterwards
    the sums and the counts at what point `n - 1` left in them (`accAt1`), the other scoped buffers at anything, the
    generator register at some state. -/
def PhiS1 (c : Dev nD) : (n : ℕ) → n ≤ cfg1.N → sProp 𝕄
  | 0, _ => Pipeline.ΦA spec1 c
  | n + 1, hn => iprop(((owns (c : Thread nD τ) sums1 fullShare (accAt1 V c n hn).1 ∗ owns (c : Thread nD τ) counts1 fullShare (accAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n`: the scratch buffers at that point's running sums and counts. -/
theorem PhiS1_succ (c : Dev nD) (n : ℕ) (hn : n < cfg1.N) :
    PhiS1 V c (n + 1) hn = iprop(((owns (c : Thread nD τ) sums1 fullShare (accAt1 V c n hn).1 ∗ owns (c : Thread nD τ) counts1 fullShare (accAt1 V c n hn).2) ∗ others1 c) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(((owns (c : Thread nD τ) sums1 fullShare (accAt1 V c (n - 1) (by omega)).1 ∗ owns (c : Thread nD τ) counts1 fullShare (accAt1 V c (n - 1) (by omega)).2) ∗ others1 c) ∗ (∃ r, prngReg c r)) := by
  cases n with
  | zero => exact absurd rfl hz
  | succ n => rfl

/-- The running sums and counts after the first point: the first block's contribution added to zero. -/
theorem accAt1_first (c : Dev nD) (t : Fin cfg1.N) (h : t.val = 0) :
    accAt1 V c t.val t.isLt = (k1_pay5 (iblk1 V c 0 t) (iblk1 V c 1 t) (iblk1 V c 2 t) (k1_pay2 (F := F)), k1_pay6 (iblk1 V c 2 t) (k1_pay3 (F := F))) := by
  obtain ⟨n, hn⟩ := t
  cases n with
  | zero => rfl
  | succ n => exact absurd h (Nat.succ_ne_zero n)

/-- After a later point: this point's block added to what the point before left. -/
theorem accAt1_later (c : Dev nD) (t : Fin cfg1.N) (h : t.val ≠ 0) :
    accAt1 V c t.val t.isLt = (k1_pay5 (iblk1 V c 0 t) (iblk1 V c 1 t) (iblk1 V c 2 t) (accAt1 V c (t.val - 1) (Nat.lt_of_le_of_lt (Nat.sub_le _ _) t.isLt)).1,
      k1_pay6 (iblk1 V c 2 t) (accAt1 V c (t.val - 1) (Nat.lt_of_le_of_lt (Nat.sub_le _ _) t.isLt)).2) := by
  obtain ⟨n, hn⟩ := t
  cases n with
  | zero => exact absurd rfl h
  | succ n => rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 V c t := by dsimp only [dat1]

/-- The invariant at a point's start, restated at `t.val`. -/
theorem Phi1_castSucc (c : Dev nD) (t : Fin cfg1.N) :
    (dat1 V c).Φ t.castSucc = PhiS1 V c t.val (Nat.le_of_lt t.isLt) := by
  dsimp only [dat1]; simp only [Fin.coe_castSucc]

/-! ## Where the output window is idle -/

/-- Away from the last point the output window is idle: the body stores nothing into its block, -/
theorem idle1_5 (i : grid1.Coords) (h : ¬isLast1 i) : cfg1.idle 5 i = true := by
  show (!(k1_cond2 i == 1#1)) = true
  rw [Bool.not_eq_true', beq_eq_false_iff_ne]; exact h
/-- and the pipeline does not write the block back; -/
theorem noFlush1_5 (t : Fin cfg1.N) (h : t.val ≠ 9) : (cfg1.win 5).flush t = false := by
  have hN : t.val < 10 := lt_of_lt_of_eq t.isLt N_1
  refine Bool.eq_false_iff.mpr fun hh => h ?_
  have := (flush1_5 t).mp hh
  omega
/-- at the last point it is live. -/
theorem live1_5 (i : grid1.Coords) (h : isLast1 i) : cfg1.idle 5 i = false := by
  show (!(k1_cond2 i == 1#1)) = false
  rw [Bool.not_eq_false', beq_iff_eq]; exact h

/-! ## What the body finds in the input windows' buffers -/

/-- An input window's current staging buffer holds its block at every point, fetched there or not: the three row
    blocks are fetched at every point, the classifier's weight and bias at the first only, their index never moving. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- An input window is never idle, so the body hands its buffer back at its block. -/
theorem leaves1_in (c : Dev nD) (w : Fin cfg1.W) (t : Fin cfg1.N) (h : cfg1.idle w (grid1.coords t) = false) :
    (dat1 V c).leavesExact w t = owns (c : Thread nD τ) ((cfg1.win w).stage (cfg1.slots t w)) fullShare ((dat1 V c).after w t) := by
  unfold Dat.leavesExact; rw [h]

/-! ## The body obligation, at a generic point -/

/-- What the body is called with at point `t`: the invariant, what the core owes, and each window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t ∗ (dat1 V c).leavesExact 5 t)

/-- The body at any point. The input windows' buffers hold their blocks (`before1_W`) and are handed back as found;
    the point's position decides the branches (`isFirst1_iff`, `isLast1_iff`). At the first point the invariant hands
    over the scratch buffers at anything and the body leaves them at zero plus the first block's contribution; at a later
    point it hands them over at what the point before left and the body adds this point's block. Away from the last point
    the output window is idle and its buffer goes back untouched; at the last point the body stores the classifier of
    the means there. The other scoped buffers, the generator register and what the core owes pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  rw [leaves1_in V c 0 t rfl, leaves1_in V c 1 t rfl, leaves1_in V c 2 t rfl, leaves1_in V c 3 t rfl, leaves1_in V c 4 t rfl,
    after1_0, after1_1, after1_2, after1_3, after1_4]
  rw [Phi1_castSucc V c t]
  have hN : t.val < 10 := lt_of_lt_of_eq t.isLt N_1
  by_cases h0 : t.val = 0
  · -- the first point
    have hf : isFirst1 (grid1.coords t) := (isFirst1_iff t).mpr h0
    have hl : ¬isLast1 (grid1.coords t) := fun h => by have := (isLast1_iff t).mp h; omega
    rw [Dat.leavesExact_idle (dat1 V c) 5 t (idle1_5 _ hl) (noFlush1_5 t (by omega))]
    rw [PhiS1_zero V c _ _ h0, PhiA1_eq, accAt1_first V c t h0]
    iintro ⟨⟨⟨⟨⟨%a0, HA⟩, ⟨%b0, HB⟩⟩, HR⟩, Hg⟩, Ho, ⟨%d0, H0⟩, ⟨%d1, H1⟩, ⟨%d2, H2⟩, ⟨%d3, H3⟩, ⟨%d4, H4⟩, ⟨%d5, H5⟩⟩
    iapply (run_first1 c (grid1.coords t) _ _ _ _ _ _ _ _ _ _ _ _ _ _ _ _ hf hl
      (iblk1 V c 0 t) (iblk1 V c 1 t) (iblk1 V c 2 t) (iblk1 V c 3 t) (iblk1 V c 4 t) ((dat1 V c).before 5 t d5) a0 b0 Set.univ _)
    isplitl [H0]; · iexact H0
    isplitl [H1]; · iexact H1
    isplitl [H2]; · iexact H2
    isplitl [H3]; · iexact H3
    isplitl [H4]; · iexact H4
    isplitl [H5]; · iexact H5
    isplitl [HA]; · iexact HA
    isplitl [HB]; · iexact HB
    iintro ⟨H0, H1, H2, H3, H4, H5, HA, HB⟩
    isplitl [HA HB HR Hg]
    · isplitl [HA HB HR]
      · isplitl [HA HB]
        · isplitl [HA]
          · iexact HA
          iexact HB
        iexact HR
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · have hf : ¬isFirst1 (grid1.coords t) := fun h => h0 ((isFirst1_iff t).mp h)
    rw [PhiS1_pos V c _ _ h0, accAt1_later V c t h0]
    by_cases h9 : t.val = 9
    · -- the last point
      have hl : isLast1 (grid1.coords t) := (isLast1_iff t).mpr h9
      rw [leaves1_in V c 5 t (live1_5 _ hl), after1_5]
      unfold out1_5; rw [accAt1_later V c t h0]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (run_last1 c (grid1.coords t) _ _ _ _ _ _ _ _ _ _ _ _ _ _ _ _ hf hl
        (iblk1 V c 0 t) (iblk1 V c 1 t) (iblk1 V c 2 t) (iblk1 V c 3 t) (iblk1 V c 4 t) ((dat1 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]
            · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a point in between
      have hl : ¬isLast1 (grid1.coords t) := fun h => h9 ((isLast1_iff t).mp h)
      rw [Dat.leavesExact_idle (dat1 V c) 5 t (idle1_5 _ hl) (noFlush1_5 t h9)]
      iintro ⟨⟨⟨⟨HA, HB⟩, HR⟩, Hg⟩, Ho, ⟨%d0, H0⟩, ⟨%d1, H1⟩, ⟨%d2, H2⟩, ⟨%d3, H3⟩, ⟨%d4, H4⟩, ⟨%d5, H5⟩⟩
      iapply (run_mid1 c (grid1.coords t) _ _ _ _ _ _ _ _ _ _ _ _ _ _ _ _ hf hl
        (iblk1 V c 0 t) (iblk1 V c 1 t) (iblk1 V c 2 t) (iblk1 V c 3 t) (iblk1 V c 4 t) ((dat1 V c).before 5 t d5) _ _ Set.univ _)
      isplitl [H0]; · iexact H0
      isplitl [H1]; · iexact H1
      isplitl [H2]; · iexact H2
      isplitl [H3]; · iexact H3
      isplitl [H4]; · iexact H4
      isplitl [H5]; · iexact H5
      isplitl [HA]; · iexact HA
      isplitl [HB]; · iexact HB
      iintro ⟨H0, H1, H2, H3, H4, H5, HA, HB⟩
      isplitl [HA HB HR Hg]
      · isplitl [HA HB HR]
        · isplitl [HA HB]
          · isplitl [HA]
            · iexact HA
            iexact HB
          iexact HR
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The body obligation of region 1 at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back: the scratch contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 10 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨⟨HA, HB⟩, HR⟩, Hg⟩
  isplitl [HA HB HR]
  · isplitl [HA HB]
    · isplitl [HA]
      · iexists _; iexact HA
      iexists _; iexact HB
    iexact HR
  iexact Hg

end Cert.KernelIdeal.Hand

end
-- ==== Proof.KI.Run.lean ====
/-
  The whole run of @main: two host stretches and the two kernel regions, in order.

  Between two items the core holds every unscoped buffer at named contents: the launch memory, then what the first
  host stretch computes from it (the two index vectors, the two gathers of x, the weight slices, the reshaped biases
  and graph ids), then region 0's output array at what its write-backs leave, then the aggregation of the messages
  into their destination nodes and the reshaped classifier bias, then region 1's output array at what its one
  write-back leaves. Every weakly fair execution terminates with every unscoped buffer at the last of these; no
  host operation and no region writes an argument array, so the arguments end as launched.
-/
import proofs.«411481_j80324478369805_2_alg».proof.Proof.KI.Body0
import proofs.«411481_j80324478369805_2_alg».proof.Proof.KI.Body1
import proofs.«411481_j80324478369805_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch: region 1's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 0).trans (((dat1 (V3 m ρ) c).arrAt_in 0 rfl _).trans (A_eq1 (V3 m ρ) c 0))
    _ = W2 m ρ c (Proc.devRef .tc main_arg0) := StableHlo.after_of_writes_sub hostOps1 _ hostOps1_writes (r := main_arg0) (by decide)
    _ = W1 m ρ c (Proc.devRef .tc main_arg0) := W2_of_ne m ρ c main_arg0 (by decide)
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (r := main_arg1) (by decide)
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (r := main_arg2) (by decide)
    _ = W1 m ρ c (Proc.devRef .tc main_arg2) := (W2_arr m ρ c 2).trans (((dat0 (V1 m ρ) c).arrAt_in 2 rfl _).trans (A_eq0 (V1 m ρ) c 2))
    _ = W0 m ρ c (Proc.devRef .tc main_arg2) := StableHlo.after_of_writes_sub hostOps0 _ hostOps0_writes (r := main_arg2) (by decide)
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (r := main_arg3) (by decide)
    _ = W1 m ρ c (Proc.devRef .tc main_arg3) := W2_of_ne m ρ c main_arg3 (by decide)
    _ = W0 m ρ c (Proc.devRef .tc main_arg3) := StableHlo.after_of_writes_sub hostOps0 _ hostOps0_writes (r := main_arg3) (by decide)
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (r := main_arg4) (by decide)
    _ = W1 m ρ c (Proc.devRef .tc main_arg4) := W2_of_ne m ρ c main_arg4 (by decide)
    _ = W0 m ρ c (Proc.devRef .tc main_arg4) := StableHlo.after_of_writes_sub hostOps0 _ hostOps0_writes (r := main_arg4) (by decide)
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (r := main_arg5) (by decide)
    _ = W1 m ρ c (Proc.devRef .tc main_arg5) := W2_of_ne m ρ c main_arg5 (by decide)
    _ = W0 m ρ c (Proc.devRef .tc main_arg5) := StableHlo.after_of_writes_sub hostOps0 _ hostOps0_writes (r := main_arg5) (by decide)
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (r := main_arg6) (by decide)
    _ = W1 m ρ c (Proc.devRef .tc main_arg6) := W2_of_ne m ρ c main_arg6 (by decide)
    _ = W0 m ρ c (Proc.devRef .tc main_arg6) := StableHlo.after_of_writes_sub hostOps0 _ hostOps0_writes (r := main_arg6) (by decide)
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (r := main_arg7) (by decide)
    _ = W1 m ρ c (Proc.devRef .tc main_arg7) := W2_of_ne m ρ c main_arg7 (by decide)
    _ = W0 m ρ c (Proc.devRef .tc main_arg7) := StableHlo.after_of_writes_sub hostOps0 _ hostOps0_writes (r := main_arg7) (by decide)
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := (W4_arr m ρ c 3).trans (((dat1 (V3 m ρ) c).arrAt_in 3 rfl _).trans (A_eq1 (V3 m ρ) c 3))
    _ = W2 m ρ c (Proc.devRef .tc main_arg8) := StableHlo.after_of_writes_sub hostOps1 _ hostOps1_writes (r := main_arg8) (by decide)
    _ = W1 m ρ c (Proc.devRef .tc main_arg8) := W2_of_ne m ρ c main_arg8 (by decide)
    _ = W0 m ρ c (Proc.devRef .tc main_arg8) := StableHlo.after_of_writes_sub hostOps0 _ hostOps0_writes (r := main_arg8) (by decide)
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps1 _ hostOps1_writes (r := main_arg9) (by decide)
    _ = W1 m ρ c (Proc.devRef .tc main_arg9) := W2_of_ne m ρ c main_arg9 (by decide)
    _ = W0 m ρ c (Proc.devRef .tc main_arg9) := StableHlo.after_of_writes_sub hostOps0 _ hostOps0_writes (r := main_arg9) (by decide)
    _ = m ((c : Thread nD τ).loc main_arg9) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over the pinned configuration unifies only when unification may unfold plain
-- definitions in a metavariable's type
set_option backward.isDefEq.respectTransparency.types false in
/-- Region 0 over the thread state: entered with every unscoped buffer at `W1`, left with them at `W2`. Its arrays
    are split out of the unscoped buffers and put back at what the write-backs leave; the generator register and the scoped
    rest enter the region's invariant and come back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Region 1 over the thread state: entered with every unscoped buffer at `W3`, left with them at `W4`. Its arrays
    are split out of the unscoped buffers and put back at what the write-backs leave; the generator register and the scoped
    rest enter the region's invariant and come back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec1 c ⊢ (pdats m ρ 1 c).Φ 0 := hin1 (V3 m ρ) c
    unfold Pipeline.ΦA at h
    iintro ⟨Hp, -, Hr⟩
    iapply h
    isplitl [Hr]; · iexact Hr
    iexact Hp
  hout c := by
    rw [Pipeline.ownSems0_none]
    have h : (pdats m ρ 1 c).Φ (Fin.last _) ⊢ Pipeline.ΦA spec1 c := hout1 (V3 m ρ) c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c)⟩) (run_all m ρ)

end Cert.KernelIdeal.Hand

end
-- ==== Proof.Spec.lean ====
/-
  The two halves of the reference, as functions of the arrays they read.

  The reference computes, for every edge e and feature f,
      msg[e, f] = sigmoid(z_f[e, f]) * softplus(z_s[e, f]),   z = [x_dst, x_src, edge_attr] · W + b,
  the sum over the 144 joined columns, adds the messages into the node of each edge's destination,
  and then pools: h = relu(x + agg) summed per graph, divided by max(count, 1), times lin_w, plus lin_b.
  `msgRef` is the first half as a function of the two gathered node arrays (which both programs compute
  with the same host operations), `poolRef` the second as a function of the aggregated messages.
-/
import proofs.«411481_j80324478369805_2_alg».proof.ReferenceIdeal

noncomputable section

namespace Cert.Spec

open Cert.ReferenceIdeal Idealize.ShloMosaic
open Cert.ReferenceIdeal.Facts₀ Cert.ReferenceIdeal.Facts

variable {F : FTy → Type} [FloatOps F] [hR : Cert.ReferenceIdeal.Facts]

/-- The pre-activation `[x_dst, x_src, edge_attr] · W + b`, over all edges. -/
def zRef (xd xs : FVec F S1600000x64 .f32) (ea : FVec F S1600000x16 .f32) (W : FVec F S144x64 .f32) (b : FVec F S64 .f32) :
    FVec F S1600000x64 .f32 :=
  addf (Host.dotGeneral dot_S1600000x144_S144x64_S1600000x64_1_0_0_1_n_n none (concatenate S1600000x144 1 [⟨S1600000x64, xd⟩, ⟨S1600000x64, xs⟩, ⟨S1600000x16, ea⟩] concatenates_S1600000x64_S1600000x64_S1600000x16_S1600000x144_d1) W) (broadcastInDim S1600000x64 ![0, 1] bcast_S1x64_S1600000x64_0_1 (broadcastInDim S1x64 ![1] bcast_S64_S1x64_1 b))

/-- The logistic function as jax expands it on the host: `1 / (1 + exp(-z))`. -/
def sigmoidRef (z : FVec F S1600000x64 .f32) : FVec F S1600000x64 .f32 :=
  Host.divf (broadcastInDim S1600000x64 ![] bcast_S_S1600000x64 (constant S_ .f32 0x3F800000#32)) (addf (broadcastInDim S1600000x64 ![] bcast_S_S1600000x64 (constant S_ .f32 0x3F800000#32)) (Host.exp (Host.negf z)))

/-- softplus as jax writes `logaddexp(z, 0)`: `max(z, 0) + log1p(exp(-|z - 0|))`, guarded by an is-NaN test. -/
def softplusRef (z : FVec F S1600000x64 .f32) : FVec F S1600000x64 .f32 :=
  select (cmpf .une (subf z (broadcastInDim S1600000x64 ![] bcast_S_S1600000x64 (constant S_ .f32 0x00000000#32))) (subf z (broadcastInDim S1600000x64 ![] bcast_S_S1600000x64 (constant S_ .f32 0x00000000#32)))) (addf z (broadcastInDim S1600000x64 ![] bcast_S_S1600000x64 (constant S_ .f32 0x00000000#32))) (addf (maximumf z (broadcastInDim S1600000x64 ![] bcast_S_S1600000x64 (constant S_ .f32 0x00000000#32))) (Host.log1p (Host.exp (Host.negf (Host.absf (subf z (broadcastInDim S1600000x64 ![] bcast_S_S1600000x64 (constant S_ .f32 0x00000000#32))))))))

/-- The messages of all edges. -/
def msgRef (xd xs : FVec F S1600000x64 .f32) (ea : FVec F S1600000x16 .f32) (Wf : FVec F S144x64 .f32) (bf : FVec F S64 .f32)
    (Ws : FVec F S144x64 .f32) (bs : FVec F S64 .f32) : FVec F S1600000x64 .f32 :=
  mulf (sigmoidRef (zRef xd xs ea Wf bf)) (softplusRef (zRef xd xs ea Ws bs))

/-- The node update, the mean over each graph's nodes and the classifier. -/
def poolRef (x agg : FVec F S100000x64 .f32) (batch : IVec S100000 32) (linw : FVec F S64x10 .f32) (linb : FVec F S10 .f32) :
    FVec F S64x10 .f32 :=
  addf (Host.dotGeneral dot_S64x64_S64x10_S64x10_1_0_0_1_n_n none (Host.divf (Host.scatterAdd scatter_S64x64_S100000x1_S100000x64_1_0_0_1 (broadcastInDim S64x64 ![] bcast_S_S64x64 (constant S_ .f32 0x00000000#32)) (broadcastInDim S100000x1 ![0] bcast_S100000_S100000x1_0 batch) (maximumf (addf x agg) (broadcastInDim S100000x64 ![] bcast_S_S100000x64 (constant S_ .f32 0x00000000#32)))) (broadcastInDim S64x64 ![0, 1] bcast_S64x1_S64x64_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32))) (broadcastInDim S64 ![] bcast_S_S64 (constant S_ .f32 0x3F800000#32)))))) linw) (broadcastInDim S64x10 ![0, 1] bcast_S1x10_S64x10_0_1 (broadcastInDim S1x10 ![1] bcast_S10_S1x10_1 linb))

end Cert.Spec

end
-- ==== Proof.KI.Value0.lean ====
/-
  What region 0 leaves in its output array, over the extended reals: the reference's messages.

  Block t of the output is the kernel's payload of rows [6400 t, 6400 (t+1)) of its inputs; the 250 blocks tile the
  1,600,000 rows. At an edge e and a feature f the payload is sigmoid(z_f) * softplus(z_s) with
  z = x_dst[e]·W[0:64] + x_src[e]·W[64:128] + edge_attr[e]·W[128:144] + b, three sums that together are the
  reference's one sum over the 144 joined columns (addition of extended reals is associative and commutative,
  so no finiteness is needed), the logistic function is by definition 1 / (1 + exp(-z)), and 0 - |z| is -|z|.

  Order of the text: a matrix product into a zero accumulator at an entry; the two activations; the kernel's payload at an
  entry of its block (`payload_apply`); the reference's message at an entry (`msgRef_apply`: the product over the joined
  columns, the joined row read run by run, the 144 columns split 64 + 64 + 16); the weight and bias windows read off `W`
  and `b`; the blocks read off the arrays; what a point writes back (`flushed_eq`), the cover, and `msg_value`.
-/
import proofs.«411481_j80324478369805_2_alg».proof.Proof.KI.Body0
import proofs.«411481_j80324478369805_2_alg».proof.Proof.Gen.ReferenceIdeal
import proofs.«411481_j80324478369805_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

/-! ## A matrix product into a zero accumulator, read at an entry -/

theorem lhs_rows64_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_rows64_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_rows64_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_rows64_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-- Entry (r, f) of a 6400x64 by 64x64 product into zero: the sum over the 64 joined columns. -/
theorem matmul_rows64_apply (x : FVec Ideal S6400x64 .bf16) (w : FVec Ideal S64x64 .bf16) (r : Fin 6400) (f : Fin 64) :
    matmul dot_S6400x64_S64x64_S6400x64_1_0_0_1_n_n none x w (constant S6400x64 .f32 0x00000000#32) (ix2 r f)
      = ∑ k : Fin 64, x (ix2 r k) * w (ix2 k f) := by
  show FloatOps.matmul dot_S6400x64_S64x64_S6400x64_1_0_0_1_n_n none x w (constant S6400x64 .f32 0x00000000#32) (ix2 r f) = _
  rw [Ideal.matmul_constant_zero_apply, ← Equiv.sum_comp (ValueIdx.contrEquiv1 dot_S6400x64_S64x64_S6400x64_1_0_0_1_n_n 64 rfl rfl).symm]
  refine Finset.sum_congr rfl fun k _ => ?_
  have hk := ValueIdx.contrEquiv1_symm_val dot_S6400x64_S64x64_S6400x64_1_0_0_1_n_n 64 rfl rfl k
  have el : dot_S6400x64_S64x64_S6400x64_1_0_0_1_n_n.lhsIdx (ix2 r f) ((ValueIdx.contrEquiv1 dot_S6400x64_S64x64_S6400x64_1_0_0_1_n_n 64 rfl rfl).symm k) = ix2 r k := funext fun a => Fin.ext (by
    match a with
    | ⟨0, _⟩ => exact lhs_rows64_0 _ _
    | ⟨1, _⟩ => exact (lhs_rows64_1 _ _).trans hk)
  have er : dot_S6400x64_S64x64_S6400x64_1_0_0_1_n_n.rhsIdx (ix2 r f) ((ValueIdx.contrEquiv1 dot_S6400x64_S64x64_S6400x64_1_0_0_1_n_n 64 rfl rfl).symm k) = ix2 k f := funext fun a => Fin.ext (by
    match a with
    | ⟨0, _⟩ => exact (rhs_rows64_0 _ _).trans hk
    | ⟨1, _⟩ => exact rhs_rows64_1 _ _)
  rw [el, er]

theorem lhs_rows16_0 (i : S6400x64.Idx) (q : dot_S6400x16_S16x64_S6400x64_1_0_0_1_n_n.contr.Idx) :
    (dot_S6400x16_S16x64_S6400x64_1_0_0_1_n_n.lhsIdx i q 0).val = (i 0).val := by
  unfold DotDims.lhsIdx
  rw [dif_neg (show ¬(0 : Fin S6400x16.rank) ∈ dot_S6400x16_S16x64_S6400x64_1_0_0_1_n_n.lhsBatch by decide), dif_pos (show (0 : Fin S6400x16.rank) ∈ dot_S6400x16_S16x64_S6400x64_1_0_0_1_n_n.lhsNonContracting by decide)]
  rfl
theorem lhs_rows16_1 (i : S6400x64.Idx) (q : dot_S6400x16_S16x64_S6400x64_1_0_0_1_n_n.contr.Idx) :
    (dot_S6400x16_S16x64_S6400x64_1_0_0_1_n_n.lhsIdx i q 1).val = (q ⟨0, by decide⟩).val :=
  dot_S6400x16_S16x64_S6400x64_1_0_0_1_n_n.lhsIdx_val_of_single rfl i q
theorem rhs_rows16_0 (i : S6400x64.Idx) (q : dot_S6400x16_S16x64_S6400x64_1_0_0_1_n_n.contr.Idx) :
    (dot_S6400x16_S16x64_S6400x64_1_0_0_1_n_n.rhsIdx i q 0).val = (q ⟨0, by decide⟩).val :=
  dot_S6400x16_S16x64_S6400x64_1_0_0_1_n_n.rhsIdx_val_of_single rfl i q
theorem rhs_rows16_1 (i : S6400x64.Idx) (q : dot_S6400x16_S16x64_S6400x64_1_0_0_1_n_n.contr.Idx) :
    (dot_S6400x16_S16x64_S6400x64_1_0_0_1_n_n.rhsIdx i q 1).val = (i 1).val := by
  unfold DotDims.rhsIdx
  rw [dif_neg (show ¬(1 : Fin S16x64.rank) ∈ dot_S6400x16_S16x64_S6400x64_1_0_0_1_n_n.rhsBatch by decide), dif_pos (show (1 : Fin S16x64.rank) ∈ dot_S6400x16_S16x64_S6400x64_1_0_0_1_n_n.rhsNonContracting by decide)]
  rfl

/-- Entry (r, f) of a 6400x16 by 16x64 product into zero: the sum over the 16 joined columns. -/
theorem matmul_rows16_apply (x : FVec Ideal S6400x16 .bf16) (w : FVec Ideal S16x64 .bf16) (r : Fin 6400) (f : Fin 64) :
    matmul dot_S6400x16_S16x64_S6400x64_1_0_0_1_n_n none x w (constant S6400x64 .f32 0x00000000#32) (ix2 r f)
      = ∑ k : Fin 16, x (ix2 r k) * w (ix2 k f) := by
  show FloatOps.matmul dot_S6400x16_S16x64_S6400x64_1_0_0_1_n_n none x w (constant S6400x64 .f32 0x00000000#32) (ix2 r f) = _
  rw [Ideal.matmul_constant_zero_apply, ← Equiv.sum_comp (ValueIdx.contrEquiv1 dot_S6400x16_S16x64_S6400x64_1_0_0_1_n_n 16 rfl rfl).symm]
  refine Finset.sum_congr rfl fun k _ => ?_
  have hk := ValueIdx.contrEquiv1_symm_val dot_S6400x16_S16x64_S6400x64_1_0_0_1_n_n 16 rfl rfl k
  have el : dot_S6400x16_S16x64_S6400x64_1_0_0_1_n_n.lhsIdx (ix2 r f) ((ValueIdx.contrEquiv1 dot_S6400x16_S16x64_S6400x64_1_0_0_1_n_n 16 rfl rfl).symm k) = ix2 r k := funext fun a => Fin.ext (by
    match a with
    | ⟨0, _⟩ => exact lhs_rows16_0 _ _
    | ⟨1, _⟩ => exact (lhs_rows16_1 _ _).trans hk)
  have er : dot_S6400x16_S16x64_S6400x64_1_0_0_1_n_n.rhsIdx (ix2 r f) ((ValueIdx.contrEquiv1 dot_S6400x16_S16x64_S6400x64_1_0_0_1_n_n 16 rfl rfl).symm k) = ix2 k f := funext fun a => Fin.ext (by
    match a with
    | ⟨0, _⟩ => exact (rhs_rows16_0 _ _).trans hk
    | ⟨1, _⟩ => exact rhs_rows16_1 _ _)
  rw [el, er]

/-! ## The two activations on the extended reals -/

/-- The word of the float one denotes one. -/
theorem one_word : Ideal.ofBits .f32 0x3F800000#32 = (1 : EReal) := IdealRules.sign_bit.ideal_onePat .f32

/-- softplus as `logaddexp(z, 0)` is printed: `max(z, 0) + log1p(exp(-|z - 0|))`, behind a test of `z - 0` against itself
    that no extended real passes. -/
def softplusE (z : EReal) : EReal := max z 0 + Ideal.log1p (Ideal.exp (-(max (z - 0) (-(z - 0)))))

/-- An extended real is not different from itself, under either spelling of the comparison. -/
theorem cmp_one_self (d : EReal) : Ideal.cmp .one d d = 0#1 := by simp [Ideal.cmp]
theorem cmp_une_self (d : EReal) : Ideal.cmp .une d d = 0#1 := by simp [Ideal.cmp]

/-- The message of one edge and feature from its two pre-activations. -/
def gateE (zf zs : EReal) : EReal := Ideal.logistic zf * softplusE zs

/-! ## The kernel's payload at an entry of its block -/

section Pointwise
variable {s : Shape} {φ : FTy}
theorem logistic_at (a : FVec Ideal s φ) (i : s.Idx) : logistic a i = Ideal.logistic (a i) := rfl
theorem absf_at (a : FVec Ideal s φ) (i : s.Idx) : absf a i = max (a i) (-(a i)) := rfl
theorem exp_at (a : FVec Ideal s φ) (i : s.Idx) : exp a i = Ideal.exp (a i) := rfl
theorem log1p_at (a : FVec Ideal s φ) (i : s.Idx) : log1p a i = Ideal.log1p (a i) := rfl
theorem scalar_word (b : BitVec (FTy.bits .f32)) : Scalar.ofBits (F := Ideal) .f32 b = Ideal.ofBits .f32 b := rfl
end Pointwise

/-- The pre-activation as the kernel adds it up at row r of its blocks and feature f: three products and the bias row. -/
def zK (x0 x1 : FVec Ideal S6400x64 .f32) (x2 : FVec Ideal S6400x16 .f32) (w0 w1 : FVec Ideal S64x64 .f32) (w2 : FVec Ideal S16x64 .f32)
    (b : FVec Ideal S1x64 .f32) (r : Fin 6400) (f : Fin 64) : EReal :=
  (∑ k : Fin 64, x0 (ix2 r k) * w0 (ix2 k f)) + (∑ k : Fin 64, x1 (ix2 r k) * w1 (ix2 k f)) + (∑ k : Fin 16, x2 (ix2 r k) * w2 (ix2 k f)) + b (ix2 (0 : Fin 1) f)

/-- The first pre-activation, which the kernel's first part hands on, at an entry. -/
theorem preact_first_apply (x0 x1 : FVec Ideal S6400x64 .f32) (x2 : FVec Ideal S6400x16 .f32) (x3 x4 : FVec Ideal S64x64 .f32) (x5 : FVec Ideal S16x64 .f32)
    (x9 : FVec Ideal S1x64 .f32) (r : Fin 6400) (f : Fin 64) :
    k0_pay8 (F := Ideal) x0 x1 x2 x3 x4 x5 x9 (ix2 r f) = zK x0 x1 x2 x3 x4 x5 x9 r f := by
  unfold k0_pay8 k0_pay2 k0_pay3 k0_pay4 zK
  dsimp only
  simp only [addf_apply]
  rw [matmul_rows64_apply, matmul_rows64_apply, matmul_rows16_apply, broadcastTo_1b_ab_apply]
  simp only [shapeCast_self, truncf_apply]

/-- The stored product at an entry: the logistic of the first pre-activation times the softplus of the second. -/
theorem payload_apply (x0 x1 : FVec Ideal S6400x64 .f32) (x2 : FVec Ideal S6400x16 .f32) (x3 x4 : FVec Ideal S64x64 .f32) (x5 : FVec Ideal S16x64 .f32)
    (x6 x7 : FVec Ideal S64x64 .f32) (x8 : FVec Ideal S16x64 .f32) (x9 x10 : FVec Ideal S1x64 .f32) (r : Fin 6400) (f : Fin 64) :
    k0_pay1 (F := Ideal) (k0_pay2 x0) (k0_pay3 x1) (k0_pay4 x2) (k0_pay5 x6) (k0_pay6 x7) (k0_pay7 x8) (k0_pay8 x0 x1 x2 x3 x4 x5 x9)
        (constant S6400x64 .f32 0x00000000#32) x10 (ix2 r f)
      = gateE (zK x0 x1 x2 x3 x4 x5 x9 r f) (zK x0 x1 x2 x6 x7 x8 x10 r f) := by
  unfold k0_pay1
  simp only [mulf_apply, logistic_at, select_apply, cmpf_apply, addf_apply, subf_apply, maximumf_apply, absf_at, exp_at, log1p_at,
    broadcast_apply, scalar_word, Ideal.ofBits_zero_f32, Ideal.cmpf_def]
  rw [preact_first_apply]
  unfold k0_pay2 k0_pay3 k0_pay4 k0_pay5 k0_pay6 k0_pay7
  dsimp only
  rw [matmul_rows64_apply, matmul_rows64_apply, matmul_rows16_apply, broadcastTo_1b_ab_apply]
  simp only [shapeCast_self, truncf_apply]
  rw [cmp_one_self, select_zero, zero_sub]
  rfl

/-! ## The reference's message at an entry -/

theorem lhs_cols144_0 (i : Cert.ReferenceIdeal.S1600000x64.Idx) (q : Cert.ReferenceIdeal.dot_S1600000x144_S144x64_S1600000x64_1_0_0_1_n_n.contr.Idx) :
    (Cert.ReferenceIdeal.dot_S1600000x144_S144x64_S1600000x64_1_0_0_1_n_n.lhsIdx i q 0).val = (i 0).val := by
  unfold DotDims.lhsIdx
  rw [dif_neg (show ¬(0 : Fin Cert.ReferenceIdeal.S1600000x144.rank) ∈ Cert.ReferenceIdeal.dot_S1600000x144_S144x64_S1600000x64_1_0_0_1_n_n.lhsBatch by decide), dif_pos (show (0 : Fin Cert.ReferenceIdeal.S1600000x144.rank) ∈ Cert.ReferenceIdeal.dot_S1600000x144_S144x64_S1600000x64_1_0_0_1_n_n.lhsNonContracting by decide)]
  rfl
theorem lhs_cols144_1 (i : Cert.ReferenceIdeal.S1600000x64.Idx) (q : Cert.ReferenceIdeal.dot_S1600000x144_S144x64_S1600000x64_1_0_0_1_n_n.contr.Idx) :
    (Cert.ReferenceIdeal.dot_S1600000x144_S144x64_S1600000x64_1_0_0_1_n_n.lhsIdx i q 1).val = (q ⟨0, by decide⟩).val :=
  Cert.ReferenceIdeal.dot_S1600000x144_S144x64_S1600000x64_1_0_0_1_n_n.lhsIdx_val_of_single rfl i q
theorem rhs_cols144_0 (i : Cert.ReferenceIdeal.S1600000x64.Idx) (q : Cert.ReferenceIdeal.dot_S1600000x144_S144x64_S1600000x64_1_0_0_1_n_n.contr.Idx) :
    (Cert.ReferenceIdeal.dot_S1600000x144_S144x64_S1600000x64_1_0_0_1_n_n.rhsIdx i q 0).val = (q ⟨0, by decide⟩).val :=
  Cert.ReferenceIdeal.dot_S1600000x144_S144x64_S1600000x64_1_0_0_1_n_n.rhsIdx_val_of_single rfl i q
theorem rhs_cols144_1 (i : Cert.ReferenceIdeal.S1600000x64.Idx) (q : Cert.ReferenceIdeal.dot_S1600000x144_S144x64_S1600000x64_1_0_0_1_n_n.contr.Idx) :
    (Cert.ReferenceIdeal.dot_S1600000x144_S144x64_S1600000x64_1_0_0_1_n_n.rhsIdx i q 1).val = (i 1).val := by
  unfold DotDims.rhsIdx
  rw [dif_neg (show ¬(1 : Fin Cert.ReferenceIdeal.S144x64.rank) ∈ Cert.ReferenceIdeal.dot_S1600000x144_S144x64_S1600000x64_1_0_0_1_n_n.rhsBatch by decide), dif_pos (show (1 : Fin Cert.ReferenceIdeal.S144x64.rank) ∈ Cert.ReferenceIdeal.dot_S1600000x144_S144x64_S1600000x64_1_0_0_1_n_n.rhsNonContracting by decide)]
  rfl

/-- Entry (e, f) of the reference's product of the joined rows with a weight matrix: the sum over the 144 joined columns. -/
theorem dot_cols144_apply (y : FVec Ideal Cert.ReferenceIdeal.S1600000x144 .f32) (W : FVec Ideal Cert.ReferenceIdeal.S144x64 .f32) (e : Fin 1600000) (f : Fin 64) :
    Host.dotGeneral Cert.ReferenceIdeal.dot_S1600000x144_S144x64_S1600000x64_1_0_0_1_n_n none y W (ix2 e f) = ∑ k : Fin 144, y (ix2 e k) * W (ix2 k f) := by
  simp only [Host.dotGeneral]
  rw [Ideal.dotGeneral_apply, ← Equiv.sum_comp (ValueIdx.contrEquiv1 Cert.ReferenceIdeal.dot_S1600000x144_S144x64_S1600000x64_1_0_0_1_n_n 144 rfl rfl).symm]
  refine Finset.sum_congr rfl fun k _ => ?_
  have hk := ValueIdx.contrEquiv1_symm_val Cert.ReferenceIdeal.dot_S1600000x144_S144x64_S1600000x64_1_0_0_1_n_n 144 rfl rfl k
  have el : Cert.ReferenceIdeal.dot_S1600000x144_S144x64_S1600000x64_1_0_0_1_n_n.lhsIdx (ix2 e f) ((ValueIdx.contrEquiv1 Cert.ReferenceIdeal.dot_S1600000x144_S144x64_S1600000x64_1_0_0_1_n_n 144 rfl rfl).symm k) = ix2 e k := funext fun a => Fin.ext (by
    match a with
    | ⟨0, _⟩ => exact lhs_cols144_0 _ _
    | ⟨1, _⟩ => exact (lhs_cols144_1 _ _).trans hk)
  have er : Cert.ReferenceIdeal.dot_S1600000x144_S144x64_S1600000x64_1_0_0_1_n_n.rhsIdx (ix2 e f) ((ValueIdx.contrEquiv1 Cert.ReferenceIdeal.dot_S1600000x144_S144x64_S1600000x64_1_0_0_1_n_n 144 rfl rfl).symm k) = ix2 k f := funext fun a => Fin.ext (by
    match a with
    | ⟨0, _⟩ => exact (rhs_cols144_0 _ _).trans hk
    | ⟨1, _⟩ => exact rhs_cols144_1 _ _)
  rw [el, er]

section Joined
variable (xd xs : FVec Ideal S1600000x64 .f32) (ea : FVec Ideal S1600000x16 .f32)
variable (h : Shape.Concatenates (([⟨S1600000x64, xd⟩, ⟨S1600000x64, xs⟩, ⟨S1600000x16, ea⟩] : List ((s : Shape) × (s.Idx → EReal))).map (·.1)) Cert.ReferenceIdeal.S1600000x144 1)

/-- The joined row reads the destination node's features in its first 64 columns, -/
theorem joined_dst (e : Fin 1600000) (k : Fin 64) (k' : Fin 144) (hk : k'.val = k.val) :
    concatenate Cert.ReferenceIdeal.S1600000x144 1 [⟨S1600000x64, xd⟩, ⟨S1600000x64, xs⟩, ⟨S1600000x16, ea⟩] h (ix2 e k') = xd (ix2 e k) :=
  concatenate_apply_piece (t := Cert.ReferenceIdeal.S1600000x144) (1 : Fin 2) [⟨S1600000x64, xd⟩, ⟨S1600000x64, xs⟩, ⟨S1600000x16, ea⟩] h (ix2 e k') 0 (by show (0 : Nat) < 3; omega) S1600000x64 xd rfl rfl 0 rfl (ix2 e k)
    (fun b hb => by
      match b with
      | ⟨0, _⟩ => rfl
      | ⟨1, _⟩ => exact absurd rfl hb)
    (by show 0 + k.val = k'.val; omega)

/-- the source node's in the next 64, -/
theorem joined_src (e : Fin 1600000) (k : Fin 64) (k' : Fin 144) (hk : k'.val = 64 + k.val) :
    concatenate Cert.ReferenceIdeal.S1600000x144 1 [⟨S1600000x64, xd⟩, ⟨S1600000x64, xs⟩, ⟨S1600000x16, ea⟩] h (ix2 e k') = xs (ix2 e k) :=
  concatenate_apply_piece (t := Cert.ReferenceIdeal.S1600000x144) (1 : Fin 2) [⟨S1600000x64, xd⟩, ⟨S1600000x64, xs⟩, ⟨S1600000x16, ea⟩] h (ix2 e k') 1 (by show (1 : Nat) < 3; omega) S1600000x64 xs rfl rfl 64 rfl (ix2 e k)
    (fun b hb => by
      match b with
      | ⟨0, _⟩ => rfl
      | ⟨1, _⟩ => exact absurd rfl hb)
    (by show 64 + k.val = k'.val; omega)

/-- and the edge's attributes in the last 16. -/
theorem joined_attr (e : Fin 1600000) (k : Fin 16) (k' : Fin 144) (hk : k'.val = 128 + k.val) :
    concatenate Cert.ReferenceIdeal.S1600000x144 1 [⟨S1600000x64, xd⟩, ⟨S1600000x64, xs⟩, ⟨S1600000x16, ea⟩] h (ix2 e k') = ea (ix2 e k) :=
  concatenate_apply_piece (t := Cert.ReferenceIdeal.S1600000x144) (1 : Fin 2) [⟨S1600000x64, xd⟩, ⟨S1600000x64, xs⟩, ⟨S1600000x16, ea⟩] h (ix2 e k') 2 (by show (2 : Nat) < 3; omega) S1600000x16 ea rfl rfl 128 rfl (ix2 e k)
    (fun b hb => by
      match b with
      | ⟨0, _⟩ => rfl
      | ⟨1, _⟩ => exact absurd rfl hb)
    (by show 128 + k.val = k'.val; omega)
end Joined

/-- A sum over 144 columns is the sum over the first 64, the next 64 and the last 16. -/
theorem sum_cols144 (g : Fin 144 → EReal) :
    ∑ k : Fin 144, g k = (∑ k : Fin 64, g ⟨k.val, by omega⟩) + (∑ k : Fin 64, g ⟨64 + k.val, by omega⟩) + ∑ k : Fin 16, g ⟨128 + k.val, by omega⟩ := by
  rw [show (∑ k : Fin 144, g k) = ∑ k : Fin (64 + 80), g k from rfl, Fin.sum_univ_add,
    show (∑ k : Fin 80, g (Fin.natAdd 64 k)) = ∑ k : Fin (64 + 16), g (Fin.natAdd 64 k) from rfl, Fin.sum_univ_add, ← add_assoc]
  refine congrArg₂ (· + ·) (congrArg₂ (· + ·) rfl rfl) (Finset.sum_congr rfl fun k _ => congrArg g (Fin.ext ?_))
  show 64 + (64 + k.val) = 128 + k.val
  omega

/-- The pre-activation as the reference adds it up at edge e and feature f, its 144 columns taken in their three runs. -/
def zR (xd xs : FVec Ideal S1600000x64 .f32) (ea : FVec Ideal S1600000x16 .f32) (W : FVec Ideal S144x64 .f32) (b : FVec Ideal S64 .f32)
    (e : Fin 1600000) (f : Fin 64) : EReal :=
  (∑ k : Fin 64, xd (ix2 e k) * W (ix2 (⟨k.val, by omega⟩ : Fin 144) f)) + (∑ k : Fin 64, xs (ix2 e k) * W (ix2 (⟨64 + k.val, by omega⟩ : Fin 144) f))
    + (∑ k : Fin 16, ea (ix2 e k) * W (ix2 (⟨128 + k.val, by omega⟩ : Fin 144) f)) + b (ix1 f)

/-- The reference's pre-activation at an entry. -/
theorem zRef_apply (xd xs : FVec Ideal S1600000x64 .f32) (ea : FVec Ideal S1600000x16 .f32) (W : FVec Ideal S144x64 .f32) (b : FVec Ideal S64 .f32)
    (e : Fin 1600000) (f : Fin 64) :
    Cert.Spec.zRef (F := Ideal) xd xs ea W b (ix2 e f) = zR xd xs ea W b e f := by
  unfold Cert.Spec.zRef zR
  rw [addf_apply, dot_cols144_apply, sum_cols144]
  refine congrArg₂ (· + ·) (congrArg₂ (· + ·) (congrArg₂ (· + ·) ?_ ?_) ?_) ?_
  · exact Finset.sum_congr rfl fun k _ => congrArg (· * _) (joined_dst xd xs ea _ e k _ rfl)
  · exact Finset.sum_congr rfl fun k _ => congrArg (· * _) (joined_src xd xs ea _ e k _ rfl)
  · exact Finset.sum_congr rfl fun k _ => congrArg (· * _) (joined_attr xd xs ea _ e k _ rfl)
  · refine (broadcastInDim_apply _ _ _ (ix2 e f) (ix2 (0 : Fin 1) f) (fun a => ?_)).trans
      (broadcastInDim_apply _ _ b (ix2 (0 : Fin 1) f) (ix1 f) (fun a => ?_))
    · match a with
      | ⟨0, _⟩ => show 0 = if (1 : Nat) = 1 then 0 else e.val; rw [if_pos rfl]
      | ⟨1, _⟩ => show f.val = if (64 : Nat) = 1 then 0 else f.val; rw [if_neg (by decide)]
    · match a with
      | ⟨0, _⟩ => show f.val = if (64 : Nat) = 1 then 0 else f.val; rw [if_neg (by decide)]

/-- The reference's message at an entry: the logistic of the first pre-activation times the softplus of the second. -/
theorem msgRef_apply (xd xs : FVec Ideal S1600000x64 .f32) (ea : FVec Ideal S1600000x16 .f32) (Wf : FVec Ideal S144x64 .f32) (bf : FVec Ideal S64 .f32)
    (Ws : FVec Ideal S144x64 .f32) (bs : FVec Ideal S64 .f32) (e : Fin 1600000) (f : Fin 64) :
    Cert.Spec.msgRef (F := Ideal) xd xs ea Wf bf Ws bs (ix2 e f) = gateE (zR xd xs ea Wf bf e f) (zR xd xs ea Ws bs e f) := by
  unfold Cert.Spec.msgRef
  rw [mulf_apply]
  generalize hzf : Cert.Spec.zRef (F := Ideal) xd xs ea Wf bf = zf
  generalize hzs : Cert.Spec.zRef (F := Ideal) xd xs ea Ws bs = zs
  have ef : zf (ix2 e f) = zR xd xs ea Wf bf e f := by rw [← hzf]; exact zRef_apply xd xs ea Wf bf e f
  have es : zs (ix2 e f) = zR xd xs ea Ws bs e f := by rw [← hzs]; exact zRef_apply xd xs ea Ws bs e f
  rw [← ef, ← es]
  unfold Cert.Spec.sigmoidRef Cert.Spec.softplusRef gateE softplusE
  show Ideal.div (Ideal.ofBits .f32 0x3F800000#32) (Ideal.ofBits .f32 0x3F800000#32 + Ideal.exp (-(zf (ix2 e f))))
      * Scalar.select (Ideal.cmp .une (zs (ix2 e f) - Ideal.ofBits .f32 0x00000000#32) (zs (ix2 e f) - Ideal.ofBits .f32 0x00000000#32))
          (zs (ix2 e f) + Ideal.ofBits .f32 0x00000000#32)
          (max (zs (ix2 e f)) (Ideal.ofBits .f32 0x00000000#32)
            + Ideal.log1p (Ideal.exp (-(max (zs (ix2 e f) - Ideal.ofBits .f32 0x00000000#32) (-(zs (ix2 e f) - Ideal.ofBits .f32 0x00000000#32)))))) = _
  rw [one_word, Ideal.ofBits_zero_f32, cmp_une_self, select_zero]
  rfl

/-! ## The weight and bias windows' arrays, read off `W` and `b` -/

theorem slice_rows_first (W : FVec Ideal S144x64 .f32) (h : S144x64.Slices ![0, 0] S64x64) (k : Fin 64) (f : Fin 64) :
    extractStridedSlice S64x64 ![0, 0] W h (ix2 k f) = W (ix2 (⟨k.val, by omega⟩ : Fin 144) f) :=
  slice2_axis0_apply 0 W h k f _ (by show k.val = 0 + k.val; omega)

theorem slice_rows_second (W : FVec Ideal S144x64 .f32) (h : S144x64.Slices ![64, 0] S64x64) (k : Fin 64) (f : Fin 64) :
    extractStridedSlice S64x64 ![64, 0] W h (ix2 k f) = W (ix2 (⟨64 + k.val, by omega⟩ : Fin 144) f) :=
  slice2_axis0_apply 64 W h k f _ rfl

theorem slice_rows_third (W : FVec Ideal S144x64 .f32) (h : S144x64.Slices ![128, 0] S16x64) (k : Fin 16) (f : Fin 64) :
    extractStridedSlice S16x64 ![128, 0] W h (ix2 k f) = W (ix2 (⟨128 + k.val, by omega⟩ : Fin 144) f) :=
  slice2_axis0_apply 128 W h k f _ rfl

theorem bias_row (b : FVec Ideal S64 .f32) (h : S64.ShapeCasts S1x64) (f : Fin 64) :
    shapeCast S1x64 b h (ix2 (0 : Fin 1) f) = b (ix1 f) :=
  shapeCast_a_1a_apply b h 0 f

/-! ## The kernel's pre-activation on the blocks is the reference's on the arrays -/

/-- With the blocks' rows those of the arrays, the weight blocks the three row slices of `W` and the bias block the row of `bb`,
    the kernel's three sums and bias are the reference's. -/
theorem zK_eq_zR (x0 x1 : FVec Ideal S6400x64 .f32) (x2 : FVec Ideal S6400x16 .f32) (w0 w1 : FVec Ideal S64x64 .f32) (w2 : FVec Ideal S16x64 .f32)
    (b : FVec Ideal S1x64 .f32)
    (xd xs : FVec Ideal S1600000x64 .f32) (ea : FVec Ideal S1600000x16 .f32) (W : FVec Ideal S144x64 .f32) (bb : FVec Ideal S64 .f32)
    (r : Fin 6400) (e : Fin 1600000) (f : Fin 64)
    (h0 : ∀ k : Fin 64, x0 (ix2 r k) = xd (ix2 e k)) (h1 : ∀ k : Fin 64, x1 (ix2 r k) = xs (ix2 e k)) (h2 : ∀ k : Fin 16, x2 (ix2 r k) = ea (ix2 e k))
    (g0 : ∀ k : Fin 64, w0 (ix2 k f) = W (ix2 (⟨k.val, by omega⟩ : Fin 144) f))
    (g1 : ∀ k : Fin 64, w1 (ix2 k f) = W (ix2 (⟨64 + k.val, by omega⟩ : Fin 144) f))
    (g2 : ∀ k : Fin 16, w2 (ix2 k f) = W (ix2 (⟨128 + k.val, by omega⟩ : Fin 144) f))
    (gb : b (ix2 (0 : Fin 1) f) = bb (ix1 f)) :
    zK x0 x1 x2 w0 w1 w2 b r f = zR xd xs ea W bb e f := by
  unfold zK zR
  rw [gb]
  simp only [h0, h1, h2, g0, g1, g2]

-- the contents of core c's buffers when the region is entered
variable (V : (c : Dev nD) → (b : Ref sig .tc) → Buf (Elt Ideal) ((c : Thread nD τ).loc b))

/-! ## The blocks, read off the arrays -/

theorem hz : (![0, 0] : Fin 2 → Nat) = fun _ => 0 := funext fun a => by fin_cases a <;> rfl

/-- The printed index maps over the 250 points: the three edge arrays and the output move one block of rows per point,
    the weights and biases stay whole. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = t.val ∧ win0_11.index t (1 : Fin 2) = 0 :=
  (by decide +kernel : ∀ t : Fin grid0.N, _)

theorem point_lt (t : Fin cfg0.N) : t.val < 250 := lt_of_lt_of_eq t.isLt N_0

/-- Row r of window 0's block at point t is row 6400 t + r of its array. -/
theorem block0_apply (c : Dev nD) (t : Fin cfg0.N) (r : Fin 6400) (k : Fin 64) (e : Fin 1600000) (he : e.val = 6400 * t.val + r.val) :
    (iblk0 V c 0 t : FVec Ideal S6400x64 .f32) (ix2 r k) = (V c main_v11 : FVec Ideal S1600000x64 .f32) (ix2 e k) := by
  obtain ⟨a0, b0, a1, b1, a2, b2, a3, b3, a4, b4, a5, b5, a6, b6, a7, b7, a8, b8, a9, b9, a10, b10, a11, b11⟩ := idx_facts t
  show V c main_v11 (((cfg0.win 0).blk t).view.emb (ix2 r k)) = V c main_v11 (ix2 e k)
  refine congrArg _ (funext fun a => Fin.ext ?_)
  match a with
  | ⟨0, _⟩ => show win0_0.index t (0 : Fin 2) * 6400 + 1 * r.val = e.val; omega
  | ⟨1, _⟩ => show win0_0.index t (1 : Fin 2) * 64 + 1 * k.val = k.val; omega

/-- Row r of window 1's block at point t is row 6400 t + r of its array. -/
theorem block1_apply (c : Dev nD) (t : Fin cfg0.N) (r : Fin 6400) (k : Fin 64) (e : Fin 1600000) (he : e.val = 6400 * t.val + r.val) :
    (iblk0 V c 1 t : FVec Ideal S6400x64 .f32) (ix2 r k) = (V c main_v18 : FVec Ideal S1600000x64 .f32) (ix2 e k) := by
  obtain ⟨a0, b0, a1, b1, a2, b2, a3, b3, a4, b4, a5, b5, a6, b6, a7, b7, a8, b8, a9, b9, a10, b10, a11, b11⟩ := idx_facts t
  show V c main_v18 (((cfg0.win 1).blk t).view.emb (ix2 r k)) = V c main_v18 (ix2 e k)
  refine congrArg _ (funext fun a => Fin.ext ?_)
  match a with
  | ⟨0, _⟩ => show win0_1.index t (0 : Fin 2) * 6400 + 1 * r.val = e.val; omega
  | ⟨1, _⟩ => show win0_1.index t (1 : Fin 2) * 64 + 1 * k.val = k.val; omega

/-- Row r of window 2's block at point t is row 6400 t + r of its array. -/
theorem block2_apply (c : Dev nD) (t : Fin cfg0.N) (r : Fin 6400) (k : Fin 16) (e : Fin 1600000) (he : e.val = 6400 * t.val + r.val) :
    (iblk0 V c 2 t : FVec Ideal S6400x16 .f32) (ix2 r k) = (V c main_arg2 : FVec Ideal S1600000x16 .f32) (ix2 e k) := by
  obtain ⟨a0, b0, a1, b1, a2, b2, a3, b3, a4, b4, a5, b5, a6, b6, a7, b7, a8, b8, a9, b9, a10, b10, a11, b11⟩ := idx_facts t
  show V c main_arg2 (((cfg0.win 2).blk t).view.emb (ix2 r k)) = V c main_arg2 (ix2 e k)
  refine congrArg _ (funext fun a => Fin.ext ?_)
  match a with
  | ⟨0, _⟩ => show win0_2.index t (0 : Fin 2) * 6400 + 1 * r.val = e.val; omega
  | ⟨1, _⟩ => show win0_2.index t (1 : Fin 2) * 16 + 1 * k.val = k.val; omega

/-- Window 3's block at any point is its whole array. -/
theorem block3_apply (c : Dev nD) (t : Fin cfg0.N) (r : Fin 64) (k : Fin 64) :
    (iblk0 V c 3 t : FVec Ideal S64x64 .f32) (ix2 r k) = (V c main_v19 : FVec Ideal S64x64 .f32) (ix2 r k) := by
  obtain ⟨a0, b0, a1, b1, a2, b2, a3, b3, a4, b4, a5, b5, a6, b6, a7, b7, a8, b8, a9, b9, a10, b10, a11, b11⟩ := idx_facts t
  show V c main_v19 (((cfg0.win 3).blk t).view.emb (ix2 r k)) = V c main_v19 (ix2 r k)
  refine congrArg _ (funext fun a => Fin.ext ?_)
  match a with
  | ⟨0, _⟩ => show win0_3.index t (0 : Fin 2) * 64 + 1 * r.val = r.val; omega
  | ⟨1, _⟩ => show win0_3.index t (1 : Fin 2) * 64 + 1 * k.val = k.val; omega

/-- Window 4's block at any point is its whole array. -/
theorem block4_apply (c : Dev nD) (t : Fin cfg0.N) (r : Fin 64) (k : Fin 64) :
    (iblk0 V c 4 t : FVec Ideal S64x64 .f32) (ix2 r k) = (V c main_v20 : FVec Ideal S64x64 .f32) (ix2 r k) := by
  obtain ⟨a0, b0, a1, b1, a2, b2, a3, b3, a4, b4, a5, b5, a6, b6, a7, b7, a8, b8, a9, b9, a10, b10, a11, b11⟩ := idx_facts t
  show V c main_v20 (((cfg0.win 4).blk t).view.emb (ix2 r k)) = V c main_v20 (ix2 r k)
  refine congrArg _ (funext fun a => Fin.ext ?_)
  match a with
  | ⟨0, _⟩ => show win0_4.index t (0 : Fin 2) * 64 + 1 * r.val = r.val; omega
  | ⟨1, _⟩ => show win0_4.index t (1 : Fin 2) * 64 + 1 * k.val = k.val; omega

/-- Window 5's block at any point is its whole array. -/
theorem block5_apply (c : Dev nD) (t : Fin cfg0.N) (r : Fin 16) (k : Fin 64) :
    (iblk0 V c 5 t : FVec Ideal S16x64 .f32) (ix2 r k) = (V c main_v21 : FVec Ideal S16x64 .f32) (ix2 r k) := by
  obtain ⟨a0, b0, a1, b1, a2, b2, a3, b3, a4, b4, a5, b5, a6, b6, a7, b7, a8, b8, a9, b9, a10, b10, a11, b11⟩ := idx_facts t
  show V c main_v21 (((cfg0.win 5).blk t).view.emb (ix2 r k)) = V c main_v21 (ix2 r k)
  refine congrArg _ (funext fun a => Fin.ext ?_)
  match a with
  | ⟨0, _⟩ => show win0_5.index t (0 : Fin 2) * 16 + 1 * r.val = r.val; omega
  | ⟨1, _⟩ => show win0_5.index t (1 : Fin 2) * 64 + 1 * k.val = k.val; omega

/-- Window 6's block at any point is its whole array. -/
theorem block6_apply (c : Dev nD) (t : Fin cfg0.N) (r : Fin 64) (k : Fin 64) :
    (iblk0 V c 6 t : FVec Ideal S64x64 .f32) (ix2 r k) = (V c main_v22 : FVec Ideal S64x64 .f32) (ix2 r k) := by
  obtain ⟨a0, b0, a1, b1, a2, b2, a3, b3, a4, b4, a5, b5, a6, b6, a7, b7, a8, b8, a9, b9, a10, b10, a11, b11⟩ := idx_facts t
  show V c main_v22 (((cfg0.win 6).blk t).view.emb (ix2 r k)) = V c main_v22 (ix2 r k)
  refine congrArg _ (funext fun a => Fin.ext ?_)
  match a with
  | ⟨0, _⟩ => show win0_6.index t (0 : Fin 2) * 64 + 1 * r.val = r.val; omega
  | ⟨1, _⟩ => show win0_6.index t (1 : Fin 2) * 64 + 1 * k.val = k.val; omega

/-- Window 7's block at any point is its whole array. -/
theorem block7_apply (c : Dev nD) (t : Fin cfg0.N) (r : Fin 64) (k : Fin 64) :
    (iblk0 V c 7 t : FVec Ideal S64x64 .f32) (ix2 r k) = (V c main_v23 : FVec Ideal S64x64 .f32) (ix2 r k) := by
  obtain ⟨a0, b0, a1, b1, a2, b2, a3, b3, a4, b4, a5, b5, a6, b6, a7, b7, a8, b8, a9, b9, a10, b10, a11, b11⟩ := idx_facts t
  show V c main_v23 (((cfg0.win 7).blk t).view.emb (ix2 r k)) = V c main_v23 (ix2 r k)
  refine congrArg _ (funext fun a => Fin.ext ?_)
  match a with
  | ⟨0, _⟩ => show win0_7.index t (0 : Fin 2) * 64 + 1 * r.val = r.val; omega
  | ⟨1, _⟩ => show win0_7.index t (1 : Fin 2) * 64 + 1 * k.val = k.val; omega

/-- Window 8's block at any point is its whole array. -/
theorem block8_apply (c : Dev nD) (t : Fin cfg0.N) (r : Fin 16) (k : Fin 64) :
    (iblk0 V c 8 t : FVec Ideal S16x64 .f32) (ix2 r k) = (V c main_v24 : FVec Ideal S16x64 .f32) (ix2 r k) := by
  obtain ⟨a0, b0, a1, b1, a2, b2, a3, b3, a4, b4, a5, b5, a6, b6, a7, b7, a8, b8, a9, b9, a10, b10, a11, b11⟩ := idx_facts t
  show V c main_v24 (((cfg0.win 8).blk t).view.emb (ix2 r k)) = V c main_v24 (ix2 r k)
  refine congrArg _ (funext fun a => Fin.ext ?_)
  match a with
  | ⟨0, _⟩ => show win0_8.index t (0 : Fin 2) * 16 + 1 * r.val = r.val; omega
  | ⟨1, _⟩ => show win0_8.index t (1 : Fin 2) * 64 + 1 * k.val = k.val; omega

/-- Window 9's block at any point is its whole array. -/
theorem block9_apply (c : Dev nD) (t : Fin cfg0.N) (r : Fin 1) (k : Fin 64) :
    (iblk0 V c 9 t : FVec Ideal S1x64 .f32) (ix2 r k) = (V c main_v25 : FVec Ideal S1x64 .f32) (ix2 r k) := by
  obtain ⟨a0, b0, a1, b1, a2, b2, a3, b3, a4, b4, a5, b5, a6, b6, a7, b7, a8, b8, a9, b9, a10, b10, a11, b11⟩ := idx_facts t
  show V c main_v25 (((cfg0.win 9).blk t).view.emb (ix2 r k)) = V c main_v25 (ix2 r k)
  refine congrArg _ (funext fun a => Fin.ext ?_)
  match a with
  | ⟨0, _⟩ => show win0_9.index t (0 : Fin 2) * 1 + 1 * r.val = r.val; omega
  | ⟨1, _⟩ => show win0_9.index t (1 : Fin 2) * 64 + 1 * k.val = k.val; omega

/-- Window 10's block at any point is its whole array. -/
theorem block10_apply (c : Dev nD) (t : Fin cfg0.N) (r : Fin 1) (k : Fin 64) :
    (iblk0 V c 10 t : FVec Ideal S1x64 .f32) (ix2 r k) = (V c main_v26 : FVec Ideal S1x64 .f32) (ix2 r k) := by
  obtain ⟨a0, b0, a1, b1, a2, b2, a3, b3, a4, b4, a5, b5, a6, b6, a7, b7, a8, b8, a9, b9, a10, b10, a11, b11⟩ := idx_facts t
  show V c main_v26 (((cfg0.win 10).blk t).view.emb (ix2 r k)) = V c main_v26 (ix2 r k)
  refine congrArg _ (funext fun a => Fin.ext ?_)
  match a with
  | ⟨0, _⟩ => show win0_10.index t (0 : Fin 2) * 1 + 1 * r.val = r.val; omega
  | ⟨1, _⟩ => show win0_10.index t (1 : Fin 2) * 64 + 1 * k.val = k.val; omega

/-! ## What a point writes back, the cover, and the array after the last point -/

section Region
variable (c : Dev nD) (Wf Ws : FVec Ideal S144x64 .f32) (bf bs : FVec Ideal S64 .f32)

/-- Point t writes back block t of the reference's messages. -/
theorem flushed_eq
    (h19 : V c main_v19 = extractStridedSlice S64x64 ![0, 0] Wf slices_S144x64_S64x64_0_0)
    (h20 : V c main_v20 = extractStridedSlice S64x64 ![64, 0] Wf slices_S144x64_S64x64_64_0)
    (h21 : V c main_v21 = extractStridedSlice S16x64 ![128, 0] Wf slices_S144x64_S16x64_128_0)
    (h22 : V c main_v22 = extractStridedSlice S64x64 ![0, 0] Ws slices_S144x64_S64x64_0_0)
    (h23 : V c main_v23 = extractStridedSlice S64x64 ![64, 0] Ws slices_S144x64_S64x64_64_0)
    (h24 : V c main_v24 = extractStridedSlice S16x64 ![128, 0] Ws slices_S144x64_S16x64_128_0)
    (h25 : V c main_v25 = shapeCast _ bf shapeCasts_S64_S1x64)
    (h26 : V c main_v26 = shapeCast _ bs shapeCasts_S64_S1x64) (t : Fin cfg0.N) :
    (dat0 V c).flushed 11 t
      = ((cfg0.win 11).blk t).view.read (Elt Ideal) (Cert.Spec.msgRef (V c main_v11) (V c main_v18) (V c main_arg2) Wf bf Ws bs) := by
  show (cfg0.win 11).cut (grid0.coords t) ((dat0 V c).after 11 t) = _
  rw [after0_11]
  unfold out0_11
  rw [View.canon_unit_zero hz]
  simp only [View.ld_unit_zero (S := S6400x64) hz, View.ld_unit_zero (S := S6400x16) hz, View.ld_unit_zero (S := S64x64) hz,
    View.ld_unit_zero (S := S16x64) hz, View.ld_unit_zero (S := S1x64) hz]
  funext j
  obtain ⟨r, f, rfl⟩ : ∃ (r : Fin 6400) (f : Fin 64), j = ix2 r f := ⟨j 0, j 1, eq_ix2 j⟩
  obtain ⟨a0, b0, a1, b1, a2, b2, a3, b3, a4, b4, a5, b5, a6, b6, a7, b7, a8, b8, a9, b9, a10, b10, a11, b11⟩ := idx_facts t
  have hr : r.val < 6400 := r.isLt
  have ht : t.val < 250 := point_lt t
  have he : 6400 * t.val + r.val < 1600000 := by omega
  have hemb : ((cfg0.win 11).blk t).view.emb (ix2 r f) = (ix2 (⟨6400 * t.val + r.val, he⟩ : Fin 1600000) f : S1600000x64.Idx) :=
    funext fun a => Fin.ext (by
      match a with
      | ⟨0, _⟩ => show win0_11.index t (0 : Fin 2) * 6400 + 1 * r.val = 6400 * t.val + r.val; omega
      | ⟨1, _⟩ => show win0_11.index t (1 : Fin 2) * 64 + 1 * f.val = f.val; omega)
  show k0_pay1 (F := Ideal) (k0_pay2 (iblk0 V c 0 t)) (k0_pay3 (iblk0 V c 1 t)) (k0_pay4 (iblk0 V c 2 t)) (k0_pay5 (iblk0 V c 6 t))
        (k0_pay6 (iblk0 V c 7 t)) (k0_pay7 (iblk0 V c 8 t))
        (k0_pay8 (iblk0 V c 0 t) (iblk0 V c 1 t) (iblk0 V c 2 t) (iblk0 V c 3 t) (iblk0 V c 4 t) (iblk0 V c 5 t) (iblk0 V c 9 t))
        (constant S6400x64 .f32 0x00000000#32) (iblk0 V c 10 t) (ix2 r f)
      = Cert.Spec.msgRef (F := Ideal) (V c main_v11) (V c main_v18) (V c main_arg2) Wf bf Ws bs (((cfg0.win 11).blk t).view.emb (ix2 r f))
  rw [hemb]
  refine (payload_apply (iblk0 V c 0 t) (iblk0 V c 1 t) (iblk0 V c 2 t) (iblk0 V c 3 t) (iblk0 V c 4 t) (iblk0 V c 5 t) (iblk0 V c 6 t)
    (iblk0 V c 7 t) (iblk0 V c 8 t) (iblk0 V c 9 t) (iblk0 V c 10 t) r f).trans ?_
  refine Eq.trans ?_ (msgRef_apply (V c main_v11) (V c main_v18) (V c main_arg2) Wf bf Ws bs ⟨6400 * t.val + r.val, he⟩ f).symm
  refine congrArg₂ gateE ?_ ?_
  · refine zK_eq_zR (iblk0 V c 0 t) (iblk0 V c 1 t) (iblk0 V c 2 t) (iblk0 V c 3 t) (iblk0 V c 4 t) (iblk0 V c 5 t) (iblk0 V c 9 t)
      (V c main_v11) (V c main_v18) (V c main_arg2) Wf bf r ⟨6400 * t.val + r.val, he⟩ f
      (fun k => block0_apply V c t r k _ rfl) (fun k => block1_apply V c t r k _ rfl) (fun k => block2_apply V c t r k _ rfl)
      (fun k => ?_) (fun k => ?_) (fun k => ?_) ?_
    · rw [block3_apply V c t k f, h19]; exact slice_rows_first Wf _ k f
    · rw [block4_apply V c t k f, h20]; exact slice_rows_second Wf _ k f
    · rw [block5_apply V c t k f, h21]; exact slice_rows_third Wf _ k f
    · rw [block9_apply V c t 0 f, h25]; exact bias_row bf _ f
  · refine zK_eq_zR (iblk0 V c 0 t) (iblk0 V c 1 t) (iblk0 V c 2 t) (iblk0 V c 6 t) (iblk0 V c 7 t) (iblk0 V c 8 t) (iblk0 V c 10 t)
      (V c main_v11) (V c main_v18) (V c main_arg2) Ws bs r ⟨6400 * t.val + r.val, he⟩ f
      (fun k => block0_apply V c t r k _ rfl) (fun k => block1_apply V c t r k _ rfl) (fun k => block2_apply V c t r k _ rfl)
      (fun k => ?_) (fun k => ?_) (fun k => ?_) ?_
    · rw [block6_apply V c t k f, h22]; exact slice_rows_first Ws _ k f
    · rw [block7_apply V c t k f, h23]; exact slice_rows_second Ws _ k f
    · rw [block8_apply V c t k f, h24]; exact slice_rows_third Ws _ k f
    · rw [block10_apply V c t 0 f, h26]; exact bias_row bs _ f

/-- An index of the output array is in point t's block iff its row is among the block's 6400 rows. -/
theorem mem_block_out (t : Fin cfg0.N) (i : S1600000x64.Idx) :
    i ∈ ((cfg0.win 11).blk t).view.set ↔ ∀ a : Fin 2, win0_11.index t a * S6400x64.size a ≤ (i a).val ∧ (i a).val < win0_11.index t a * S6400x64.size a + S6400x64.size a := by
  show i ∈ ((View.whole main_v27).slice (win0_11.rect t)).set ↔ _
  rw [View.set_slice_whole, Rect.mem_set_unit]
  exact Iff.rfl

/-- Every edge's row is in some point's block: row e in that of point e / 6400. -/
theorem cover_out (i : S1600000x64.Idx) : ∃ t : Fin cfg0.N, (cfg0.win 11).flush t = true ∧ i ∈ ((cfg0.win 11).blk t).view.set := by
  have hi0 : (i 0).val < 1600000 := (i 0).isLt
  have hi1 : (i 1).val < 64 := (i 1).isLt
  have hN : (i 0).val / 6400 < cfg0.N := by rw [show cfg0.N = 250 from N_0]; omega
  refine ⟨⟨(i 0).val / 6400, hN⟩, flush0_11 _, ?_⟩
  obtain ⟨a0, b0, a1, b1, a2, b2, a3, b3, a4, b4, a5, b5, a6, b6, a7, b7, a8, b8, a9, b9, a10, b10, a11, b11⟩ := idx_facts ⟨(i 0).val / 6400, hN⟩
  rw [mem_block_out]
  intro a
  match a with
  | ⟨0, _⟩ =>
    show win0_11.index ⟨(i 0).val / 6400, hN⟩ (0 : Fin 2) * 6400 ≤ (i 0).val ∧ (i 0).val < win0_11.index ⟨(i 0).val / 6400, hN⟩ (0 : Fin 2) * 6400 + 6400
    rw [a11]
    show (i 0).val / 6400 * 6400 ≤ (i 0).val ∧ (i 0).val < (i 0).val / 6400 * 6400 + 6400
    omega
  | ⟨1, _⟩ =>
    show win0_11.index ⟨(i 0).val / 6400, hN⟩ (1 : Fin 2) * 64 ≤ (i 1).val ∧ (i 1).val < win0_11.index ⟨(i 0).val / 6400, hN⟩ (1 : Fin 2) * 64 + 64
    rw [b11]
    omega

end Region

/-- The output array of region 0 after its last point is the reference's message array of the region's inputs, when
    the six weight windows hold the row slices of `Wf` and `Ws` and the two bias windows the reshaped `bf`, `bs`. -/
theorem msg_value (c : Dev nD) (Wf Ws : FVec Ideal S144x64 .f32) (bf bs : FVec Ideal S64 .f32)
    (h19 : V c main_v19 = extractStridedSlice S64x64 ![0, 0] Wf slices_S144x64_S64x64_0_0)
    (h20 : V c main_v20 = extractStridedSlice S64x64 ![64, 0] Wf slices_S144x64_S64x64_64_0)
    (h21 : V c main_v21 = extractStridedSlice S16x64 ![128, 0] Wf slices_S144x64_S16x64_128_0)
    (h22 : V c main_v22 = extractStridedSlice S64x64 ![0, 0] Ws slices_S144x64_S64x64_0_0)
    (h23 : V c main_v23 = extractStridedSlice S64x64 ![64, 0] Ws slices_S144x64_S64x64_64_0)
    (h24 : V c main_v24 = extractStridedSlice S16x64 ![128, 0] Ws slices_S144x64_S16x64_128_0)
    (h25 : V c main_v25 = shapeCast _ bf shapeCasts_S64_S1x64)
    (h26 : V c main_v26 = shapeCast _ bs shapeCasts_S64_S1x64) :
    (dat0 V c).arrAt 11 cfg0.N = Cert.Spec.msgRef (V c main_v11) (V c main_v18) (V c main_arg2) Wf bf Ws bs := by
  have hG : ∀ t, (cfg0.win 11).flush t = true → (dat0 V c).flushed 11 t
      = ((cfg0.win 11).blk t).view.read (Elt Ideal) (Cert.Spec.msgRef (F := Ideal) (V c main_v11) (V c main_v18) (V c main_arg2) Wf bf Ws bs) :=
    fun t _ => flushed_eq V c Wf Ws bf bs h19 h20 h21 h22 h23 h24 h25 h26 t
  exact Dat.arrAt_eq_of_cover (dat0 V c) 11 _ hG cover_out

end Cert.KernelIdeal.HandValue

end
-- ==== Proof.ScatterRead.lean ====
/-
  The reference's two per-graph sums, read at one index.

  The reference pools with two accumulating scatters over the graph ids: the rows of the node features
  (after the node update) are added into row batch[i] of a 64 x 64 array of zeros, and a one per node into entry
  batch[i] of 64 zeros. Each update lands at the row its graph id names, read as a signed word; an id that is
  negative or at least 64 lands nowhere. So entry (g, f) of the first is the sum of U[i, f] over the nodes i whose
  id is the word g, and entry g of the second is the number of those nodes.
-/
import proofs.«411481_j80324478369805_2_alg».proof.ReferenceIdeal
import proofs.«411481_j80324478369805_2_alg».proof.Proof.Gen.ReferenceIdeal
import Idealize.ShloMosaic.PureOps.Ideal
import Idealize.ShloMosaic.PureOps.Ideal.Laws
import Idealize.ShloMosaic.PureOps.IdealRules
import Idealize.ShloMosaic.Lib.ValueIdx
import Idealize.ShloMosaic.Lib.Pipeline.Value

noncomputable section

open scoped BigOperators

namespace Cert.ScatterRead

open Cert.ReferenceIdeal Cert.ReferenceIdeal.Gen Idealize.ShloMosaic Idealize.ShloMosaic.ValueIdx

/-- Where an update lands: at the operand index whose every coordinate is the signed start plus the window coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hc
      intro a
      have ha := congrArg Fin.val (congrFun (Option.some.inj h) a)
      simp only at ha
      have := hc a
      omega
    · exact absurd h (by simp)
  · intro h
    have hc : ∀ a, 0 ≤ d.start j idx a + d.window j a ∧ d.start j idx a + d.window j a < s.size a := by
      intro a; have := h a; have := (i a).isLt; omega
    rw [dif_pos hc]
    congr 1
    funext a; apply Fin.ext
    show (d.start j idx a + d.window j a).toNat = (i a).val
    have := h a; omega

/-- The graph ids as a column: row k holds node k's id. -/
theorem idsCol_apply (batch : IVec S100000 32) (k : S100000x1.Idx) :
    broadcastInDim S100000x1 ![0] bcast_S100000_S100000x1_0 batch k = batch (ix1 (k 0)) := by
  refine broadcastInDim_apply _ _ _ _ _ (fun a => ?_)
  match a with
  | ⟨0, h0⟩ =>
    have hne : ¬ S100000.size ⟨0, h0⟩ = 1 := by show ¬ (100000 : ℕ) = 1; decide
    rw [if_neg hne]; rfl

/-- For the row scatter: on the row axis an update starts at its node's id read signed; on the column axis at 0;
    its window coordinate is 0 on the row axis (the axis is inserted) and its own column on the column axis. -/
theorem startA0 (batch : IVec S100000 32) (j : S100000x64.Idx) :
    scatter_S64x64_S100000x1_S100000x64_1_0_0_1.start j (broadcastInDim S100000x1 ![0] bcast_S100000_S100000x1_0 batch) 0 = (batch (ix1 (j 0))).toInt := by
  unfold ScatterDims.start
  rw [dif_pos (by decide), idsCol_apply]
  rfl

theorem startA1 (batch : IVec S100000 32) (j : S100000x64.Idx) :
    scatter_S64x64_S100000x1_S100000x64_1_0_0_1.start j (broadcastInDim S100000x1 ![0] bcast_S100000_S100000x1_0 batch) 1 = 0 := by
  unfold ScatterDims.start
  rw [dif_neg (by decide)]

theorem windowA0 (j : S100000x64.Idx) : scatter_S64x64_S100000x1_S100000x64_1_0_0_1.window j 0 = 0 := by
  unfold ScatterDims.window
  rw [dif_neg (by decide)]

theorem windowA1 (j : S100000x64.Idx) : scatter_S64x64_S100000x1_S100000x64_1_0_0_1.window j 1 = (j 1).val := by
  unfold ScatterDims.window
  rw [dif_pos (by decide)]
  rfl

/-- For the count scatter: the one axis is inserted, so an update starts at its node's id read signed, window coordinate 0. -/
theorem startB0 (batch : IVec S100000 32) (j : S100000.Idx) :
    scatter_S64_S100000x1_S100000_n_0_0_1.start j (broadcastInDim S100000x1 ![0] bcast_S100000_S100000x1_0 batch) 0 = (batch (ix1 (j 0))).toInt := by
  unfold ScatterDims.start
  rw [dif_pos (by decide), idsCol_apply]
  rfl

theorem windowB0 (j : S100000.Idx) : scatter_S64_S100000x1_S100000_n_0_0_1.window j 0 = 0 := by
  unfold ScatterDims.window
  rw [dif_neg (by decide)]

/-- The 32-bit word of a number below 64 has that number as its signed value. -/
theorem toInt_ofNat_small : ∀ g : Fin 64, (BitVec.ofNat 32 g.val).toInt = (g.val : Int) := by decide

/-- A 32-bit word whose signed value is a number below 64 is that number's word. -/
theorem toInt_eq_iff (w : BitVec 32) (g : Fin 64) : w.toInt = (g.val : Int) ↔ w = BitVec.ofNat 32 g.val := by
  constructor
  · intro h; exact BitVec.eq_of_toInt_eq (h.trans (toInt_ofNat_small g).symm)
  · rintro rfl; exact toInt_ofNat_small g

/-- A row update lands at (g, f) exactly when its node's id is the word g and its column is f. -/
theorem lands_rows (batch : IVec S100000 32) (j : S100000x64.Idx) (g f : Fin 64) :
    scatter_S64x64_S100000x1_S100000x64_1_0_0_1.resultIdx? j (broadcastInDim S100000x1 ![0] bcast_S100000_S100000x1_0 batch) = some (ix2 g f)
      ↔ batch (ix1 (j 0)) = BitVec.ofNat 32 g.val ∧ j 1 = f := by
  rw [resultIdx?_eq_some_iff, ← toInt_eq_iff]
  constructor
  · intro h
    have h0 := h 0
    have h1 := h 1
    rw [startA0, windowA0] at h0
    rw [startA1, windowA1] at h1
    have e0 : ((ix2 g f : S64x64.Idx) 0).val = g.val := rfl
    have e1 : ((ix2 g f : S64x64.Idx) 1).val = f.val := rfl
    exact ⟨by omega, Fin.ext (by omega)⟩
  · rintro ⟨h0, rfl⟩ a
    match a with
    | ⟨0, _⟩ =>
      show scatter_S64x64_S100000x1_S100000x64_1_0_0_1.start j _ 0 + (scatter_S64x64_S100000x1_S100000x64_1_0_0_1.window j 0 : Int) = (g.val : Int)
      rw [startA0, windowA0]; omega
    | ⟨1, _⟩ =>
      show scatter_S64x64_S100000x1_S100000x64_1_0_0_1.start j _ 1 + (scatter_S64x64_S100000x1_S100000x64_1_0_0_1.window j 1 : Int) = ((j 1).val : Int)
      rw [startA1, windowA1]; omega

/-- A count update lands at g exactly when its node's id is the word g. -/
theorem lands_ones (batch : IVec S100000 32) (j : S100000.Idx) (g : Fin 64) :
    scatter_S64_S100000x1_S100000_n_0_0_1.resultIdx? j (broadcastInDim S100000x1 ![0] bcast_S100000_S100000x1_0 batch) = some (ix1 g)
      ↔ batch (ix1 (j 0)) = BitVec.ofNat 32 g.val := by
  rw [resultIdx?_eq_some_iff, ← toInt_eq_iff]
  constructor
  · intro h
    have h0 := h 0
    rw [startB0, windowB0] at h0
    have e0 : ((ix1 g : S64.Idx) 0).val = g.val := rfl
    omega
  · intro h0 a
    match a with
    | ⟨0, _⟩ =>
      show scatter_S64_S100000x1_S100000_n_0_0_1.start j _ 0 + (scatter_S64_S100000x1_S100000_n_0_0_1.window j 0 : Int) = (g.val : Int)
      rw [startB0, windowB0]; omega

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Entry (g, f) of the per-graph feature sums: the sum of column f of U over the nodes whose graph id is g. -/
theorem scatter_rows_apply (batch : IVec S100000 32) (U : FVec Ideal S100000x64 .f32) (g f : Fin 64) :
    Host.scatterAdd scatter_S64x64_S100000x1_S100000x64_1_0_0_1 (broadcastInDim S64x64 ![] bcast_S_S64x64 (constant S_ .f32 0x00000000#32)) (broadcastInDim S100000x1 ![0] bcast_S100000_S100000x1_0 batch) U (ix2 g f)
      = ∑ i : Fin 100000, if batch (ix1 i) = BitVec.ofNat 32 g.val then U (ix2 i f) else 0 := by
  show Ideal.hostScatterAdd _ _ _ _ _ = _
  unfold Ideal.hostScatterAdd
  rw [show (broadcastInDim S64x64 ![] bcast_S_S64x64 (constant (F := Ideal) S_ .f32 0x00000000#32)) (ix2 g f) = 0 from Ideal.ofBits_zero_f32, zero_add]
  rw [Finset.sum_filter, sum_idx2]
  refine Finset.sum_congr rfl (fun i _ => ?_)
  by_cases h : batch (ix1 i) = BitVec.ofNat 32 g.val
  · rw [if_pos h, Finset.sum_eq_single f]
    · exact if_pos ((lands_rows batch (ix2 i f) g f).mpr ⟨h, rfl⟩)
    · intro b _ hb
      exact if_neg (fun hc => hb ((lands_rows batch (ix2 i b) g f).mp hc).2)
    · intro hf; exact absurd (Finset.mem_univ f) hf
  · rw [if_neg h]
    exact Finset.sum_eq_zero (fun b _ => if_neg (fun hc => h ((lands_rows batch (ix2 i b) g f).mp hc).1))

/-- Entry g of the per-graph node counts: one for every node whose graph id is g. -/
theorem scatter_ones_apply (batch : IVec S100000 32) (g : Fin 64) :
    Host.scatterAdd (F := Ideal) scatter_S64_S100000x1_S100000_n_0_0_1 (broadcastInDim S64 ![] bcast_S_S64 (constant S_ .f32 0x00000000#32)) (broadcastInDim S100000x1 ![0] bcast_S100000_S100000x1_0 batch) (broadcastInDim S100000 ![] bcast_S_S100000 (constant S_ .f32 0x3F800000#32)) (ix1 g)
      = ∑ i : Fin 100000, if batch (ix1 i) = BitVec.ofNat 32 g.val then (1 : EReal) else 0 := by
  show Ideal.hostScatterAdd _ _ _ _ _ = _
  unfold Ideal.hostScatterAdd
  rw [show (broadcastInDim S64 ![] bcast_S_S64 (constant (F := Ideal) S_ .f32 0x00000000#32)) (ix1 g) = 0 from Ideal.ofBits_zero_f32, zero_add]
  rw [Finset.sum_filter, sum_idx1]
  refine Finset.sum_congr rfl (fun i _ => ?_)
  by_cases h : batch (ix1 i) = BitVec.ofNat 32 g.val
  · rw [if_pos h, if_pos ((lands_ones batch (ix1 i) g).mpr h)]
    exact IdealRules.sign_bit.ideal_onePat .f32
  · rw [if_neg h, if_neg (fun hc => h ((lands_ones batch (ix1 i) g).mp hc))]

end Cert.ScatterRead

end
-- ==== Proof.KI.Value1.lean ====
/-
  What region 1 leaves in its output array, over the extended reals: the reference's pooled classifier.

  After point n the first scratch buffer holds, at (g, f), the sum over the nodes i < 10000 (n+1) with graph id g of
  relu(x + agg)[i, f], and the second, at (g, 0), the number of such nodes: a product with the one-hot matrix
  picks exactly those rows (0 · h = 0 on the extended reals, whatever h), and the ten blocks' sums add up to the
  sum over all 100,000 nodes, which is what the reference's scatter-add of the rows into their graphs computes
  (an id outside [0, 64) matches no column of the one-hot matrix and is dropped by the scatter). The last point
  divides by max(count, 1), multiplies by lin_w and adds lin_b, as the reference does; the output block is the whole
  64 x 10 array and is written back at that point only.
-/
import proofs.«411481_j80324478369805_2_alg».proof.Proof.KI.Body1
import proofs.«411481_j80324478369805_2_alg».proof.Proof.Gen.ReferenceIdeal
import proofs.«411481_j80324478369805_2_alg».proof.Proof.Spec
import proofs.«411481_j80324478369805_2_alg».proof.Proof.ScatterRead
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

-- the contents of core c's buffers when the region is entered
variable (V : (c : Dev nD) → (b : Ref sig .tc) → Buf (Elt Ideal) ((c : Thread nD τ).loc b))

/-! ### The output array after the run is what the last point left in the output block -/

/-- The one point that writes the output block back is the last; the block is the whole 64 x 10 array at offset
    (0, 0), so what that point writes back, read as the array's contents, is what the body left there. -/
theorem poolOut_flushed (c : Dev nD) (G : Vec Ideal S64x10 .f32) (hG : (dat1 V c).after 5 t1_9 = G) (t : Fin cfg1.N) (hf : (cfg1.win 5).flush t = true) :
    (dat1 V c).flushed 5 t = ((cfg1.win 5).blk t).view.read (Elt Ideal) G := by
  have hN : cfg1.N = 10 := N_1
  have h9 : t.val = 9 := by have := (flush1_5 t).mp hf; have := t.isLt; omega
  obtain rfl : t = t1_9 := Fin.ext h9
  show (cfg1.win 5).cut (grid1.coords t1_9) ((dat1 V c).after 5 t1_9) = _
  rw [hG]
  have hz' : (fun a => win1_5.index t1_9 a * main_v32.ty.shape.size a) = fun _ => 0 := funext fun a => by fin_cases a <;> decide
  exact (Memref.read_access_unit_zero (Elt Ideal) main_v32 hz' (fun a => by rw [congrFun hz' a]; simp) G).symm

/-- So the output array after the run holds what the last point left in the output block. -/
theorem poolOut_array (c : Dev nD) (G : Vec Ideal S64x10 .f32) (hG : (dat1 V c).after 5 t1_9 = G) : (dat1 V c).arrAt 5 cfg1.N = G :=
  (dat1 V c).arrAt_eq_of_cover 5 G (poolOut_flushed V c G hG) fun i =>
    ⟨t1_9, (flush1_5 t1_9).mpr rfl, by
      show i ∈ ((View.whole main_v32).slice (win1_5.rect t1_9)).set
      rw [View.set_slice_whole, Rect.mem_set_unit]
      intro a
      have h0 : (i 0 : Nat) < 64 := (i 0).isLt
      have h1 : (i 1 : Nat) < 10 := (i 1).isLt
      match a with
      | ⟨0, _⟩ => show win1_5.index t1_9 0 * win1_5.size 0 ≤ (i 0 : Nat) ∧ (i 0 : Nat) < win1_5.index t1_9 0 * win1_5.size 0 + win1_5.xsize (grid1.coords t1_9) 0
                  rw [show win1_5.index t1_9 0 * win1_5.size 0 = 0 from by decide +kernel, show win1_5.xsize (grid1.coords t1_9) 0 = 64 from by decide +kernel]; omega
      | ⟨1, _⟩ => show win1_5.index t1_9 1 * win1_5.size 1 ≤ (i 1 : Nat) ∧ (i 1 : Nat) < win1_5.index t1_9 1 * win1_5.size 1 + win1_5.xsize (grid1.coords t1_9) 1
                  rw [show win1_5.index t1_9 1 * win1_5.size 1 = 0 from by decide +kernel, show win1_5.xsize (grid1.coords t1_9) 1 = 10 from by decide +kernel]; omega⟩

/-! ### The one-hot matrix of a block of graph ids -/

/-- The word test behind the one-hot matrix: "equal" widened to 32 bits and read as a signed integer is 1 or 0. -/
theorem eqWord_toReal (a b : BitVec 32) :
    (FloatOps.sitofp (F := Ideal) .f32 ((IntOp.cmpi .eq a b).setWidth 32) : EReal) = if a = b then 1 else 0 := by
  show (((((IntOp.cmpi .eq a b).setWidth 32).toInt : ℝ)) : EReal) = _
  unfold IntOp.cmpi
  by_cases h : a = b
  · subst h; simp
  · rw [if_neg h]
    have : (a == b) = false := by simpa using h
    rw [this]; simp

/-- The one-hot matrix of a block of graph ids: row r has a 1 in column g exactly when the id of row r is the word g. -/
theorem onehot_apply (ids : Vec Ideal S10000x1 .i32) (r : Fin 10000) (g : Fin 64) :
    k1_pay4 (F := Ideal) ids (ix2 r g) = if ids (ix2 r (0 : Fin 1)) = BitVec.ofNat 32 g.val then 1 else 0 := by
  unfold k1_pay4
  dsimp only
  rw [truncf_apply, sitofp_apply, extui_apply]
  show FloatOps.sitofp (F := Ideal) .f32 ((IntOp.cmpi .eq _ _).setWidth 32) = _
  rw [eqWord_toReal, shapeCast_self, iota_single_apply,
    broadcastTo_apply ids broadcasts_S10000x1_S10000x64 (ix2 r g) (ix2 r (0 : Fin 1)) (fun a => match a with
      | ⟨0, _⟩ => by show r.val = if (10000 : Nat) = 1 then 0 else r.val; rw [if_neg (by decide)]
      | ⟨1, _⟩ => by show 0 = if (1 : Nat) = 1 then 0 else g.val; rw [if_pos rfl])]

/-! ### The two accumulating products: both contract the row axis of the block -/

theorem lhs_featDot_0 (i : S64x64.Idx) (q : dot_S10000x64_S10000x64_S64x64_0_0_1_1_n_n.contr.Idx) :
    (dot_S10000x64_S10000x64_S64x64_0_0_1_1_n_n.lhsIdx i q 0).val = (q ⟨0, by decide⟩).val :=
  dot_S10000x64_S10000x64_S64x64_0_0_1_1_n_n.lhsIdx_val_of_single rfl i q
theorem lhs_featDot_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_featDot_0 (i : S64x64.Idx) (q : dot_S10000x64_S10000x64_S64x64_0_0_1_1_n_n.contr.Idx) :
    (dot_S10000x64_S10000x64_S64x64_0_0_1_1_n_n.rhsIdx i q 0).val = (q ⟨0, by decide⟩).val :=
  dot_S10000x64_S10000x64_S64x64_0_0_1_1_n_n.rhsIdx_val_of_single rfl i q
theorem rhs_featDot_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

/-- The feature product into zeros, at (g, f): the sum over the block's rows r of L[r, g] · R[r, f]. -/
theorem featDot_apply (L R : FVec Ideal S10000x64 .bf16) (g f : Fin 64) :
    matmul dot_S10000x64_S10000x64_S64x64_0_0_1_1_n_n none L R (constant S64x64 .f32 0x00000000#32) (ix2 g f)
      = ∑ r : Fin 10000, L (ix2 r g) * R (ix2 r f) := by
  simp only [matmul]
  rw [Ideal.matmul_constant_zero_apply, ← Equiv.sum_comp (contrEquiv1 dot_S10000x64_S10000x64_S64x64_0_0_1_1_n_n 10000 rfl rfl).symm]
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g f) ((contrEquiv1 dot_S10000x64_S10000x64_S64x64_0_0_1_1_n_n 10000 rfl rfl).symm k) = ix2 k g := funext fun a => Fin.ext (by
    match a with
    | ⟨0, _⟩ => exact (lhs_featDot_0 _ _).trans hk
    | ⟨1, _⟩ => exact lhs_featDot_1 _ _)
  have er : dot_S10000x64_S10000x64_S64x64_0_0_1_1_n_n.rhsIdx (ix2 g f) ((contrEquiv1 dot_S10000x64_S10000x64_S64x64_0_0_1_1_n_n 10000 rfl rfl).symm k) = ix2 k f := funext fun a => Fin.ext (by
    match a with
    | ⟨0, _⟩ => exact (rhs_featDot_0 _ _).trans hk
    | ⟨1, _⟩ => exact rhs_featDot_1 _ _)
  rw [el, er]

theorem lhs_cntDot_0 (i : S64x1.Idx) (q : dot_S10000x64_S10000x1_S64x1_0_0_1_1_n_n.contr.Idx) :
    (dot_S10000x64_S10000x1_S64x1_0_0_1_1_n_n.lhsIdx i q 0).val = (q ⟨0, by decide⟩).val :=
  dot_S10000x64_S10000x1_S64x1_0_0_1_1_n_n.lhsIdx_val_of_single rfl i q
theorem lhs_cntDot_1 (i : S64x1.Idx) (q : dot_S10000x64_S10000x1_S64x1_0_0_1_1_n_n.contr.Idx) :
    (dot_S10000x64_S10000x1_S64x1_0_0_1_1_n_n.lhsIdx i q 1).val = (i 0).val := by
  unfold DotDims.lhsIdx
  rw [dif_neg (show ¬(1 : Fin S10000x64.rank) ∈ dot_S10000x64_S10000x1_S64x1_0_0_1_1_n_n.lhsBatch by decide), dif_pos (show (1 : Fin S10000x64.rank) ∈ dot_S10000x64_S10000x1_S64x1_0_0_1_1_n_n.lhsNonContracting by decide)]
  rfl
theorem rhs_cntDot_0 (i : S64x1.Idx) (q : dot_S10000x64_S10000x1_S64x1_0_0_1_1_n_n.contr.Idx) :
    (dot_S10000x64_S10000x1_S64x1_0_0_1_1_n_n.rhsIdx i q 0).val = (q ⟨0, by decide⟩).val :=
  dot_S10000x64_S10000x1_S64x1_0_0_1_1_n_n.rhsIdx_val_of_single rfl i q
theorem rhs_cntDot_1 (i : S64x1.Idx) (q : dot_S10000x64_S10000x1_S64x1_0_0_1_1_n_n.contr.Idx) :
    (dot_S10000x64_S10000x1_S64x1_0_0_1_1_n_n.rhsIdx i q 1).val = (i 1).val := by
  unfold DotDims.rhsIdx
  rw [dif_neg (show ¬(1 : Fin S10000x1.rank) ∈ dot_S10000x64_S10000x1_S64x1_0_0_1_1_n_n.rhsBatch by decide), dif_pos (show (1 : Fin S10000x1.rank) ∈ dot_S10000x64_S10000x1_S64x1_0_0_1_1_n_n.rhsNonContracting by decide)]
  rfl

/-- The count product into zeros, at (g, 0): the sum over the block's rows r of L[r, g] · R[r, 0]. -/
theorem cntDot_apply (L : FVec Ideal S10000x64 .bf16) (R : FVec Ideal S10000x1 .bf16) (g : Fin 64) :
    matmul dot_S10000x64_S10000x1_S64x1_0_0_1_1_n_n none L R (constant S64x1 .f32 0x00000000#32) (ix2 g (0 : Fin 1))
      = ∑ r : Fin 10000, L (ix2 r g) * R (ix2 r (0 : Fin 1)) := by
  simp only [matmul]
  rw [Ideal.matmul_constant_zero_apply, ← Equiv.sum_comp (contrEquiv1 dot_S10000x64_S10000x1_S64x1_0_0_1_1_n_n 10000 rfl rfl).symm]
  refine Finset.sum_congr rfl fun k _ => ?_
  have hk := contrEquiv1_symm_val dot_S10000x64_S10000x1_S64x1_0_0_1_1_n_n 10000 rfl rfl k
  have el : dot_S10000x64_S10000x1_S64x1_0_0_1_1_n_n.lhsIdx (ix2 g (0 : Fin 1)) ((contrEquiv1 dot_S10000x64_S10000x1_S64x1_0_0_1_1_n_n 10000 rfl rfl).symm k) = ix2 k g := funext fun a => Fin.ext (by
    match a with
    | ⟨0, _⟩ => exact (lhs_cntDot_0 _ _).trans hk
    | ⟨1, _⟩ => exact lhs_cntDot_1 _ _)
  have er : dot_S10000x64_S10000x1_S64x1_0_0_1_1_n_n.rhsIdx (ix2 g (0 : Fin 1)) ((contrEquiv1 dot_S10000x64_S10000x1_S64x1_0_0_1_1_n_n 10000 rfl rfl).symm k) = ix2 k (0 : Fin 1) := funext fun a => Fin.ext (by
    match a with
    | ⟨0, _⟩ => exact (rhs_cntDot_0 _ _).trans hk
    | ⟨1, _⟩ => exact rhs_cntDot_1 _ _)
  rw [el, er]

/-! ### The two accumulating payloads at an entry -/

/-- The feature sums after one more block: the previous entry plus the sum, over the block's rows whose graph id is
    the word g, of relu(x + agg)[r, f] — a product with a one-hot entry is the other factor or zero. -/
theorem featAcc_apply (x agg : Vec Ideal S10000x64 .f32) (ids : Vec Ideal S10000x1 .i32) (acc : Vec Ideal S64x64 .f32) (g f : Fin 64) :
    k1_pay5 (F := Ideal) x agg ids acc (ix2 g f)
      = acc (ix2 g f) + ∑ r : Fin 10000, if ids (ix2 r (0 : Fin 1)) = BitVec.ofNat 32 g.val
          then max (x (ix2 r f) + agg (ix2 r f)) (Ideal.ofBits .f32 0x00000000#32) else 0 := by
  unfold k1_pay5
  rw [shapeCast_self, addf_apply, featDot_apply]
  refine congrArg (acc (ix2 g f) + ·) (Finset.sum_congr rfl fun r _ => ?_)
  rw [onehot_apply, truncf_apply, maximumf_apply, addf_apply, shapeCast_self, broadcast_apply]
  split
  · exact one_mul _
  · exact zero_mul _

/-- The node counts after one more block: the previous entry plus the number of the block's rows whose graph id is
    the word g. -/
theorem cntAcc_apply (ids : Vec Ideal S10000x1 .i32) (cnt : Vec Ideal S64x1 .f32) (g : Fin 64) :
    k1_pay6 (F := Ideal) ids cnt (ix2 g (0 : Fin 1))
      = cnt (ix2 g (0 : Fin 1)) + ∑ r : Fin 10000, if ids (ix2 r (0 : Fin 1)) = BitVec.ofNat 32 g.val then (1 : EReal) else 0 := by
  unfold k1_pay6
  rw [shapeCast_self, addf_apply, cntDot_apply]
  refine congrArg (cnt (ix2 g (0 : Fin 1)) + ·) (Finset.sum_congr rfl fun r _ => ?_)
  rw [onehot_apply, broadcast_apply]
  show _ * Ideal.ofBits .bf16 0x3F80#16 = _
  rw [Ideal.ofBits_one_bf16, mul_one]

/-- The two scratch buffers start from zeros. -/
theorem featZero_apply (j : S64x64.Idx) : k1_pay2 (F := Ideal) j = 0 := by
  unfold k1_pay2
  rw [shapeCast_self, broadcast_apply]
  exact Ideal.ofBits_zero_f32
theorem cntZero_apply (j : S64x1.Idx) : k1_pay3 (F := Ideal) j = 0 := by
  unfold k1_pay3
  rw [shapeCast_self, broadcast_apply]
  exact Ideal.ofBits_zero_f32

/-! ### The blocks the region reads at point t: rows 10000 t + r of the three node arrays, the two parameter arrays whole -/

theorem poolRows_x : ∀ t : Fin cfg1.N, win1_0.index t 0 = t.val ∧ win1_0.index t 1 = 0 :=
  (by decide +kernel : ∀ t : Fin grid1.N, win1_0.index t 0 = t.val ∧ win1_0.index t 1 = 0)
theorem poolRows_agg : ∀ t : Fin cfg1.N, win1_1.index t 0 = t.val ∧ win1_1.index t 1 = 0 :=
  (by decide +kernel : ∀ t : Fin grid1.N, win1_1.index t 0 = t.val ∧ win1_1.index t 1 = 0)
theorem poolRows_ids : ∀ t : Fin cfg1.N, win1_2.index t 0 = t.val ∧ win1_2.index t 1 = 0 :=
  (by decide +kernel : ∀ t : Fin grid1.N, win1_2.index t 0 = t.val ∧ win1_2.index t 1 = 0)
theorem poolWhole_linw : ∀ t : Fin cfg1.N, win1_3.index t 0 = 0 ∧ win1_3.index t 1 = 0 :=
  (by decide +kernel : ∀ t : Fin grid1.N, win1_3.index t 0 = 0 ∧ win1_3.index t 1 = 0)
theorem poolWhole_linb : ∀ t : Fin cfg1.N, win1_4.index t 0 = 0 ∧ win1_4.index t 1 = 0 :=
  (by decide +kernel : ∀ t : Fin grid1.N, win1_4.index t 0 = 0 ∧ win1_4.index t 1 = 0)

theorem poolXBlock_apply (c : Dev nD) (t : Fin cfg1.N) (r : Fin 10000) (f : Fin 64) (hr : 10000 * t.val + r.val < 100000) :
    (iblk1 V c 0 t : Vec Ideal S10000x64 .f32) (ix2 r f) = (V c main_arg0 : Vec Ideal S100000x64 .f32) (ix2 ⟨10000 * t.val + r.val, hr⟩ f) := by
  unfold iblk1
  rw [View.read_apply]
  show V c main_arg0 _ = V c main_arg0 _
  congr 1
  funext a
  apply Fin.ext
  match a with
  | ⟨0, _⟩ => show win1_0.index t 0 * 10000 + 1 * r.val = 10000 * t.val + r.val; rw [(poolRows_x t).1]; omega
  | ⟨1, _⟩ => show win1_0.index t 1 * 64 + 1 * f.val = f.val; rw [(poolRows_x t).2]; omega

theorem poolAggBlock_apply (c : Dev nD) (t : Fin cfg1.N) (r : Fin 10000) (f : Fin 64) (hr : 10000 * t.val + r.val < 100000) :
    (iblk1 V c 1 t : Vec Ideal S10000x64 .f32) (ix2 r f) = (V c main_v30 : Vec Ideal S100000x64 .f32) (ix2 ⟨10000 * t.val + r.val, hr⟩ f) := by
  unfold iblk1
  rw [View.read_apply]
  show V c main_v30 _ = V c main_v30 _
  congr 1
  funext a
  apply Fin.ext
  match a with
  | ⟨0, _⟩ => show win1_1.index t 0 * 10000 + 1 * r.val = 10000 * t.val + r.val; rw [(poolRows_agg t).1]; omega
  | ⟨1, _⟩ => show win1_1.index t 1 * 64 + 1 * f.val = f.val; rw [(poolRows_agg t).2]; omega

theorem poolIdsBlock_apply (c : Dev nD) (t : Fin cfg1.N) (r : Fin 10000) (hr : 10000 * t.val + r.val < 100000) :
    (iblk1 V c 2 t : Vec Ideal S10000x1 .i32) (ix2 r (0 : Fin 1)) = (V c main_v4 : Vec Ideal S100000x1 .i32) (ix2 ⟨10000 * t.val + r.val, hr⟩ (0 : Fin 1)) := by
  unfold iblk1
  rw [View.read_apply]
  show V c main_v4 _ = V c main_v4 _
  congr 1
  funext a
  apply Fin.ext
  match a with
  | ⟨0, _⟩ => show win1_2.index t 0 * 10000 + 1 * r.val = 10000 * t.val + r.val; rw [(poolRows_ids t).1]; omega
  | ⟨1, _⟩ => show win1_2.index t 1 * 1 + 1 * 0 = 0; rw [(poolRows_ids t).2]

theorem poolLinwBlock_eq (c : Dev nD) (t : Fin cfg1.N) : (iblk1 V c 3 t : Vec Ideal S64x10 .f32) = V c main_arg8 := by
  funext j
  unfold iblk1
  rw [View.read_apply]
  show V c main_arg8 _ = V c main_arg8 _
  congr 1
  funext a
  apply Fin.ext
  match a with
  | ⟨0, _⟩ => show win1_3.index t 0 * 64 + 1 * (j 0).val = (j 0).val; rw [(poolWhole_linw t).1]; omega
  | ⟨1, _⟩ => show win1_3.index t 1 * 10 + 1 * (j 1).val = (j 1).val; rw [(poolWhole_linw t).2]; omega

theorem poolLinbBlock_eq (c : Dev nD) (t : Fin cfg1.N) : (iblk1 V c 4 t : Vec Ideal S1x10 .f32) = V c main_v31 := by
  funext j
  unfold iblk1
  rw [View.read_apply]
  show V c main_v31 _ = V c main_v31 _
  congr 1
  funext a
  apply Fin.ext
  match a with
  | ⟨0, _⟩ => show win1_4.index t 0 * 1 + 1 * (j 0).val = (j 0).val; rw [(poolWhole_linb t).1]; omega
  | ⟨1, _⟩ => show win1_4.index t 1 * 10 + 1 * (j 1).val = (j 1).val; rw [(poolWhole_linb t).2]; omega

/-! ### What the two scratch buffers hold after each point -/

/-- The graph-id window's array is the column of `batch`. -/
theorem poolIdsArr_apply (c : Dev nD) (batch : IVec S100000 32) (h4 : V c main_v4 = shapeCast _ batch shapeCasts_S100000_S100000x1)
    (i : Fin 100000) : (V c main_v4 : Vec Ideal S100000x1 .i32) (ix2 i (0 : Fin 1)) = batch (ix1 i) := by
  rw [h4]
  exact shapeCast_apply batch shapeCasts_S100000_S100000x1 (ix2 i (0 : Fin 1)) (ix1 i) (by
    rw [Shape.rowMajor_val_two, Shape.rowMajor_val_one]
    show i.val = i.val * 1 + 0
    omega)

/-- Node i's share of graph g's feature f: relu(x + agg)[i, f] if node i's graph id is the word g, else zero
    (and zero past the last node, so that sums over ranges of naturals can be split freely). -/
def featTerm (x agg : Vec Ideal S100000x64 .f32) (batch : IVec S100000 32) (g f : Fin 64) (i : ℕ) : EReal :=
  if h : i < 100000 then
    (if batch (ix1 ⟨i, h⟩) = BitVec.ofNat 32 g.val then max (x (ix2 ⟨i, h⟩ f) + agg (ix2 ⟨i, h⟩ f)) (Ideal.ofBits .f32 0x00000000#32) else 0)
  else 0

/-- Node i's share of graph g's node count: one if node i's graph id is the word g, else zero. -/
def cntTerm (batch : IVec S100000 32) (g : Fin 64) (i : ℕ) : EReal :=
  if h : i < 100000 then (if batch (ix1 ⟨i, h⟩) = BitVec.ofNat 32 g.val then 1 else 0) else 0

/-- Point t adds to the feature sums the shares of the nodes 10000 t, …, 10000 t + 9999. -/
theorem featStep (c : Dev nD) (batch : IVec S100000 32) (h4 : V c main_v4 = shapeCast _ batch shapeCasts_S100000_S100000x1)
    (t : Fin cfg1.N) (acc : Vec Ideal S64x64 .f32) (g f : Fin 64) :
    k1_pay5 (F := Ideal) (iblk1 V c 0 t) (iblk1 V c 1 t) (iblk1 V c 2 t) acc (ix2 g f)
      = acc (ix2 g f) + ∑ r ∈ Finset.range 10000, featTerm (V c main_arg0) (V c main_v30) batch g f (10000 * t.val + r) := by
  have hN : cfg1.N = 10 := N_1
  have ht := t.isLt
  refine (featAcc_apply (iblk1 V c 0 t) (iblk1 V c 1 t) (iblk1 V c 2 t) acc g f).trans ?_
  refine congrArg (acc (ix2 g f) + ·) ?_
  rw [Finset.sum_range]
  refine Finset.sum_congr rfl fun r _ => ?_
  have hr : 10000 * t.val + r.val < 100000 := by omega
  unfold featTerm
  rw [dif_pos hr, poolXBlock_apply V c t r f hr, poolAggBlock_apply V c t r f hr, poolIdsBlock_apply V c t r hr, poolIdsArr_apply V c batch h4]

/-- Point t adds to the node counts the shares of the same nodes. -/
theorem cntStep (c : Dev nD) (batch : IVec S100000 32) (h4 : V c main_v4 = shapeCast _ batch shapeCasts_S100000_S100000x1)
    (t : Fin cfg1.N) (cnt : Vec Ideal S64x1 .f32) (g : Fin 64) :
    k1_pay6 (F := Ideal) (iblk1 V c 2 t) cnt (ix2 g (0 : Fin 1))
      = cnt (ix2 g (0 : Fin 1)) + ∑ r ∈ Finset.range 10000, cntTerm batch g (10000 * t.val + r) := by
  have hN : cfg1.N = 10 := N_1
  have ht := t.isLt
  refine (cntAcc_apply (iblk1 V c 2 t) cnt g).trans ?_
  refine congrArg (cnt (ix2 g (0 : Fin 1)) + ·) ?_
  rw [Finset.sum_range]
  refine Finset.sum_congr rfl fun r _ => ?_
  have hr : 10000 * t.val + r.val < 100000 := by omega
  unfold cntTerm
  rw [dif_pos hr, poolIdsBlock_apply V c t r hr, poolIdsArr_apply V c batch h4]

/-- After point n the feature sums hold the shares of the nodes below 10000 (n + 1). -/
theorem featSums_after (c : Dev nD) (batch : IVec S100000 32) (h4 : V c main_v4 = shapeCast _ batch shapeCasts_S100000_S100000x1) :
    ∀ (n : ℕ) (hn : n < cfg1.N) (g f : Fin 64),
      (accAt1 V c n hn).1 (ix2 g f) = ∑ i ∈ Finset.range (10000 * (n + 1)), featTerm (V c main_arg0) (V c main_v30) batch g f i
  | 0, hn, g, f => by
    rw [accAt1_zero]
    dsimp only
    refine (featStep V c batch h4 ⟨0, hn⟩ (k1_pay2 (F := Ideal)) g f).trans ?_
    rw [featZero_apply, zero_add]
    refine Finset.sum_congr rfl fun r _ => ?_
    show featTerm _ _ batch g f (10000 * 0 + r) = _
    rw [Nat.mul_zero, Nat.zero_add]
  | n + 1, hn, g, f => by
    rw [accAt1_succ]
    dsimp only
    refine (featStep V c batch h4 ⟨n + 1, hn⟩ (accAt1 V c n (Nat.lt_of_succ_lt hn)).1 g f).trans ?_
    rw [featSums_after c batch h4 n (Nat.lt_of_succ_lt hn) g f,
      show 10000 * (n + 1 + 1) = 10000 * (n + 1) + 10000 by omega, Finset.sum_range_add]

/-- After point n the node counts hold the shares of the same nodes. -/
theorem cnts_after (c : Dev nD) (batch : IVec S100000 32) (h4 : V c main_v4 = shapeCast _ batch shapeCasts_S100000_S100000x1) :
    ∀ (n : ℕ) (hn : n < cfg1.N) (g : Fin 64),
      (accAt1 V c n hn).2 (ix2 g (0 : Fin 1)) = ∑ i ∈ Finset.range (10000 * (n + 1)), cntTerm batch g i
  | 0, hn, g => by
    rw [accAt1_zero]
    dsimp only
    refine (cntStep V c batch h4 ⟨0, hn⟩ (k1_pay3 (F := Ideal)) g).trans ?_
    rw [cntZero_apply, zero_add]
    refine Finset.sum_congr rfl fun r _ => ?_
    show cntTerm batch g (10000 * 0 + r) = _
    rw [Nat.mul_zero, Nat.zero_add]
  | n + 1, hn, g => by
    rw [accAt1_succ]
    dsimp only
    refine (cntStep V c batch h4 ⟨n + 1, hn⟩ (accAt1 V c n (Nat.lt_of_succ_lt hn)).2 g).trans ?_
    rw [cnts_after c batch h4 n (Nat.lt_of_succ_lt hn) g,
      show 10000 * (n + 1 + 1) = 10000 * (n + 1) + 10000 by omega, Finset.sum_range_add]

/-! ### The classifier product: it contracts the feature axis of the means with the rows of lin_w -/

theorem lhs_clsDot_0 (i : S64x10.Idx) (q : Cert.KernelIdeal.dot_S64x64_S64x10_S64x10_1_0_0_1_n_n.contr.Idx) :
    (Cert.KernelIdeal.dot_S64x64_S64x10_S64x10_1_0_0_1_n_n.lhsIdx i q 0).val = (i 0).val := by
  unfold DotDims.lhsIdx
  rw [dif_neg (show ¬(0 : Fin S64x64.rank) ∈ Cert.KernelIdeal.dot_S64x64_S64x10_S64x10_1_0_0_1_n_n.lhsBatch by decide), dif_pos (show (0 : Fin S64x64.rank) ∈ Cert.KernelIdeal.dot_S64x64_S64x10_S64x10_1_0_0_1_n_n.lhsNonContracting by decide)]
  rfl
theorem lhs_clsDot_1 (i : S64x10.Idx) (q : Cert.KernelIdeal.dot_S64x64_S64x10_S64x10_1_0_0_1_n_n.contr.Idx) :
    (Cert.KernelIdeal.dot_S64x64_S64x10_S64x10_1_0_0_1_n_n.lhsIdx i q 1).val = (q ⟨0, by decide⟩).val :=
  Cert.KernelIdeal.dot_S64x64_S64x10_S64x10_1_0_0_1_n_n.lhsIdx_val_of_single rfl i q
theorem rhs_clsDot_0 (i : S64x10.Idx) (q : Cert.KernelIdeal.dot_S64x64_S64x10_S64x10_1_0_0_1_n_n.contr.Idx) :
    (Cert.KernelIdeal.dot_S64x64_S64x10_S64x10_1_0_0_1_n_n.rhsIdx i q 0).val = (q ⟨0, by decide⟩).val :=
  Cert.KernelIdeal.dot_S64x64_S64x10_S64x10_1_0_0_1_n_n.rhsIdx_val_of_single rfl i q
theorem rhs_clsDot_1 (i : S64x10.Idx) (q : Cert.KernelIdeal.dot_S64x64_S64x10_S64x10_1_0_0_1_n_n.contr.Idx) :
    (Cert.KernelIdeal.dot_S64x64_S64x10_S64x10_1_0_0_1_n_n.rhsIdx i q 1).val = (i 1).val := by
  unfold DotDims.rhsIdx
  rw [dif_neg (show ¬(1 : Fin S64x10.rank) ∈ Cert.KernelIdeal.dot_S64x64_S64x10_S64x10_1_0_0_1_n_n.rhsBatch by decide), dif_pos (show (1 : Fin S64x10.rank) ∈ Cert.KernelIdeal.dot_S64x64_S64x10_S64x10_1_0_0_1_n_n.rhsNonContracting by decide)]
  rfl
theorem clsDot_operands (g : Fin 64) (k : Fin 10) (m : Fin 64) :
    Cert.KernelIdeal.dot_S64x64_S64x10_S64x10_1_0_0_1_n_n.lhsIdx (ix2 g k) ((contrEquiv1 Cert.KernelIdeal.dot_S64x64_S64x10_S64x10_1_0_0_1_n_n 64 rfl rfl).symm m) = ix2 g m
    ∧ Cert.KernelIdeal.dot_S64x64_S64x10_S64x10_1_0_0_1_n_n.rhsIdx (ix2 g k) ((contrEquiv1 Cert.KernelIdeal.dot_S64x64_S64x10_S64x10_1_0_0_1_n_n 64 rfl rfl).symm m) = ix2 m k := by
  have hm := contrEquiv1_symm_val Cert.KernelIdeal.dot_S64x64_S64x10_S64x10_1_0_0_1_n_n 64 rfl rfl m
  constructor
  · exact funext fun a => Fin.ext (by
      match a with
      | ⟨0, _⟩ => exact lhs_clsDot_0 _ _
      | ⟨1, _⟩ => exact (lhs_clsDot_1 _ _).trans hm)
  · exact funext fun a => Fin.ext (by
      match a with
      | ⟨0, _⟩ => exact (rhs_clsDot_0 _ _).trans hm
      | ⟨1, _⟩ => exact rhs_clsDot_1 _ _)

/-- What the last point stores, at (g, k): the means of graph g (sums over max(count, 1)) times column k of lin_w, plus lin_b[k]. -/
theorem classifier_apply (cnt : Vec Ideal S64x1 .f32) (acc : Vec Ideal S64x64 .f32) (linw : Vec Ideal S64x10 .f32)
    (linb : Vec Ideal S1x10 .f32) (g : Fin 64) (k : Fin 10) :
    k1_pay1 (F := Ideal) cnt acc linw linb (ix2 g k)
      = (∑ m : Fin 64, Ideal.div (acc (ix2 g m)) (max (cnt (ix2 g (0 : Fin 1))) (Ideal.ofBits .f32 0x3F800000#32)) * linw (ix2 m k))
        + linb (ix2 (0 : Fin 1) k) := by
  unfold k1_pay1
  rw [addf_apply, broadcastTo_1b_ab_apply, shapeCast_self]
  refine congrArg (· + linb (ix2 (0 : Fin 1) k)) ?_
  simp only [matmul]
  rw [Ideal.matmul_constant_zero_apply, ← Equiv.sum_comp (contrEquiv1 Cert.KernelIdeal.dot_S64x64_S64x10_S64x10_1_0_0_1_n_n 64 rfl rfl).symm]
  refine Finset.sum_congr rfl fun m _ => ?_
  rw [(clsDot_operands g k m).1, (clsDot_operands g k m).2, truncf_apply, truncf_apply, divf_apply,
    broadcastTo_apply _ broadcasts_S64x1_S64x64 (ix2 g m) (ix2 g (0 : Fin 1)) (fun a => match a with
      | ⟨0, _⟩ => by show g.val = if (64 : Nat) = 1 then 0 else g.val; rw [if_neg (by decide)]
      | ⟨1, _⟩ => by show 0 = if (1 : Nat) = 1 then 0 else m.val; rw [if_pos rfl]),
    maximumf_apply, broadcast_apply]
  rfl

end Cert.KernelIdeal.HandValue

/-! ## The reference's pooled classifier at an entry -/

namespace Cert.PoolRead

open Cert.ReferenceIdeal Cert.ReferenceIdeal.Facts₀ Cert.ReferenceIdeal.Facts
open Idealize.ShloMosaic Idealize.ShloMosaic.ValueIdx

theorem lhs_refDot_0 (i : S64x10.Idx) (q : Cert.ReferenceIdeal.dot_S64x64_S64x10_S64x10_1_0_0_1_n_n.contr.Idx) :
    (Cert.ReferenceIdeal.dot_S64x64_S64x10_S64x10_1_0_0_1_n_n.lhsIdx i q 0).val = (i 0).val := by
  unfold DotDims.lhsIdx
  rw [dif_neg (show ¬(0 : Fin S64x64.rank) ∈ Cert.ReferenceIdeal.dot_S64x64_S64x10_S64x10_1_0_0_1_n_n.lhsBatch by decide), dif_pos (show (0 : Fin S64x64.rank) ∈ Cert.ReferenceIdeal.dot_S64x64_S64x10_S64x10_1_0_0_1_n_n.lhsNonContracting by decide)]
  rfl
theorem lhs_refDot_1 (i : S64x10.Idx) (q : Cert.ReferenceIdeal.dot_S64x64_S64x10_S64x10_1_0_0_1_n_n.contr.Idx) :
    (Cert.ReferenceIdeal.dot_S64x64_S64x10_S64x10_1_0_0_1_n_n.lhsIdx i q 1).val = (q ⟨0, by decide⟩).val :=
  Cert.ReferenceIdeal.dot_S64x64_S64x10_S64x10_1_0_0_1_n_n.lhsIdx_val_of_single rfl i q
theorem rhs_refDot_0 (i : S64x10.Idx) (q : Cert.ReferenceIdeal.dot_S64x64_S64x10_S64x10_1_0_0_1_n_n.contr.Idx) :
    (Cert.ReferenceIdeal.dot_S64x64_S64x10_S64x10_1_0_0_1_n_n.rhsIdx i q 0).val = (q ⟨0, by decide⟩).val :=
  Cert.ReferenceIdeal.dot_S64x64_S64x10_S64x10_1_0_0_1_n_n.rhsIdx_val_of_single rfl i q
theorem rhs_refDot_1 (i : S64x10.Idx) (q : Cert.ReferenceIdeal.dot_S64x64_S64x10_S64x10_1_0_0_1_n_n.contr.Idx) :
    (Cert.ReferenceIdeal.dot_S64x64_S64x10_S64x10_1_0_0_1_n_n.rhsIdx i q 1).val = (i 1).val := by
  unfold DotDims.rhsIdx
  rw [dif_neg (show ¬(1 : Fin S64x10.rank) ∈ Cert.ReferenceIdeal.dot_S64x64_S64x10_S64x10_1_0_0_1_n_n.rhsBatch by decide), dif_pos (show (1 : Fin S64x10.rank) ∈ Cert.ReferenceIdeal.dot_S64x64_S64x10_S64x10_1_0_0_1_n_n.rhsNonContracting by decide)]
  rfl
theorem refDot_operands (g : Fin 64) (k : Fin 10) (m : Fin 64) :
    Cert.ReferenceIdeal.dot_S64x64_S64x10_S64x10_1_0_0_1_n_n.lhsIdx (ix2 g k) ((contrEquiv1 Cert.ReferenceIdeal.dot_S64x64_S64x10_S64x10_1_0_0_1_n_n 64 rfl rfl).symm m) = ix2 g m
    ∧ Cert.ReferenceIdeal.dot_S64x64_S64x10_S64x10_1_0_0_1_n_n.rhsIdx (ix2 g k) ((contrEquiv1 Cert.ReferenceIdeal.dot_S64x64_S64x10_S64x10_1_0_0_1_n_n 64 rfl rfl).symm m) = ix2 m k := by
  have hm := contrEquiv1_symm_val Cert.ReferenceIdeal.dot_S64x64_S64x10_S64x10_1_0_0_1_n_n 64 rfl rfl m
  constructor
  · exact funext fun a => Fin.ext (by
      match a with
      | ⟨0, _⟩ => exact lhs_refDot_0 _ _
      | ⟨1, _⟩ => exact (lhs_refDot_1 _ _).trans hm)
  · exact funext fun a => Fin.ext (by
      match a with
      | ⟨0, _⟩ => exact (rhs_refDot_0 _ _).trans hm
      | ⟨1, _⟩ => exact rhs_refDot_1 _ _)

/-- The reference at (g, k): graph g's scattered feature sums over max(scattered count, 1), times column k of lin_w, plus lin_b[k]. -/
theorem poolRef_apply (x agg : FVec Ideal S100000x64 .f32) (batch : IVec S100000 32) (linw : FVec Ideal S64x10 .f32)
    (linb : FVec Ideal S10 .f32) (g : Fin 64) (k : Fin 10) :
    Cert.Spec.poolRef x agg batch linw linb (ix2 g k)
      = (∑ m : Fin 64, Ideal.div ((Host.scatterAdd (F := Ideal) scatter_S64x64_S100000x1_S100000x64_1_0_0_1 (broadcastInDim S64x64 ![] bcast_S_S64x64 (constant (F := Ideal) S_ .f32 0x00000000#32)) (broadcastInDim S100000x1 ![0] bcast_S100000_S100000x1_0 batch) (maximumf (addf x agg) (broadcastInDim S100000x64 ![] bcast_S_S100000x64 (constant (F := Ideal) S_ .f32 0x00000000#32)))) (ix2 g m))
            (max ((Host.scatterAdd (F := Ideal) scatter_S64_S100000x1_S100000_n_0_0_1 (broadcastInDim S64 ![] bcast_S_S64 (constant (F := Ideal) S_ .f32 0x00000000#32)) (broadcastInDim S100000x1 ![0] bcast_S100000_S100000x1_0 batch) (broadcastInDim S100000 ![] bcast_S_S100000 (constant (F := Ideal) S_ .f32 0x3F800000#32))) (ix1 g)) (Ideal.ofBits .f32 0x3F800000#32)) * linw (ix2 m k))
        + linb (ix1 k) := by
  unfold Cert.Spec.poolRef
  rw [addf_apply]
  refine congrArg₂ (· + ·) ?_ ?_
  · simp only [Host.dotGeneral]
    rw [Ideal.dotGeneral_apply, ← Equiv.sum_comp (contrEquiv1 Cert.ReferenceIdeal.dot_S64x64_S64x10_S64x10_1_0_0_1_n_n 64 rfl rfl).symm]
    refine Finset.sum_congr rfl fun m _ => ?_
    rw [(refDot_operands g k m).1, (refDot_operands g k m).2, hostDivf_apply,
      broadcastInDim_apply _ bcast_S64x1_S64x64_0_1 _ (ix2 g m) (ix2 g (0 : Fin 1)) (fun a => match a with
        | ⟨0, _⟩ => by show g.val = if (64 : Nat) = 1 then 0 else g.val; rw [if_neg (by decide)]
        | ⟨1, _⟩ => by show 0 = if (1 : Nat) = 1 then 0 else m.val; rw [if_pos rfl]),
      broadcastInDim_apply _ bcast_S64_S64x1_0 _ (ix2 g (0 : Fin 1)) (ix1 g) (fun a => match a with
        | ⟨0, _⟩ => by show g.val = if (64 : Nat) = 1 then 0 else g.val; rw [if_neg (by decide)]),
      maximumf_apply, broadcastInDim_scalar_apply, constant_apply]
  · rw [broadcastInDim_apply _ bcast_S1x10_S64x10_0_1 _ (ix2 g k) (ix2 (0 : Fin 1) k) (fun a => match a with
        | ⟨0, _⟩ => by show 0 = if (1 : Nat) = 1 then 0 else g.val; rw [if_pos rfl]
        | ⟨1, _⟩ => by show k.val = if (10 : Nat) = 1 then 0 else k.val; rw [if_neg (by decide)]),
      broadcastInDim_apply _ bcast_S10_S1x10_1 _ (ix2 (0 : Fin 1) k) (ix1 k) (fun a => match a with
        | ⟨0, _⟩ => by show k.val = if (10 : Nat) = 1 then 0 else k.val; rw [if_neg (by decide)])]

end Cert.PoolRead

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ### The last point's block against the reference -/

/-- The bias window's array is the row of `linb`. -/
theorem poolLinbArr_apply (c : Dev nD) (linb : FVec Ideal S10 .f32) (h31 : V c main_v31 = shapeCast _ linb shapeCasts_S10_S1x10)
    (k : Fin 10) : (V c main_v31 : Vec Ideal S1x10 .f32) (ix2 (0 : Fin 1) k) = linb (ix1 k) := by
  rw [h31]
  exact shapeCast_a_1a_apply linb shapeCasts_S10_S1x10 0 k

/-- Over all 100,000 nodes the shares add up to the sum over the nodes of graph g. -/
theorem featTerm_sum (x agg : Vec Ideal S100000x64 .f32) (batch : IVec S100000 32) (g f : Fin 64) :
    ∑ i ∈ Finset.range 100000, featTerm x agg batch g f i
      = ∑ i : Fin 100000, if batch (ix1 i) = BitVec.ofNat 32 g.val
          then max (x (ix2 i f) + agg (ix2 i f)) (Ideal.ofBits .f32 0x00000000#32) else 0 := by
  rw [Finset.sum_range]
  refine Finset.sum_congr rfl fun i _ => ?_
  unfold featTerm
  rw [dif_pos i.isLt]
theorem cntTerm_sum (batch : IVec S100000 32) (g : Fin 64) :
    ∑ i ∈ Finset.range 100000, cntTerm batch g i
      = ∑ i : Fin 100000, if batch (ix1 i) = BitVec.ofNat 32 g.val then (1 : EReal) else 0 := by
  rw [Finset.sum_range]
  refine Finset.sum_congr rfl fun i _ => ?_
  unfold cntTerm
  rw [dif_pos i.isLt]

/-- What the last point leaves in the output block is the reference's pooled classifier. -/
theorem poolLast_value (c : Dev nD) (batch : IVec S100000 32) (linb : FVec Ideal S10 .f32)
    (h4 : V c main_v4 = shapeCast _ batch shapeCasts_S100000_S100000x1)
    (h31 : V c main_v31 = shapeCast _ linb shapeCasts_S10_S1x10) :
    (out1_5 V c t1_9 : Vec Ideal S64x10 .f32) = Cert.Spec.poolRef (V c main_arg0) (V c main_v30) batch (V c main_arg8) linb := by
  funext j
  obtain ⟨g, k, rfl⟩ : ∃ (g : Fin 64) (k : Fin 10), j = ix2 g k := ⟨j 0, j 1, eq_ix2 j⟩
  unfold out1_5
  refine (classifier_apply (accAt1 V c t1_9.val t1_9.isLt).2 (accAt1 V c t1_9.val t1_9.isLt).1 (iblk1 V c 3 t1_9) (iblk1 V c 4 t1_9) g k).trans ?_
  rw [Cert.PoolRead.poolRef_apply, poolLinwBlock_eq, poolLinbBlock_eq, poolLinbArr_apply V c linb h31 k,
    cnts_after V c batch h4 t1_9.val t1_9.isLt g, Cert.ScatterRead.scatter_ones_apply]
  have e9 : 10000 * (t1_9.val + 1) = 100000 := rfl
  rw [e9, cntTerm_sum]
  refine congrArg (· + linb (ix1 k)) (Finset.sum_congr rfl fun m _ => ?_)
  rw [featSums_after V c batch h4 t1_9.val t1_9.isLt g m, e9, featTerm_sum, Cert.ScatterRead.scatter_rows_apply]
  refine congrArg₂ (· * ·) (congrArg₂ Ideal.div (Finset.sum_congr rfl fun i _ => ?_) rfl) rfl
  rw [maximumf_apply, addf_apply, broadcastInDim_scalar_apply, constant_apply]

/-- The output array of region 1 after its last point is the reference's pooled classifier of the region's inputs, when
    the graph-id window holds the reshaped `batch` and the bias window the reshaped `linb`. -/
theorem pool_value (c : Dev nD) (batch : IVec S100000 32) (linb : FVec Ideal S10 .f32)
    (h4 : V c main_v4 = shapeCast _ batch shapeCasts_S100000_S100000x1)
    (h31 : V c main_v31 = shapeCast _ linb shapeCasts_S10_S1x10) :
    (dat1 V c).arrAt 5 cfg1.N = Cert.Spec.poolRef (V c main_arg0) (V c main_v30) batch (V c main_arg8) linb :=
  (poolOut_array V c (out1_5 V c t1_9) (after1_5 V c t1_9)).trans (poolLast_value V c batch linb h4 h31)

end Cert.KernelIdeal.HandValue

end
-- ==== Proof.Ref.lean ====
/-
  The reference's result is the pooled classifier of the aggregated messages: the run's composed term,
  cut at the two gathers and at the aggregation, is `poolRef` of `msgRef`.
-/
import proofs.«411481_j80324478369805_2_alg».proof.Proof.Gen.ReferenceIdeal.Run
import proofs.«411481_j80324478369805_2_alg».proof.Proof.Spec

noncomputable section

namespace Cert.RefSide

open Cert.ReferenceIdeal Cert.ReferenceIdeal.Gen Idealize.ShloMosaic Idealize.ShloMosaic.TcCoe Idealize.SL.Sem

variable {F : FTy → Type} [FloatOps F]

/-- The destination (row 1) and source (row 0) of every edge. -/
def edgeRow1 (ei : IVec S2x1600000 32) : IVec S1600000 32 :=
  shapeCast _ (extractStridedSlice S1x1600000 ![1, 0] ei slices_S2x1600000_S1x1600000_1_0) shapeCasts_S1x1600000_S1600000
def edgeRow0 (ei : IVec S2x1600000 32) : IVec S1600000 32 :=
  shapeCast _ (extractStridedSlice S1x1600000 ![0, 0] ei slices_S2x1600000_S1x1600000_0_0) shapeCasts_S1x1600000_S1600000

/-- jnp's indexing `x[idx]`: negative indices count from the end, then the rows are gathered. -/
def gatherRows (x : FVec F S100000x64 .f32) (idx : IVec S1600000 32) : FVec F S1600000x64 .f32 :=
  Host.gather gather_S100000x64_S1600000x1_S1600000x64_1_0_n_n_0_1_164 x (broadcastInDim S1600000x1 ![0] bcast_S1600000_S1600000x1_0 (select (cmpi .slt idx (broadcastInDim S1600000 ![] bcast_S_S1600000 (constantI S_ 32 0#32))) (addi idx (broadcastInDim S1600000 ![] bcast_S_S1600000 (constantI S_ 32 100000#32))) idx))

/-- The messages added into their destination nodes. -/
def aggOf (dst : IVec S1600000 32) (msg : FVec F S1600000x64 .f32) : FVec F S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) msg

set_option maxRecDepth 8192 in
theorem res_eq (m : (ℓ : Loc nD τ sig) → Buf (Elt F) ℓ) (c : Dev nD) :
    Cert.ReferenceIdeal.Value.res_main_v55 m c
      = Cert.Spec.poolRef (m ((c.tc : Thread nD τ).loc main_arg0))
          (aggOf (edgeRow1 (m ((c.tc : Thread nD τ).loc main_arg1)))
            (Cert.Spec.msgRef (gatherRows (m ((c.tc : Thread nD τ).loc main_arg0)) (edgeRow1 (m ((c.tc : Thread nD τ).loc main_arg1))))
              (gatherRows (m ((c.tc : Thread nD τ).loc main_arg0)) (edgeRow0 (m ((c.tc : Thread nD τ).loc main_arg1))))
              (m ((c.tc : Thread nD τ).loc main_arg2)) (m ((c.tc : Thread nD τ).loc main_arg4)) (m ((c.tc : Thread nD τ).loc main_arg5))
              (m ((c.tc : Thread nD τ).loc main_arg6)) (m ((c.tc : Thread nD τ).loc main_arg7))))
          (m ((c.tc : Thread nD τ).loc main_arg3)) (m ((c.tc : Thread nD τ).loc main_arg8)) (m ((c.tc : Thread nD τ).loc main_arg9)) := by
  unfold Cert.ReferenceIdeal.Value.res_main_v55 Cert.Spec.poolRef Cert.Spec.msgRef Cert.Spec.sigmoidRef Cert.Spec.softplusRef Cert.Spec.zRef aggOf gatherRows edgeRow0 edgeRow1
  rfl

end Cert.RefSide

end
-- ==== Proof.KI.Bridge.lean ====
/-
  The kernel program's result as a function of its arguments.

  The first host stretch leaves, in the buffers region 0 reads, the two gathers of x along the destination and
  source rows of the edge list, the row slices of the two weight matrices and the reshaped biases; region 0 leaves the
  messages; the second host stretch adds them into their destination nodes; region 1 leaves the pooled classifier.
  Composed, the result is the reference's own term of the arguments.
-/
import proofs.«411481_j80324478369805_2_alg».proof.Proof.KI.Run
import proofs.«411481_j80324478369805_2_alg».proof.Proof.KI.Value0
import proofs.«411481_j80324478369805_2_alg».proof.Proof.KI.Value1
import proofs.«411481_j80324478369805_2_alg».proof.Proof.Ref
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-- Row 1 of the edge list (destinations) and row 0 (sources), as 1,600,000-vectors. -/
def dstK : IVec S1600000 32 :=
  shapeCast _ (extractStridedSlice S1x1600000 ![1, 0] (m ((c : Thread nD τ).loc main_arg1)) slices_S2x1600000_S1x1600000_1_0) shapeCasts_S1x1600000_S1600000
def srcK : IVec S1600000 32 :=
  shapeCast _ (extractStridedSlice S1x1600000 ![0, 0] (m ((c : Thread nD τ).loc main_arg1)) slices_S2x1600000_S1x1600000_0_0) shapeCasts_S1x1600000_S1600000

/-- The rows of x at an index vector, negative indices counted from the end. -/
def gatherK (idx : IVec S1600000 32) : FVec Ideal S1600000x64 .f32 :=
  Host.gather gather_S100000x64_S1600000x1_S1600000x64_1_0_n_n_0_1_164 (m ((c : Thread nD τ).loc main_arg0)) (broadcastInDim S1600000x1 ![0] bcast_S1600000_S1600000x1_0 (select (cmpi .slt idx (broadcastInDim S1600000 ![] bcast_S_S1600000 (constantI S_ 32 0#32))) (addi idx (broadcastInDim S1600000 ![] bcast_S_S1600000 (constantI S_ 32 100000#32))) idx))

/-- The messages added into their destination nodes. -/
def aggK (msg : FVec Ideal S1600000x64 .f32) : FVec Ideal S100000x64 .f32 :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (dstK m c)) msg

/-! ## What the first host stretch leaves -/

theorem W1_v3 : W1 m ρ c (Proc.devRef .tc main_v3) = dstK m c := by
  show StableHlo.after hostOps0 (W0 m ρ c) (Proc.devRef .tc main_v3) = _
  unfold dstK; after_results <;> rfl

theorem W1_v4 : W1 m ρ c (Proc.devRef .tc main_v4) = shapeCast _ (m ((c : Thread nD τ).loc main_arg3)) shapeCasts_S100000_S100000x1 := by
  show StableHlo.after hostOps0 (W0 m ρ c) (Proc.devRef .tc main_v4) = _
  after_results <;> rfl

set_option maxHeartbeats 2000000 in
theorem W1_v11 : W1 m ρ c (Proc.devRef .tc main_v11) = gatherK m c (dstK m c) := by
  show StableHlo.after hostOps0 (W0 m ρ c) (Proc.devRef .tc main_v11) = _
  unfold gatherK dstK; after_results <;> rfl

set_option maxHeartbeats 2000000 in
theorem W1_v18 : W1 m ρ c (Proc.devRef .tc main_v18) = gatherK m c (srcK m c) := by
  show StableHlo.after hostOps0 (W0 m ρ c) (Proc.devRef .tc main_v18) = _
  unfold gatherK srcK; after_results <;> rfl

theorem W1_v19 : W1 m ρ c (Proc.devRef .tc main_v19) = extractStridedSlice S64x64 ![0, 0] (m ((c : Thread nD τ).loc main_arg4)) slices_S144x64_S64x64_0_0 := by
  show StableHlo.after hostOps0 (W0 m ρ c) (Proc.devRef .tc main_v19) = _
  after_results <;> rfl

theorem W1_v20 : W1 m ρ c (Proc.devRef .tc main_v20) = extractStridedSlice S64x64 ![64, 0] (m ((c : Thread nD τ).loc main_arg4)) slices_S144x64_S64x64_64_0 := by
  show StableHlo.after hostOps0 (W0 m ρ c) (Proc.devRef .tc main_v20) = _
  after_results <;> rfl

theorem W1_v21 : W1 m ρ c (Proc.devRef .tc main_v21) = extractStridedSlice S16x64 ![128, 0] (m ((c : Thread nD τ).loc main_arg4)) slices_S144x64_S16x64_128_0 := by
  show StableHlo.after hostOps0 (W0 m ρ c) (Proc.devRef .tc main_v21) = _
  after_results <;> rfl

theorem W1_v22 : W1 m ρ c (Proc.devRef .tc main_v22) = extractStridedSlice S64x64 ![0, 0] (m ((c : Thread nD τ).loc main_arg6)) slices_S144x64_S64x64_0_0 := by
  show StableHlo.after hostOps0 (W0 m ρ c) (Proc.devRef .tc main_v22) = _
  after_results <;> rfl

theorem W1_v23 : W1 m ρ c (Proc.devRef .tc main_v23) = extractStridedSlice S64x64 ![64, 0] (m ((c : Thread nD τ).loc main_arg6)) slices_S144x64_S64x64_64_0 := by
  show StableHlo.after hostOps0 (W0 m ρ c) (Proc.devRef .tc main_v23) = _
  after_results <;> rfl

theorem W1_v24 : W1 m ρ c (Proc.devRef .tc main_v24) = extractStridedSlice S16x64 ![128, 0] (m ((c : Thread nD τ).loc main_arg6)) slices_S144x64_S16x64_128_0 := by
  show StableHlo.after hostOps0 (W0 m ρ c) (Proc.devRef .tc main_v24) = _
  after_results <;> rfl

theorem W1_v25 : W1 m ρ c (Proc.devRef .tc main_v25) = shapeCast _ (m ((c : Thread nD τ).loc main_arg5)) shapeCasts_S64_S1x64 := by
  show StableHlo.after hostOps0 (W0 m ρ c) (Proc.devRef .tc main_v25) = _
  after_results <;> rfl

theorem W1_v26 : W1 m ρ c (Proc.devRef .tc main_v26) = shapeCast _ (m ((c : Thread nD τ).loc main_arg7)) shapeCasts_S64_S1x64 := by
  show StableHlo.after hostOps0 (W0 m ρ c) (Proc.devRef .tc main_v26) = _
  after_results <;> rfl

theorem W1_arg2 : W1 m ρ c (Proc.devRef .tc main_arg2) = (m ((c : Thread nD τ).loc main_arg2)) := by
  show StableHlo.after hostOps0 (W0 m ρ c) (Proc.devRef .tc main_arg2) = _
  after_results <;> rfl

/-! ## Region 0's output -/

theorem W2_v27 : W2 m ρ c (Proc.devRef .tc main_v27)
    = Cert.Spec.msgRef (gatherK m c (dstK m c)) (gatherK m c (srcK m c)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W2_arr m ρ c 11).trans ?_
  have h := msg_value (V1 m ρ) c (m ((c : Thread nD τ).loc main_arg4)) (m ((c : Thread nD τ).loc main_arg6)) (m ((c : Thread nD τ).loc main_arg5)) (m ((c : Thread nD τ).loc main_arg7))
    (W1_v19 m ρ c) (W1_v20 m ρ c) (W1_v21 m ρ c) (W1_v22 m ρ c) (W1_v23 m ρ c) (W1_v24 m ρ c) (W1_v25 m ρ c) (W1_v26 m ρ c)
  rw [show V1 m ρ c main_v11 = gatherK m c (dstK m c) from W1_v11 m ρ c, show V1 m ρ c main_v18 = gatherK m c (srcK m c) from W1_v18 m ρ c,
    show V1 m ρ c main_arg2 = (m ((c : Thread nD τ).loc main_arg2)) from W1_arg2 m ρ c] at h
  exact h

/-! ## What the second host stretch leaves -/

theorem W3_v30 : W3 m ρ c (Proc.devRef .tc main_v30) = aggK m c (W2 m ρ c (Proc.devRef .tc main_v27)) := by
  have h3 : W2 m ρ c (Proc.devRef .tc main_v3) = dstK m c := (W2_of_ne m ρ c main_v3 (by decide)).trans (W1_v3 m ρ c)
  unfold aggK
  rw [← h3]
  show StableHlo.after hostOps1 (W2 m ρ c) (Proc.devRef .tc main_v30) = _
  after_results <;> rfl

theorem W3_v31 : W3 m ρ c (Proc.devRef .tc main_v31) = shapeCast _ (m ((c : Thread nD τ).loc main_arg9)) shapeCasts_S10_S1x10 := by
  have h9 : W2 m ρ c (Proc.devRef .tc main_arg9) = (m ((c : Thread nD τ).loc main_arg9)) :=
    (W2_of_ne m ρ c main_arg9 (by decide)).trans (StableHlo.after_of_writes_sub hostOps0 _ hostOps0_writes (r := main_arg9) (by decide))
  rw [← h9]
  show StableHlo.after hostOps1 (W2 m ρ c) (Proc.devRef .tc main_v31) = _
  after_results <;> rfl

theorem W3_v4 : W3 m ρ c (Proc.devRef .tc main_v4) = shapeCast _ (m ((c : Thread nD τ).loc main_arg3)) shapeCasts_S100000_S100000x1 :=
  (StableHlo.after_of_writes_sub hostOps1 _ hostOps1_writes (r := main_v4) (by decide)).trans
    ((W2_of_ne m ρ c main_v4 (by decide)).trans (W1_v4 m ρ c))

theorem W3_arg0 : W3 m ρ c (Proc.devRef .tc main_arg0) = (m ((c : Thread nD τ).loc main_arg0)) :=
  (StableHlo.after_of_writes_sub hostOps1 _ hostOps1_writes (r := main_arg0) (by decide)).trans
    ((W2_of_ne m ρ c main_arg0 (by decide)).trans (StableHlo.after_of_writes_sub hostOps0 _ hostOps0_writes (r := main_arg0) (by decide)))

theorem W3_arg8 : W3 m ρ c (Proc.devRef .tc main_arg8) = (m ((c : Thread nD τ).loc main_arg8)) :=
  (StableHlo.after_of_writes_sub hostOps1 _ hostOps1_writes (r := main_arg8) (by decide)).trans
    ((W2_of_ne m ρ c main_arg8 (by decide)).trans (StableHlo.after_of_writes_sub hostOps0 _ hostOps0_writes (r := main_arg8) (by decide)))

/-! ## The result -/

/-- The kernel program's result buffer after the run: the pooled classifier of the aggregated messages. -/
theorem W4_v32 : W4 m ρ c (Proc.devRef .tc main_v32)
    = Cert.Spec.poolRef (m ((c : Thread nD τ).loc main_arg0))
        (aggK m c (Cert.Spec.msgRef (gatherK m c (dstK m c)) (gatherK m c (srcK m c)) (m ((c : Thread nD τ).loc main_arg2)) (m ((c : Thread nD τ).loc main_arg4)) (m ((c : Thread nD τ).loc main_arg5)) (m ((c : Thread nD τ).loc main_arg6)) (m ((c : Thread nD τ).loc main_arg7))))
        (m ((c : Thread nD τ).loc main_arg3)) (m ((c : Thread nD τ).loc main_arg8)) (m ((c : Thread nD τ).loc main_arg9)) := by
  refine (W4_arr m ρ c 5).trans ?_
  have h := pool_value (V3 m ρ) c (m ((c : Thread nD τ).loc main_arg3)) (m ((c : Thread nD τ).loc main_arg9)) (W3_v4 m ρ c) (W3_v31 m ρ c)
  rw [show V3 m ρ c main_arg0 = (m ((c : Thread nD τ).loc main_arg0)) from W3_arg0 m ρ c, show V3 m ρ c main_arg8 = (m ((c : Thread nD τ).loc main_arg8)) from W3_arg8 m ρ c,
    show V3 m ρ c main_v30 = _ from W3_v30 m ρ c, W2_v27 m ρ c] at h
  exact h

end Cert.KernelIdeal.HandValue

end
-- ==== Proof.lean ====
/-
  The certificate of the graph-convolution kernel against its reference.

  Both programs compute, for 100,000 nodes in 64 graphs and 1,600,000 edges,
      msg[e] = sigmoid([x_dst, x_src, a_e] · W_f + b_f) * softplus([x_dst, x_src, a_e] · W_s + b_s),
      agg = the messages summed into their destination nodes,   h = relu(x + agg),
      out = (sum of h over each graph's nodes / max(node count, 1)) · lin_w + lin_b.
  The reference does it with host operations; the kernel program keeps the two gathers and the aggregation on the host
  and runs two kernels: one computes the messages block by block, as three partial products against row slices of the
  weights, and one accumulates the per-graph sums and counts over ten blocks of nodes by a product with the one-hot
  matrix of the graph ids, then divides, multiplies by lin_w and adds lin_b. Over the extended reals the three partial
  sums are the one sum over the joined columns, the one-hot product picks the rows of each graph exactly as the
  reference's scatter-add does (an id outside the 64 graphs matches nothing on either side), and the ten blocks' sums add
  up to the sum over all nodes: regrouping of finite sums only, so no finiteness of the inputs is used.

  Each kernel program's frame is its run item by item: host stretch, region, host stretch, region, every unscoped
  buffer held at named contents in between, no item writing an argument. The reference's frame is its run with the
  result dropped. The idealized kernel is the kernel's own text read over the extended reals: nothing was rewritten.
-/
import proofs.«411481_j80324478369805_2_alg».proof.Defs
import proofs.«411481_j80324478369805_2_alg».proof.Proof.Gen.Kernel
import proofs.«411481_j80324478369805_2_alg».proof.Proof.Gen.KernelIdeal
import proofs.«411481_j80324478369805_2_alg».proof.Proof.Gen.ReferenceIdeal
import proofs.«411481_j80324478369805_2_alg».proof.Proof.Gen.Pre_finite_inputs
import proofs.«411481_j80324478369805_2_alg».proof.Proof.Gen.ReferenceIdeal.Run
import proofs.«411481_j80324478369805_2_alg».proof.Proof.K.Run
import proofs.«411481_j80324478369805_2_alg».proof.Proof.KI.Run
import proofs.«411481_j80324478369805_2_alg».proof.Proof.KI.Bridge
import proofs.«411481_j80324478369805_2_alg».proof.Proof.Ref

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two results are one function of the arguments: the reference's term, cut at the gathers and at the aggregation,
    is the kernel program's, whose host operations are the same and whose two regions compute the two halves. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v55 m' c = Cert.KernelIdeal.Hand.W4 m ρ c (Proc.devRef .tc Cert.KernelIdeal.main_v32) := by
  rw [Cert.RefSide.res_eq, Cert.KernelIdeal.HandValue.W4_v32, h0, h1, h2, h3, h4, h5, h6, h7, h8, h9]
  rfl

theorem algebraic : Cert.algebraic_KernelIdeal_ReferenceIdeal := by
  intro m ρ m' ρ' _ hagree
  refine ⟨fun c => Cert.KernelIdeal.Hand.W4 m ρ c (Proc.devRef .tc Cert.KernelIdeal.main_v32), ?_, ?_⟩
  · exact (θ_run Cert.KernelIdeal.defs _ _).mono (fun r h c =>
      ⟨h c _ (Cert.KernelIdeal.Hand.mem_uc Cert.KernelIdeal.main_v32 (by decide)),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c),
        (h c _ (Cert.KernelIdeal.Hand.mem_uc Cert.KernelIdeal.main_arg5 (by decide))).trans (Cert.KernelIdeal.Hand.W4_main_arg5 m ρ c),
        (h c _ (Cert.KernelIdeal.Hand.mem_uc Cert.KernelIdeal.main_arg6 (by decide))).trans (Cert.KernelIdeal.Hand.W4_main_arg6 m ρ c),
        (h c _ (Cert.KernelIdeal.Hand.mem_uc Cert.KernelIdeal.main_arg7 (by decide))).trans (Cert.KernelIdeal.Hand.W4_main_arg7 m ρ c),
        (h c _ (Cert.KernelIdeal.Hand.mem_uc Cert.KernelIdeal.main_arg8 (by decide))).trans (Cert.KernelIdeal.Hand.W4_main_arg8 m ρ c),
        (h c _ (Cert.KernelIdeal.Hand.mem_uc Cert.KernelIdeal.main_arg9 (by decide))).trans (Cert.KernelIdeal.Hand.W4_main_arg9 m ρ c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    exact result_eq m ρ m' c h0 h1 h2 h3 h4 h5 h6 h7 h8 h9

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
